-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S1600000 : Shape := ⟨1, ![1600000]⟩
abbrev S64x1 : Shape := ⟨2, ![64, 1]⟩
abbrev S1 : Shape := ⟨1, ![1]⟩
abbrev S64x4 : Shape := ⟨2, ![64, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1600000 : S_.BroadcastsInDim S1600000 (![] : Fin 0 → Fin S1600000.rank)
  reducesTo_S1600000_S_d0 : S1600000.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg5 : IVec S1600000 32) (main_v63 : IVec S_ 1) (main_v65 : IVec S1600000 1) (main_v67 : IVec S1600000 1) : IVec S_ 1 :=
  let main_v68 : IVec S1600000 1 := andi main_v65 main_v67
  let main_c_26 : IVec S_ 1 := constantI S_ 1 1#1
  let main_v69 : IVec S_ 1 := (fun x v => Host.reduce IntOp.andi x v reducesTo_S1600000_S_d0 h_S_) main_v68 main_c_26
  let main_v70 : IVec S_ 1 := andi main_v63 main_v69
  let main_c_27 : IVec S_ 32 := constantI S_ 32 0#32
  let main_v71 : IVec S1600000 32 := broadcastInDim S1600000 ![] bcast_S_S1600000 main_c_27
  let main_v72 : IVec S1600000 1 := cmpi .sge main_arg5 main_v71
  let main_c_28 : IVec S_ 32 := constantI S_ 32 50000#32
  let main_v73 : IVec S1600000 32 := broadcastInDim S1600000 ![] bcast_S_S1600000 main_c_28
  let main_v74 : IVec S1600000 1 := cmpi .slt main_arg5 main_v73
  let main_v75 : IVec S1600000 1 := andi main_v72 main_v74
  let main_c_29 : IVec S_ 1 := constantI S_ 1 1#1
  let main_v76 : IVec S_ 1 := (fun x v => Host.reduce IntOp.andi x v reducesTo_S1600000_S_d0 h_S_) main_v75 main_c_29
  let main_v77 : IVec S_ 1 := andi main_v70 main_v76
  main_v77

def fn_part3 {F : FTy → Type} [FloatOps F] (main_arg4 : IVec S1600000 32) (main_arg5 : IVec S1600000 32) (main_arg13 : FVec F S4 .f32) (main_arg14 : FVec F S64x4 .f32) (main_v48 : IVec S_ 1) (main_v49 : FVec F S64x4 .f32) (main_v50 : FVec F S64x4 .f32) : IVec S_ 1 :=
  let main_v51 : IVec S64x4 1 := cmpf .olt main_v49 main_v50
  let main_c_19 : IVec S_ 1 := constantI S_ 1 1#1
  let main_v52 : IVec S_ 1 := (fun x v => Host.reduce IntOp.andi x v reducesTo_S64x4_S_d0_1 h_S_) main_v51 main_c_19
  let main_v53 : IVec S_ 1 := andi main_v48 main_v52
  let main_v54 : FVec F S4 .f32 := Host.absf main_arg13
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S64x4 .f32 := Host.absf main_arg14
  let main_cst_22 : FVec F S_ .f32 := constant S_ .f32 0x7F800000#32
  let main_v60 : FVec F S64x4 .f32 := broadcastInDim S64x4 ![] bcast_S_S64x4 main_cst_22
  let main_v61 : IVec S64x4 1 := cmpf .olt main_v59 main_v60
  let main_c_23 : IVec S_ 1 := constantI S_ 1 1#1
  let main_v62 : IVec S_ 1 := (fun x v => Host.reduce IntOp.andi x v reducesTo_S64x4_S_d0_1 h_S_) main_v61 main_c_23
  let main_v63 : IVec S_ 1 := andi main_v58 main_v62
  let main_c_24 : IVec S_ 32 := constantI S_ 32 0#32
  let main_v64 : IVec S1600000 32 := broadcastInDim S1600000 ![] bcast_S_S1600000 main_c_24
  let main_v65 : IVec S1600000 1 := cmpi .sge main_arg4 main_v64
  let main_c_25 : IVec S_ 32 := constantI S_ 32 50000#32
  let main_v66 : IVec S1600000 32 := broadcastInDim S1600000 ![] bcast_S_S1600000 main_c_25
  let main_v67 : IVec S1600000 1 := cmpi .slt main_arg4 main_v66
  fn_part4 (F := F) main_arg5 main_v63 main_v65 main_v67

def fn_part2 {F : FTy → Type} [FloatOps F] (main_arg4 : IVec S1600000 32) (main_arg5 : IVec S1600000 32) (main_arg9 : FVec F S1 .f32) (main_arg10 : FVec F S64x1 .f32) (main_arg11 : FVec F S1 .f32) (main_arg12 : FVec F S64x4 .f32) (main_arg13 : FVec F S4 .f32) (main_arg14 : FVec F S64x4 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x4 .f32 := Host.absf main_arg12
  let main_cst_18 : FVec F S_ .f32 := constant S_ .f32 0x7F800000#32
  let main_v50 : FVec F S64x4 .f32 := broadcastInDim S64x4 ![] bcast_S_S64x4 main_cst_18
  fn_part3 (F := F) main_arg4 main_arg5 main_arg13 main_arg14 main_v48 main_v49 main_v50

def fn_part1 {F : FTy → Type} [FloatOps F] (main_arg4 : IVec S1600000 32) (main_arg5 : IVec S1600000 32) (main_arg6 : FVec F S64x1 .f32) (main_arg7 : FVec F S1 .f32) (main_arg8 : FVec F S64x1 .f32) (main_arg9 : FVec F S1 .f32) (main_arg10 : FVec F S64x1 .f32) (main_arg11 : FVec F S1 .f32) (main_arg12 : FVec F S64x4 .f32) (main_arg13 : FVec F S4 .f32) (main_arg14 : FVec F S64x4 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg4 main_arg5 main_arg9 main_arg10 main_arg11 main_arg12 main_arg13 main_arg14 main_v33

def fn {F : FTy → Type} [FloatOps F] (main_arg0 : FVec F S50000x64 .f32) (main_arg1 : FVec F S50000x64 .f32) (main_arg2 : FVec F S1600000x64 .f32) (main_arg3 : FVec F S1600000 .f32) (main_arg4 : IVec S1600000 32) (main_arg5 : IVec S1600000 32) (main_arg6 : FVec F S64x1 .f32) (main_arg7 : FVec F S1 .f32) (main_arg8 : FVec F S64x1 .f32) (main_arg9 : FVec F S1 .f32) (main_arg10 : FVec F S64x1 .f32) (main_arg11 : FVec F S1 .f32) (main_arg12 : FVec F S64x4 .f32) (main_arg13 : FVec F S4 .f32) (main_arg14 : FVec F S64x4 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1600000x64 .f32 := Host.absf main_arg2
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x64 : Shape := ⟨2, ![50000, 64]⟩
abbrev S1600000x64 : Shape := ⟨2, ![1600000, 64]⟩
abbrev S1600000 : Shape := ⟨1, ![1600000]⟩
abbrev S64x1 : Shape := ⟨2, ![64, 1]⟩
abbrev S1 : Shape := ⟨1, ![1]⟩
abbrev S64x4 : Shape := ⟨2, ![64, 4]⟩
abbrev S4 : Shape := ⟨1, ![4]⟩
abbrev S_ : Shape := ⟨0, ![]⟩
abbrev S50048x64 : Shape := ⟨2, ![50048, 64]⟩
abbrev S1x64 : Shape := ⟨2, ![1, 64]⟩
abbrev S2x64 : Shape := ⟨2, ![2, 64]⟩
abbrev S2 : Shape := ⟨1, ![2]⟩
abbrev S2x1 : Shape := ⟨2, ![2, 1]⟩
abbrev S4x64 : Shape := ⟨2, ![4, 64]⟩
abbrev S8x64 : Shape := ⟨2, ![8, 64]⟩
abbrev S8 : Shape := ⟨1, ![8]⟩
abbrev S8x1 : Shape := ⟨2, ![8, 1]⟩
abbrev S10x50048 : Shape := ⟨2, ![10, 50048]⟩
abbrev S2944x64 : Shape := ⟨2, ![2944, 64]⟩
abbrev S10x2944 : Shape := ⟨2, ![10, 2944]⟩
abbrev S2x2944 : Shape := ⟨2, ![2, 2944]⟩
abbrev S8x2944 : Shape := ⟨2, ![8, 2944]⟩
abbrev S1x50048 : Shape := ⟨2, ![1, 50048]⟩
abbrev S50048 : Shape := ⟨1, ![50048]⟩
abbrev S4x50048 : Shape := ⟨2, ![4, 50048]⟩
abbrev S1600000x1 : Shape := ⟨2, ![1600000, 1]⟩
abbrev S1x1 : Shape := ⟨2, ![1, 1]⟩
abbrev S4x1600000 : Shape := ⟨2, ![4, 1600000]⟩
abbrev S1x1600000 : Shape := ⟨2, ![1, 1600000]⟩
abbrev S32000x64 : Shape := ⟨2, ![32000, 64]⟩
abbrev S1x32000 : Shape := ⟨2, ![1, 32000]⟩
abbrev S4x32000 : Shape := ⟨2, ![4, 32000]⟩
abbrev S32000 : Shape := ⟨1, ![32000]⟩
abbrev S50000 : Shape := ⟨1, ![50000]⟩

abbrev nBuf : Space → Nat
  | .hbm => 146
  | .vmem => 21
  | .smem => 0
  | _ => 0

abbrev hbmTy0_0 (i : Nat) : BufTy := match i % 128 with
  | 0 => ⟨S50000x64, .f32⟩
  | 1 => ⟨S50000x64, .f32⟩
  | 2 => ⟨S1600000x64, .f32⟩
  | 3 => ⟨S1600000, .f32⟩
  | 4 => ⟨S1600000, .i32⟩
  | 5 => ⟨S1600000, .i32⟩
  | 6 => ⟨S64x1, .f32⟩
  | 7 => ⟨S1, .f32⟩
  | 8 => ⟨S64x1, .f32⟩
  | 9 => ⟨S1, .f32⟩
  | 10 => ⟨S64x1, .f32⟩
  | 11 => ⟨S1, .f32⟩
  | 12 => ⟨S64x4, .f32⟩
  | 13 => ⟨S4, .f32⟩
  | 14 => ⟨S64x4, .f32⟩
  | 15 => ⟨S_, .i32⟩
  | 16 => ⟨S_, .f32⟩
  | 17 => ⟨S50048x64, .f32⟩
  | 18 => ⟨S_, .i32⟩
  | 19 => ⟨S_, .f32⟩
  | 20 => ⟨S50048x64, .f32⟩
  | 21 => ⟨S1x64, .f32⟩
  | 22 => ⟨S1x64, .f32⟩
  | 23 => ⟨S2x64, .f32⟩
  | 24 => ⟨S1, .f32⟩
  | 25 => ⟨S2, .f32⟩
  | 26 => ⟨S2x1, .f32⟩
  | 27 => ⟨S4x64, .f32⟩
  | 28 => ⟨S4x64, .f32⟩
  | 29 => ⟨S8x64, .f32⟩
  | 30 => ⟨S_, .f32⟩
  | 31 => ⟨S4, .f32⟩
  | 32 => ⟨S8, .f32⟩
  | 33 => ⟨S8x1, .f32⟩
  | 34 => ⟨S10x50048, .f32⟩
  | 35 => ⟨S1x50048, .f32⟩
  | 36 => ⟨S50048, .f32⟩
  | 37 => ⟨S1x50048, .f32⟩
  | 38 => ⟨S50048, .f32⟩
  | 39 => ⟨S4x50048, .f32⟩
  | 40 => ⟨S4x50048, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1, .i32⟩
  | 50 => ⟨S_, .i32⟩
  | 51 => ⟨S1600000x1, .i32⟩
  | 52 => ⟨S1600000x1, .i1⟩
  | 53 => ⟨S1x1, .i32⟩
  | 54 => ⟨S1600000x1, .i32⟩
  | 55 => ⟨S1600000x1, .i1⟩
  | 56 => ⟨S1600000x1, .i1⟩
  | 57 => ⟨S_, .i1⟩
  | 58 => ⟨S1600000, .i1⟩
  | 59 => ⟨S1600000, .f32⟩
  | 60 => ⟨S_, .f32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1, .i32⟩
  | 72 => ⟨S_, .i32⟩
  | 73 => ⟨S1600000x1, .i32⟩
  | 74 => ⟨S1600000x1, .i1⟩
  | 75 => ⟨S1x1, .i32⟩
  | 76 => ⟨S1600000x1, .i32⟩
  | 77 => ⟨S1600000x1, .i1⟩
  | 78 => ⟨S1600000x1, .i1⟩
  | 79 => ⟨S_, .i1⟩
  | 80 => ⟨S1600000, .i1⟩
  | 81 => ⟨S1600000, .f32⟩
  | 82 => ⟨S_, .f32⟩
  | 83 => ⟨S1600000, .f32⟩
  | 84 => ⟨S1600000, .f32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1, .i32⟩
  | 95 => ⟨S_, .i32⟩
  | 96 => ⟨S1600000x1, .i32⟩
  | 97 => ⟨S1600000x1, .i1⟩
  | 98 => ⟨S1x1, .i32⟩
  | 99 => ⟨S1600000x1, .i32⟩
  | 100 => ⟨S1600000x1, .i1⟩
  | 101 => ⟨S1600000x1, .i1⟩
  | 102 => ⟨S_, .i1⟩
  | 103 => ⟨S1600000, .i1⟩
  | 104 => ⟨S4x1600000, .f32⟩
  | 105 => ⟨S4x1600000, .i1⟩
  | 106 => ⟨S_, .f32⟩
  | 107 => ⟨S4x1600000, .f32⟩
  | 108 => ⟨S4x1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1, .i32⟩
  | 118 => ⟨S_, .i32⟩
  | 119 => ⟨S1600000x1, .i32⟩
  | 120 => ⟨S1600000x1, .i1⟩
  | 121 => ⟨S1x1, .i32⟩
  | 122 => ⟨S1600000x1, .i32⟩
  | 123 => ⟨S1600000x1, .i1⟩
  | 124 => ⟨S1600000x1, .i1⟩
  | 125 => ⟨S_, .i1⟩
  | 126 => ⟨S1600000, .i1⟩
  | 127 => ⟨S4x1600000, .f32⟩
  | _ => ⟨S50000x64, .f32⟩

abbrev hbmTy0_1 (i : Nat) : BufTy := match i % 128 with
  | 0 => ⟨S4x1600000, .i1⟩
  | 1 => ⟨S_, .f32⟩
  | 2 => ⟨S4x1600000, .f32⟩
  | 3 => ⟨S4x1600000, .f32⟩
  | 4 => ⟨S4x1600000, .f32⟩
  | 5 => ⟨S1x1600000, .f32⟩
  | 6 => ⟨S1x1600000, .f32⟩
  | 7 => ⟨S1x64, .f32⟩
  | 8 => ⟨S1x1600000, .f32⟩
  | 9 => ⟨S1600000, .f32⟩
  | 10 => ⟨S_, .f32⟩
  | 11 => ⟨S50000, .f32⟩
  | 12 => ⟨S1600000x1, .i32⟩
  | 13 => ⟨S50000, .f32⟩
  | 14 => ⟨S_, .f32⟩
  | 15 => ⟨S_, .f32⟩
  | 16 => ⟨S_, .f32⟩
  | 17 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2944x64, .f32⟩
  | .local _ .vmem, ⟨1, _⟩ => ⟨S2944x64, .f32⟩
  | .local _ .vmem, ⟨2, _⟩ => ⟨S2944x64, .f32⟩
  | .local _ .vmem, ⟨3, _⟩ => ⟨S2944x64, .f32⟩
  | .local _ .vmem, ⟨4, _⟩ => ⟨S2x64, .f32⟩
  | .local _ .vmem, ⟨5, _⟩ => ⟨S2x1, .f32⟩
  | .local _ .vmem, ⟨6, _⟩ => ⟨S8x64, .f32⟩
  | .local _ .vmem, ⟨7, _⟩ => ⟨S8x1, .f32⟩
  | .local _ .vmem, ⟨8, _⟩ => ⟨S10x2944, .f32⟩
  | .local _ .vmem, ⟨9, _⟩ => ⟨S10x2944, .f32⟩
  | .local _ .vmem, ⟨10, _⟩ => ⟨S32000x64, .f32⟩
  | .local _ .vmem, ⟨11, _⟩ => ⟨S32000x64, .f32⟩
  | .local _ .vmem, ⟨12, _⟩ => ⟨S1x32000, .f32⟩
  | .local _ .vmem, ⟨13, _⟩ => ⟨S1x32000, .f32⟩
  | .local _ .vmem, ⟨14, _⟩ => ⟨S1x32000, .f32⟩
  | .local _ .vmem, ⟨15, _⟩ => ⟨S1x32000, .f32⟩
  | .local _ .vmem, ⟨16, _⟩ => ⟨S4x32000, .f32⟩
  | .local _ .vmem, ⟨17, _⟩ => ⟨S4x32000, .f32⟩
  | .local _ .vmem, ⟨18, _⟩ => ⟨S1x64, .f32⟩
  | .local _ .vmem, ⟨19, _⟩ => ⟨S1x32000, .f32⟩
  | .local _ .vmem, ⟨20, _⟩ => ⟨S1x32000, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v21 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v22 : Ref sig .tc := ⟨.hbm, 84, rfl⟩
abbrev main_v23 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v24 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_call5_cst : Ref sig .tc := ⟨.hbm, 129, rfl⟩
abbrev main_call5_v15 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_cst_1 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_cst_2 : Ref sig .tc := ⟨.hbm, 142, rfl⟩
abbrev main_v35 : Ref sig .tc := ⟨.hbm, 143, rfl⟩
abbrev main_cst_3 : Ref sig .tc := ⟨.hbm, 144, rfl⟩
abbrev main_v36 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2944x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2944x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x32000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x32000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S50000x64_S50048x64_0480_000 : S50000x64.Pads (![0, 0] : Fin 2 → Nat) ![48, 0] ![0, 0] S50048x64
  h_S_ : 0 < S_.numel
  transposes_S64x1_S1x64_1_0 : S64x1.Transposes [1, 0] S1x64
  concatenates_S1x64_S1x64_S2x64_d0 : Shape.Concatenates [S1x64, S1x64] S2x64 0
  concatenates_S1_S1_S2_d0 : Shape.Concatenates [S1, S1] S2 0
  shapeCasts_S2_S2x1 : S2.ShapeCasts S2x1
  transposes_S64x4_S4x64_1_0 : S64x4.Transposes [1, 0] S4x64
  concatenates_S4x64_S4x64_S8x64_d0 : Shape.Concatenates [S4x64, S4x64] S8x64 0
  bcast_S_S4 : S_.BroadcastsInDim S4 (![] : Fin 0 → Fin S4.rank)
  concatenates_S4_S4_S8_d0 : Shape.Concatenates [S4, S4] S8 0
  shapeCasts_S8_S8x1 : S8.ShapeCasts S8x1
  inb_S2944x64_S2944x64_0_0 : ∀ a, (![0, 0] : Fin 2 → Nat) a + S2944x64.size a ≤ S2944x64.size a
  h_S2944x64 : 0 < S2944x64.numel
  shapeCasts_S2944x64_S2944x64 : S2944x64.ShapeCasts S2944x64
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x2944 : S2x1.Broadcasts S2x2944
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x2944 : S8x1.Broadcasts S8x2944
  concatenates_S2x2944_S8x2944_S10x2944_d0 : Shape.Concatenates [S2x2944, S8x2944] S10x2944 0
  inb_S10x2944_S10x2944_0_0 : ∀ a, (![0, 0] : Fin 2 → Nat) a + S10x2944.size a ≤ S10x2944.size a
  h_S10x2944 : 0 < S10x2944.numel
  slices_S10x50048_S1x50048_0_0 : S10x50048.Slices ![0, 0] S1x50048
  shapeCasts_S1x50048_S50048 : S1x50048.ShapeCasts S50048
  slices_S10x50048_S1x50048_1_0 : S10x50048.Slices ![1, 0] S1x50048
  slices_S10x50048_S4x50048_2_0 : S10x50048.Slices ![2, 0] S4x50048
  slices_S10x50048_S4x50048_6_0 : S10x50048.Slices ![6, 0] S4x50048
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S4x1600000_1 : S1600000.BroadcastsInDim S4x1600000 (![1] : Fin 1 → Fin S4x1600000.rank)
  bcast_S_S4x1600000 : S_.BroadcastsInDim S4x1600000 (![] : Fin 0 → Fin S4x1600000.rank)
  bcast_S1600000_S1x1600000_1 : S1600000.BroadcastsInDim S1x1600000 (![1] : Fin 1 → Fin S1x1600000.rank)
  inb_S32000x64_S32000x64_0_0 : ∀ a, (![0, 0] : Fin 2 → Nat) a + S32000x64.size a ≤ S32000x64.size a
  h_S32000x64 : 0 < S32000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x32000_S32000 : S1x32000.ShapeCasts S32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  inb_S4x32000_S4x32000_0_0 : ∀ a, (![0, 0] : Fin 2 → Nat) a + S4x32000.size a ≤ S4x32000.size a
  h_S4x32000 : 0 < S4x32000.numel
  shapeCasts_S4x32000_S4x32000 : S4x32000.ShapeCasts S4x32000
  slices_S4x32000_o0_0_S1x32000 : S4x32000.Slices ![0, 0] S1x32000
  slices_S4x32000_o1_0_S1x32000 : S4x32000.Slices ![1, 0] S1x32000
  slices_S4x32000_o2_0_S1x32000 : S4x32000.Slices ![2, 0] S1x32000
  slices_S4x32000_o3_0_S1x32000 : S4x32000.Slices ![3, 0] S1x32000
  shapeCasts_S32000_S1x32000 : S32000.ShapeCasts S1x32000
  shapeCasts_S1x1600000_S1600000 : S1x1600000.ShapeCasts S1600000
  bcast_S_S50000 : S_.BroadcastsInDim S50000 (![] : Fin 0 → Fin S50000.rank)
  reducesTo_S50000_S_d0 : S50000.ReducesTo [0] S_
  dot_S2x64_S2944x64_S2x2944_1_1_0_0_n_n_wf : DotDims.WF S2x64 S2944x64 S2x2944 [1] [1] [0] [0] [] []
  dot_S8x64_S2944x64_S8x2944_1_1_0_0_n_n_wf : DotDims.WF S8x64 S2944x64 S8x2944 [1] [1] [0] [0] [] []
  gather_S50048_S1600000x1_S1600000_n_0_n_n_0_1_1_wf : GatherDims.WF S50048 S1600000x1 S1600000 [] [0] [] [0] [] 1 ![1]
  gather_S4x50048_S1600000x1_S4x1600000_0_1_n_n_1_1_41_wf : GatherDims.WF S4x50048 S1600000x1 S4x1600000 [0] [1] [] [1] [] 1 ![4, 1]
  dot_S1x64_S32000x64_S1x32000_1_1_0_0_n_n_wf : DotDims.WF S1x64 S32000x64 S1x32000 [1] [1] [0] [0] [] []
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2944x64.size a ≤ S50048x64.size a
  hwx0_0 : ∀ i : grid0.Coords, EltTy.bits .f32 = 32 ∨ (Rect.block (s := S50048x64) S2944x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x64.size a ≤ S50048x64.size a
  hwx0_1 : ∀ i : grid0.Coords, EltTy.bits .f32 = 32 ∨ (Rect.block (s := S50048x64) S2944x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10x2944.size a ≤ S10x50048.size a
  hwx0_6 : ∀ i : grid0.Coords, EltTy.bits .f32 = 32 ∨ (Rect.block (s := S10x50048) S10x2944.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32000x64.size a ≤ S1600000x64.size a
  hwx1_0 : ∀ i : grid1.Coords, EltTy.bits .f32 = 32 ∨ (Rect.block (s := S1600000x64) S32000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32000.size a ≤ S1x1600000.size a
  hwx1_1 : ∀ i : grid1.Coords, EltTy.bits .f32 = 32 ∨ (Rect.block (s := S1x1600000) S1x32000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32000.size a ≤ S1x1600000.size a
  hwx1_2 : ∀ i : grid1.Coords, EltTy.bits .f32 = 32 ∨ (Rect.block (s := S1x1600000) S1x32000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x32000.size a ≤ S4x1600000.size a
  hwx1_3 : ∀ i : grid1.Coords, EltTy.bits .f32 = 32 ∨ (Rect.block (s := S4x1600000) S4x32000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32000.size a ≤ S1x1600000.size a
  hwx1_5 : ∀ i : grid1.Coords, EltTy.bits .f32 = 32 ∨ (Rect.block (s := S1x1600000) S1x32000.size (cc1_transform_5 i) (hinb1_5 i)).WholeWords (EltTy.packing .f32)

variable [Facts₀]

def dot_S2x64_S2944x64_S2x2944_1_1_0_0_n_n : DotDims S2x64 S2944x64 S2x2944 where
  lhsContracting := [1]
  rhsContracting := [1]
  lhsNonContracting := [0]
  rhsNonContracting := [0]
  lhsBatch := []
  rhsBatch := []
  wf := dot_S2x64_S2944x64_S2x2944_1_1_0_0_n_n_wf
def dot_S8x64_S2944x64_S8x2944_1_1_0_0_n_n : DotDims S8x64 S2944x64 S8x2944 where
  lhsContracting := [1]
  rhsContracting := [1]
  lhsNonContracting := [0]
  rhsNonContracting := [0]
  lhsBatch := []
  rhsBatch := []
  wf := dot_S8x64_S2944x64_S8x2944_1_1_0_0_n_n_wf
def gather_S50048_S1600000x1_S1600000_n_0_n_n_0_1_1 : GatherDims S50048 S1600000x1 S1600000 where
  offsetDims := []
  collapsedSliceDims := [0]
  operandBatchingDims := []
  startIndicesBatchingDims := []
  startIndexMap := [0]
  indexVectorDim := 1
  sliceSizes := ![1]
  wf := gather_S50048_S1600000x1_S1600000_n_0_n_n_0_1_1_wf
def gather_S4x50048_S1600000x1_S4x1600000_0_1_n_n_1_1_41 : GatherDims S4x50048 S1600000x1 S4x1600000 where
  offsetDims := [0]
  collapsedSliceDims := [1]
  operandBatchingDims := []
  startIndicesBatchingDims := []
  startIndexMap := [1]
  indexVectorDim := 1
  sliceSizes := ![4, 1]
  wf := gather_S4x50048_S1600000x1_S4x1600000_0_1_n_n_1_1_41_wf
def dot_S1x64_S32000x64_S1x32000_1_1_0_0_n_n : DotDims S1x64 S32000x64 S1x32000 where
  lhsContracting := [1]
  rhsContracting := [1]
  lhsNonContracting := [0]
  rhsNonContracting := [0]
  lhsBatch := []
  rhsBatch := []
  wf := dot_S1x64_S32000x64_S1x32000_1_1_0_0_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_v0) S2944x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2944x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S10x2944.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S32000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x32000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S4x32000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x32000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S1600000 : Shape := ⟨1, ![1600000]⟩
abbrev S64x1 : Shape := ⟨2, ![64, 1]⟩
abbrev S1 : Shape := ⟨1, ![1]⟩
abbrev S64x4 : Shape := ⟨2, ![64, 4]⟩
abbrev S4 : Shape := ⟨1, ![4]⟩
abbrev S50000x1 : Shape := ⟨2, ![50000, 1]⟩
abbrev S1x1 : Shape := ⟨2, ![1, 1]⟩
abbrev S_ : Shape := ⟨0, ![]⟩
abbrev S1600000x1 : Shape := ⟨2, ![1600000, 1]⟩
abbrev S50000x4 : Shape := ⟨2, ![50000, 4]⟩
abbrev S1x4 : Shape := ⟨2, ![1, 4]⟩
abbrev S1600000x4 : Shape := ⟨2, ![1600000, 4]⟩
abbrev S50000 : Shape := ⟨1, ![50000]⟩

abbrev nBuf : Space → Nat
  | .hbm => 136
  | .vmem => 0
  | .smem => 0
  | _ => 0

abbrev hbmTy0_0 (i : Nat) : BufTy := match i % 128 with
  | 0 => ⟨S50000x64, .f32⟩
  | 1 => ⟨S50000x64, .f32⟩
  | 2 => ⟨S1600000x64, .f32⟩
  | 3 => ⟨S1600000, .f32⟩
  | 4 => ⟨S1600000, .i32⟩
  | 5 => ⟨S1600000, .i32⟩
  | 6 => ⟨S64x1, .f32⟩
  | 7 => ⟨S1, .f32⟩
  | 8 => ⟨S64x1, .f32⟩
  | 9 => ⟨S1, .f32⟩
  | 10 => ⟨S64x1, .f32⟩
  | 11 => ⟨S1, .f32⟩
  | 12 => ⟨S64x4, .f32⟩
  | 13 => ⟨S4, .f32⟩
  | 14 => ⟨S64x4, .f32⟩
  | 15 => ⟨S50000x1, .f32⟩
  | 16 => ⟨S1x1, .f32⟩
  | 17 => ⟨S50000x1, .f32⟩
  | 18 => ⟨S50000x1, .f32⟩
  | 19 => ⟨S50000x1, .f32⟩
  | 20 => ⟨S1x1, .f32⟩
  | 21 => ⟨S50000x1, .f32⟩
  | 22 => ⟨S50000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x1, .f32⟩
  | 41 => ⟨S1600000x1, .f32⟩
  | 42 => ⟨S1600000x1, .f32⟩
  | 43 => ⟨S1x1, .f32⟩
  | 44 => ⟨S1600000x1, .f32⟩
  | 45 => ⟨S1600000x1, .f32⟩
  | 46 => ⟨S1600000x1, .f32⟩
  | 47 => ⟨S1600000x1, .f32⟩
  | 48 => ⟨S1600000x1, .f32⟩
  | 49 => ⟨S_, .f32⟩
  | 50 => ⟨S1600000x1, .f32⟩
  | 51 => ⟨S1600000x1, .f32⟩
  | 52 => ⟨S_, .f32⟩
  | 53 => ⟨S1600000x1, .f32⟩
  | 54 => ⟨S1600000x1, .f32⟩
  | 55 => ⟨S1600000, .f32⟩
  | 56 => ⟨S50000x4, .f32⟩
  | 57 => ⟨S1x4, .f32⟩
  | 58 => ⟨S50000x4, .f32⟩
  | 59 => ⟨S50000x4, .f32⟩
  | 60 => ⟨S50000x4, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x4, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x4, .f32⟩
  | 79 => ⟨S1600000x4, .f32⟩
  | 80 => ⟨S1600000x4, .f32⟩
  | 81 => ⟨S1600000x1, .f32⟩
  | 82 => ⟨S1600000, .f32⟩
  | 83 => ⟨S1600000x1, .f32⟩
  | 84 => ⟨S1600000, .f32⟩
  | 85 => ⟨S1600000, .f32⟩
  | 86 => ⟨S1600000, .f32⟩
  | 87 => ⟨S1600000, .f32⟩
  | 88 => ⟨S1600000, .f32⟩
  | 89 => ⟨S1600000x1, .f32⟩
  | 90 => ⟨S1600000, .f32⟩
  | 91 => ⟨S1600000x1, .f32⟩
  | 92 => ⟨S1600000, .f32⟩
  | 93 => ⟨S1600000, .f32⟩
  | 94 => ⟨S1600000, .f32⟩
  | 95 => ⟨S1600000, .f32⟩
  | 96 => ⟨S1600000, .f32⟩
  | 97 => ⟨S_, .f32⟩
  | 98 => ⟨S1600000, .f32⟩
  | 99 => ⟨S1600000, .i1⟩
  | 100 => ⟨S_, .f32⟩
  | 101 => ⟨S1600000, .f32⟩
  | 102 => ⟨S_, .f32⟩
  | 103 => ⟨S1600000, .f32⟩
  | 104 => ⟨S1600000, .f32⟩
  | 105 => ⟨S_, .f32⟩
  | 106 => ⟨S1600000, .f32⟩
  | 107 => ⟨S1600000, .f32⟩
  | 108 => ⟨S_, .f32⟩
  | 109 => ⟨S1600000, .f32⟩
  | 110 => ⟨S1600000, .f32⟩
  | 111 => ⟨S1600000, .f32⟩
  | 112 => ⟨S_, .f32⟩
  | 113 => ⟨S1600000, .f32⟩
  | 114 => ⟨S1600000, .f32⟩
  | 115 => ⟨S_, .f32⟩
  | 116 => ⟨S1600000, .f32⟩
  | 117 => ⟨S1600000, .f32⟩
  | 118 => ⟨S1600000, .f32⟩
  | 119 => ⟨S_, .f32⟩
  | 120 => ⟨S1600000, .f32⟩
  | 121 => ⟨S1600000, .i1⟩
  | 122 => ⟨S_, .f32⟩
  | 123 => ⟨S1600000, .f32⟩
  | 124 => ⟨S1600000, .f32⟩
  | 125 => ⟨S1600000, .f32⟩
  | 126 => ⟨S1600000, .f32⟩
  | 127 => ⟨S1600000, .f32⟩
  | _ => ⟨S50000x64, .f32⟩

abbrev hbmTy0_1 (i : Nat) : BufTy := match i % 128 with
  | 0 => ⟨S_, .f32⟩
  | 1 => ⟨S50000, .f32⟩
  | 2 => ⟨S1600000x1, .i32⟩
  | 3 => ⟨S50000, .f32⟩
  | 4 => ⟨S_, .f32⟩
  | 5 => ⟨S_, .f32⟩
  | 6 => ⟨S_, .f32⟩
  | 7 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_18 : Ref sig .tc := ⟨.hbm, 132, rfl⟩
abbrev main_v97 : Ref sig .tc := ⟨.hbm, 133, rfl⟩
abbrev main_cst_19 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  slices_S1600000x4_S1600000x1_0_0 : S1600000x4.Slices ![0, 0] S1600000x1
  slices_S1600000x4_S1600000x1_0_1 : S1600000x4.Slices ![0, 1] S1600000x1
  slices_S1600000x4_S1600000x1_0_2 : S1600000x4.Slices ![0, 2] S1600000x1
  slices_S1600000x4_S1600000x1_0_3 : S1600000x4.Slices ![0, 3] S1600000x1
  bcast_S_S50000 : S_.BroadcastsInDim S50000 (![] : Fin 0 → Fin S50000.rank)
  reducesTo_S50000_S_d0 : S50000.ReducesTo [0] S_
  h_S_ : 0 < S_.numel
  dot_S50000x64_S64x1_S50000x1_1_0_0_1_n_n_wf : DotDims.WF S50000x64 S64x1 S50000x1 [1] [0] [0] [1] [] []
  gather_S50000x1_S1600000x1_S1600000x1_1_0_n_n_0_1_11_wf : GatherDims.WF S50000x1 S1600000x1 S1600000x1 [1] [0] [] [0] [] 1 ![1, 1]
  dot_S1600000x64_S64x1_S1600000x1_1_0_0_1_n_n_wf : DotDims.WF S1600000x64 S64x1 S1600000x1 [1] [0] [0] [1] [] []
  dot_S50000x64_S64x4_S50000x4_1_0_0_1_n_n_wf : DotDims.WF S50000x64 S64x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000_S1600000x1_S1600000_n_0_0_1_wf : ScatterDims.WF S50000 S1600000x1 S1600000 [] [0] [0] 1

variable [Facts₀]

def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Tail.lean ====
/-
  Both programs end with the same three host lines on the pair energies V and the destination words: scatter-add V
  onto a zero vector of 50000 node energies at the destination words (words outside the vector are dropped), sum
  the node energies, divide by 50000. Each program spells these lines with its own copies of the same side
  conditions; as functions of (V, dst) the two spellings are one.
-/
import proofs.«406755_j64407329571244_2_alg».proof.Proof.Gen.KernelIdeal
import proofs.«406755_j64407329571244_2_alg».proof.Proof.Gen.ReferenceIdeal
import Idealize.ShloMosaic.PureOps.Ideal

noncomputable section

namespace Cert.Tail

open Idealize.ShloMosaic

section K
open Cert.KernelIdeal Cert.KernelIdeal.Facts Cert.KernelIdeal.Facts₀

/-- The node energies, in the kernel program's spelling. -/
def atomK (V : FVec Ideal S1600000 .f32) (dst : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 dst) V

/-- Their mean, in the kernel program's spelling. -/
def meanK (V : FVec Ideal S1600000 .f32) (dst : IVec S1600000 32) : FVec Ideal S_ .f32 :=
  Host.divf (Host.reduceAdd (atomK V dst) (constant S_ .f32 0x00000000#32) reducesTo_S50000_S_d0 h_S_)
    (constant S_ .f32 0x47435000#32)
end K

section R
open Cert.ReferenceIdeal Cert.ReferenceIdeal.Facts Cert.ReferenceIdeal.Facts₀

/-- The node energies, in the reference program's spelling. -/
def atomR (V : FVec Ideal S1600000 .f32) (dst : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 dst) V

/-- Their mean, in the reference program's spelling. -/
def meanR (V : FVec Ideal S1600000 .f32) (dst : IVec S1600000 32) : FVec Ideal S_ .f32 :=
  Host.divf (Host.reduceAdd (atomR V dst) (constant S_ .f32 0x00000000#32) reducesTo_S50000_S_d0 h_S_)
    (constant S_ .f32 0x47435000#32)
end R

/-- The two spellings of the node energies are one function. -/
theorem atom_eq (V : FVec Ideal Cert.KernelIdeal.S1600000 .f32) (dst : IVec Cert.KernelIdeal.S1600000 32) :
    atomK V dst = atomR V dst := rfl

/-- The two spellings of the mean are one function. -/
theorem mean_eq (V : FVec Ideal Cert.KernelIdeal.S1600000 .f32) (dst : IVec Cert.KernelIdeal.S1600000 32) :
    meanK V dst = meanR V dst := rfl

end Cert.Tail

end
-- ==== Proof.KernelOut.lean ====
/-
  The last host lines of the kernel's program, read off the fold of buffer contents: after the second kernel region
  the program reshapes the 1×E row of pair energies to a vector, scatter-adds it onto 50000 zeros at the destination
  words, sums and divides by 50000. So the two results at the last boundary are the common tail of (the reshaped
  row the second region left, the destination words as the region's exit finds them); and the destination words,
  which no host line and no region writes, are still the launch memory's.
-/
import proofs.«406755_j64407329571244_2_alg».proof.Proof.Gen.KernelIdeal.Frame
import proofs.«406755_j64407329571244_2_alg».proof.Proof.Tail
import Idealize.ShloMosaic.Lib.StableHlo.Run

set_option maxRecDepth 16384

noncomputable section

namespace Cert.KernelIdeal.Out

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable (m : (ℓ : Loc nD τ sig) → Buf (Elt Ideal) ℓ) (ρ : Dev nD → PrngReg)

/-- The node energies at the last boundary: the tail of the reshaped row and the destination words. -/
theorem v34_eq (c : Dev nD) : W15 (F := Ideal) m ρ c (Proc.devRef .tc main_v34)
    = Cert.Tail.atomK (shapeCast S1600000 (W14 m ρ c (Proc.devRef .tc main_v30)) Facts₀.shapeCasts_S1x1600000_S1600000)
        (W14 m ρ c (Proc.devRef .tc main_arg5)) := by
  dsimp only [W15, hostOps2]
  after_results
  rfl

/-- Their mean at the last boundary. -/
theorem v36_eq (c : Dev nD) : W15 (F := Ideal) m ρ c (Proc.devRef .tc main_v36)
    = Cert.Tail.meanK (shapeCast S1600000 (W14 m ρ c (Proc.devRef .tc main_v30)) Facts₀.shapeCasts_S1x1600000_S1600000)
        (W14 m ρ c (Proc.devRef .tc main_arg5)) := by
  dsimp only [W15, hostOps2]
  after_results
  rfl

/-- The destination words at the second region's exit are the launch memory's: the last host lines do not write
    them, and at the last boundary they are as launched. -/
theorem W14_main_arg5 (c : Dev nD) : W14 (F := Ideal) m ρ c (Proc.devRef .tc main_arg5) = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W15_main_arg5 m ρ c)

end Cert.KernelIdeal.Out

end
-- ==== Proof.Spec.lean ====
/-
  The common meeting point of the two programs: the pair energy of one edge as ONE function of the fifteen argument
  arrays, over the extended reals.

  For an edge e with source node s and destination node d (rows of the node tables; the words of the two index arrays
  read as naturals):
    gate      m(e)   = ((x[s]·Wsg + bsg) + (x[d]·Wdg + bdg)) + (y[e]·Weg + beg)
    bond order b(e)  = 1 / (1 + exp (-m(e)))
    parameters p_j(e) = exp ((x0[s]·Wsp[:,j] + bsp[j]) + x0[d]·Wdp[:,j]),  j = 0..3
    repulsion  f_r(e) = p_0 · exp (-(p_1) · r(e)),  attraction f_a(e) = p_2 · exp (-(p_3) · r(e)),  r = bond length
    cutoff     c(r)   = 0 if r > 4, else 1 if r < 3.8, else 1/2 - 1/2 · sin (π (r - 3.9) / 0.2)   (the float words kept as words)
    energy     V(e)   = c(r(e)) · (f_r(e) - b(e) · f_a(e))
  A dot product is the plain sum over the 64 hidden coordinates of the products, row entry first.
-/
import Idealize.ShloMosaic.PureOps.Ideal
import Idealize.ShloMosaic.Lib.ValueIdx

noncomputable section

namespace Cert.Spec

open Idealize.ShloMosaic Idealize.ShloMosaic.ValueIdx

abbrev SNx64 : Shape := ⟨2, ![50000, 64]⟩
abbrev SEx64 : Shape := ⟨2, ![1600000, 64]⟩
abbrev SE : Shape := ⟨1, ![1600000]⟩
abbrev S64x1 : Shape := ⟨2, ![64, 1]⟩
abbrev S1 : Shape := ⟨1, ![1]⟩
abbrev S64x4 : Shape := ⟨2, ![64, 4]⟩
abbrev S4 : Shape := ⟨1, ![4]⟩

/-- The fifteen argument arrays, in the order of the programs' parameters. -/
structure Inputs where
  x : FVec Ideal SNx64 .f32
  x0 : FVec Ideal SNx64 .f32
  y : FVec Ideal SEx64 .f32
  bl : FVec Ideal SE .f32
  src : IVec SE 32
  dst : IVec SE 32
  Wsg : FVec Ideal S64x1 .f32
  bsg : FVec Ideal S1 .f32
  Wdg : FVec Ideal S64x1 .f32
  bdg : FVec Ideal S1 .f32
  Weg : FVec Ideal S64x1 .f32
  beg : FVec Ideal S1 .f32
  Wsp : FVec Ideal S64x4 .f32
  bsp : FVec Ideal S4 .f32
  Wdp : FVec Ideal S64x4 .f32

/-- Every edge's two node words name a node: read as naturals they are below 50000. -/
def InRange (I : Inputs) : Prop :=
  ∀ e : Fin 1600000, (I.src (ix1 e)).toNat < 50000 ∧ (I.dst (ix1 e)).toNat < 50000

/-- The node a word names (total: the word's value modulo the number of nodes; the value itself when in range). -/
def row (w : BitVec 32) : Fin 50000 := ⟨w.toNat % 50000, Nat.mod_lt _ (by norm_num)⟩

theorem row_val_of_lt {w : BitVec 32} (h : w.toNat < 50000) : (row w).val = w.toNat := Nat.mod_eq_of_lt h

/-- Row n of a node table against column j of a weight matrix with c columns. -/
def dotN {c : Nat} (t : FVec Ideal SNx64 .f32) (W : FVec Ideal ⟨2, ![64, c]⟩ .f32) (n : Fin 50000) (j : Fin c) : EReal :=
  ∑ k : Fin 64, t (ix2 n k) * W (ix2 k j)

/-- Row e of the edge features against the one column of the edge gate's weights. -/
def dotE (t : FVec Ideal SEx64 .f32) (W : FVec Ideal S64x1 .f32) (e : Fin 1600000) : EReal :=
  ∑ k : Fin 64, t (ix2 e k) * W (ix2 k 0)

def one : EReal := Ideal.ofBits .f32 0x3F800000#32
def zero : EReal := Ideal.ofBits .f32 0x00000000#32
def half : EReal := Ideal.ofBits .f32 0x3F000000#32
def c38 : EReal := Ideal.ofBits .f32 0x40733333#32
def c39 : EReal := Ideal.ofBits .f32 0x4079999A#32
def c40 : EReal := Ideal.ofBits .f32 0x40800000#32
def cpi : EReal := Ideal.ofBits .f32 0x40490FDB#32
def c02 : EReal := Ideal.ofBits .f32 0x3E4CCCCD#32

/-- The smooth cutoff of a bond length. -/
def cut (r : EReal) : EReal :=
  Scalar.select (Ideal.cmp .ogt r c40) zero
    (Scalar.select (Ideal.cmp .olt r c38) one (half - half * Ideal.sin (Ideal.div (cpi * (r - c39)) c02)))

variable (I : Inputs)

/-- The gate's argument at an edge. -/
def gate (e : Fin 1600000) : EReal :=
  ((dotN I.x I.Wsg (row (I.src (ix1 e))) 0 + I.bsg (ix1 0)) + (dotN I.x I.Wdg (row (I.dst (ix1 e))) 0 + I.bdg (ix1 0)))
    + (dotE I.y I.Weg e + I.beg (ix1 0))

/-- The bond order: the logistic function of the gate, spelt by its quotient. -/
def bond (e : Fin 1600000) : EReal := Ideal.div one (one + Ideal.exp (-(gate I e)))

/-- The j-th pair parameter at an edge. -/
def par (e : Fin 1600000) (j : Fin 4) : EReal :=
  Ideal.exp ((dotN I.x0 I.Wsp (row (I.src (ix1 e))) j + I.bsp (ix1 j)) + dotN I.x0 I.Wdp (row (I.dst (ix1 e))) j)

def repulse (e : Fin 1600000) : EReal := par I e 0 * Ideal.exp (-(par I e 1) * I.bl (ix1 e))
def attract (e : Fin 1600000) : EReal := par I e 2 * Ideal.exp (-(par I e 3) * I.bl (ix1 e))

/-- The pair energy of an edge. -/
def energy (e : Fin 1600000) : EReal := cut (I.bl (ix1 e)) * (repulse I e - bond I e * attract I e)

/-- The pair energies as an array over the edges. -/
def energies : FVec Ideal SE .f32 := fun i => energy I (i 0)

end Cert.Spec

end
-- ==== Proof.KSpec.lean ====
/-
  The kernel's side of the computation, spelt as whole-array functions over the extended reals, so that each part of
  the kernel program (the two grid kernels and the host lines around them) can be read against ONE fixed term.

  The node kernel works on node tables padded by 48 zero rows to 50048 rows. It stacks the two gate weight columns
  as the rows of a 2×64 matrix and the eight potential weight columns as the rows of an 8×64 matrix, and leaves a
  10×50048 table of node features: row 0 and 1 the two gate projections (the edge gate's bias folded into row 1's
  bias), rows 2..5 the source potentials, rows 6..9 the destination potentials (bias zero).
  The host gathers the features' columns at the edges' two nodes and adds them.
  The edge kernel computes, per edge, cutoff · (repulsion - bond order · attraction) from the gathered sums.
-/
import proofs.«406755_j64407329571244_2_alg».proof.Proof.Spec

noncomputable section

namespace Cert.KSpec

open Idealize.ShloMosaic Idealize.ShloMosaic.ValueIdx Cert.Spec

abbrev SPx64 : Shape := ⟨2, ![50048, 64]⟩
abbrev S2x64 : Shape := ⟨2, ![2, 64]⟩
abbrev S2x1 : Shape := ⟨2, ![2, 1]⟩
abbrev S8x64 : Shape := ⟨2, ![8, 64]⟩
abbrev S8x1 : Shape := ⟨2, ![8, 1]⟩
abbrev S10xP : Shape := ⟨2, ![10, 50048]⟩
abbrev S1xE : Shape := ⟨2, ![1, 1600000]⟩
abbrev S4xE : Shape := ⟨2, ![4, 1600000]⟩
abbrev S1x64 : Shape := ⟨2, ![1, 64]⟩

/-- A node table with 48 zero rows appended. -/
def padRows (t : FVec Ideal SNx64 .f32) : FVec Ideal SPx64 .f32 :=
  fun i => if h : (i 0).val < 50000 then t (ix2 ⟨(i 0).val, h⟩ ⟨(i 1).val, idx2_lt1 i⟩) else 0

variable (I : Inputs)

/-- The two gate weight columns as rows: row 0 the source gate's, row 1 the destination gate's. -/
def gateW : FVec Ideal S2x64 .f32 :=
  fun i => if (i 0).val = 0 then I.Wsg (ix2 ⟨(i 1).val, idx2_lt1 i⟩ 0) else I.Wdg (ix2 ⟨(i 1).val, idx2_lt1 i⟩ 0)

/-- The two gate biases as a column; the edge gate's bias rides on the destination gate's. -/
def gateB : FVec Ideal S2x1 .f32 :=
  fun i => if (i 0).val = 0 then I.bsg (ix1 0) else I.bdg (ix1 0) + I.beg (ix1 0)

/-- The eight potential weight columns as rows: rows 0..3 the source's, rows 4..7 the destination's. -/
def potW : FVec Ideal S8x64 .f32 :=
  fun i => if h : (i 0).val < 4 then I.Wsp (ix2 ⟨(i 1).val, idx2_lt1 i⟩ ⟨(i 0).val, h⟩)
    else I.Wdp (ix2 ⟨(i 1).val, idx2_lt1 i⟩ ⟨(i 0).val - 4, by have := idx2_lt0 i; omega⟩)

/-- The potential biases as a column: the source's four, then four zeros (the zero word). -/
def potB : FVec Ideal S8x1 .f32 :=
  fun i => if h : (i 0).val < 4 then I.bsp (ix1 ⟨(i 0).val, h⟩) else Spec.zero

/-- What the node kernel leaves: feature row r of node n is the r-th stacked weight row against the node's row,
    plus the r-th stacked bias. -/
def nodeFn (xp x0p : FVec Ideal SPx64 .f32) (wg : FVec Ideal S2x64 .f32) (bg : FVec Ideal S2x1 .f32)
    (wp : FVec Ideal S8x64 .f32) (bp : FVec Ideal S8x1 .f32) : FVec Ideal S10xP .f32 :=
  fun i =>
    let n : Fin 50048 := ⟨(i 1).val, idx2_lt1 i⟩
    if h : (i 0).val < 2 then
      (∑ k : Fin 64, wg (ix2 ⟨(i 0).val, h⟩ k) * xp (ix2 n k)) + bg (ix2 ⟨(i 0).val, h⟩ 0)
    else
      (∑ k : Fin 64, wp (ix2 ⟨(i 0).val - 2, by have := idx2_lt0 i; omega⟩ k) * x0p (ix2 n k))
        + bp (ix2 ⟨(i 0).val - 2, by have := idx2_lt0 i; omega⟩ 0)

/-- The node features of the inputs. -/
def feat : FVec Ideal S10xP .f32 :=
  nodeFn (padRows I.x) (padRows I.x0) (gateW I) (gateB I) (potW I) (potB I)

/-- The column of the padded feature table a word names (total; the word's value when below 50048). -/
def rowP (w : BitVec 32) : Fin 50048 := ⟨w.toNat % 50048, Nat.mod_lt _ (by norm_num)⟩

theorem rowP_val_of_lt {w : BitVec 32} (h : w.toNat < 50048) : (rowP w).val = w.toNat := Nat.mod_eq_of_lt h

/-- The gathered gate sums, as a row over the edges. -/
def esumRow : FVec Ideal S1xE .f32 :=
  fun i =>
    let e : Fin 1600000 := ⟨(i 1).val, idx2_lt1 i⟩
    feat I (ix2 0 (rowP (I.src (ix1 e)))) + feat I (ix2 1 (rowP (I.dst (ix1 e))))

/-- The gathered potential sums: row j is source feature row 2+j plus destination feature row 6+j. -/
def psumRows : FVec Ideal S4xE .f32 :=
  fun i =>
    let e : Fin 1600000 := ⟨(i 1).val, idx2_lt1 i⟩
    feat I (ix2 ⟨(i 0).val + 2, by have := idx2_lt0 i; omega⟩ (rowP (I.src (ix1 e))))
      + feat I (ix2 ⟨(i 0).val + 6, by have := idx2_lt0 i; omega⟩ (rowP (I.dst (ix1 e))))

/-- The bond lengths as a row. -/
def blRow : FVec Ideal S1xE .f32 := fun i => I.bl (ix1 ⟨(i 1).val, idx2_lt1 i⟩)

/-- The edge gate's weight column as a row. -/
def wegRow : FVec Ideal S1x64 .f32 := fun i => I.Weg (ix2 ⟨(i 1).val, idx2_lt1 i⟩ 0)

/-- What the edge kernel leaves, as a function of its five operand arrays. -/
def edgeFn (y : FVec Ideal SEx64 .f32) (es bl : FVec Ideal S1xE .f32) (ps : FVec Ideal S4xE .f32)
    (w : FVec Ideal S1x64 .f32) : FVec Ideal S1xE .f32 :=
  fun i =>
    let e : Fin 1600000 := ⟨(i 1).val, idx2_lt1 i⟩
    let r := bl (ix2 0 e)
    Spec.cut r *
      ((Ideal.exp (ps (ix2 0 e)) * Ideal.exp ((Spec.zero - Ideal.exp (ps (ix2 1 e))) * r))
        - Ideal.logistic (es (ix2 0 e) + ∑ k : Fin 64, w (ix2 0 k) * y (ix2 e k))
          * (Ideal.exp (ps (ix2 2 e)) * Ideal.exp ((Spec.zero - Ideal.exp (ps (ix2 3 e))) * r)))

/-- The kernel program's pair energies, as the 1×E row the edge kernel writes. -/
def kEnergies : FVec Ideal S1xE .f32 := edgeFn I.y (esumRow I) (blRow I) (psumRows I) (wegRow I)

end Cert.KSpec

end
-- ==== Proof.NodeValue.lean ====
/-
  The node kernel's result array, as one function of the six arrays it reads.

  The kernel runs over 17 grid points. At point t it reads rows t·2944 … t·2944 + 2943 of the two padded node
  tables (50048 × 64), the whole 2 × 64 and 8 × 64 weight matrices and the whole 2 × 1 and 8 × 1 bias columns, and
  writes columns t·2944 … t·2944 + 2943 of the 10 × 50048 result.

  Entry (r, q) of the block it writes is, for r < 2, the r-th row of the 2 × 64 matrix against row q of the first
  table's block, summed over the 64 hidden coordinates, plus the r-th entry of the 2 × 1 column; for r ≥ 2 the
  (r − 2)-th row of the 8 × 64 matrix against row q of the second table's block, plus the (r − 2)-th entry of the
  8 × 1 column. Both products are block products into a zero accumulator, contracted over the second axis of both
  operands; the narrowing of the operands before the product is the identity on the extended reals; the bias is a
  column repeated along the 2944 columns; the two pieces are stacked, 2 rows over 8.

  Since 17 · 2944 = 50048, column n of the result is written by point n / 2944 and by no other, so after the last
  point the array holds, at (r, n), that sum against row n of the tables: the specification's node features.
-/
import proofs.«406755_j64407329571244_2_alg».proof.Proof.Gen.KernelIdeal.Frame
import proofs.«406755_j64407329571244_2_alg».proof.Proof.KSpec
import Idealize.ShloMosaic.Lib.Pipeline.Value
import Idealize.ShloMosaic.PureOps.Ideal.Laws
import Idealize.ShloMosaic.Lib.ValueIdx

noncomputable section

namespace Cert.KernelIdeal.NodeValue

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The two block products: which entries of the operands a result entry and a contraction position name -/

theorem lhs_gate_0 (i : S2x2944.Idx) (q : dot_S2x64_S2944x64_S2x2944_1_1_0_0_n_n.contr.Idx) :
    (dot_S2x64_S2944x64_S2x2944_1_1_0_0_n_n.lhsIdx i q 0).val = (i 0).val := by
  unfold DotDims.lhsIdx
  rw [dif_neg (show ¬(0 : Fin S2x64.rank) ∈ dot_S2x64_S2944x64_S2x2944_1_1_0_0_n_n.lhsBatch by decide), dif_pos (show (0 : Fin S2x64.rank) ∈ dot_S2x64_S2944x64_S2x2944_1_1_0_0_n_n.lhsNonContracting by decide)]
  rfl
theorem lhs_gate_1 (i : S2x2944.Idx) (q : dot_S2x64_S2944x64_S2x2944_1_1_0_0_n_n.contr.Idx) :
    (dot_S2x64_S2944x64_S2x2944_1_1_0_0_n_n.lhsIdx i q 1).val = (q ⟨0, by decide⟩).val :=
  dot_S2x64_S2944x64_S2x2944_1_1_0_0_n_n.lhsIdx_val_of_single rfl i q
theorem rhs_gate_0 (i : S2x2944.Idx) (q : dot_S2x64_S2944x64_S2x2944_1_1_0_0_n_n.contr.Idx) :
    (dot_S2x64_S2944x64_S2x2944_1_1_0_0_n_n.rhsIdx i q 0).val = (i 1).val := by
  unfold DotDims.rhsIdx
  rw [dif_neg (show ¬(0 : Fin S2944x64.rank) ∈ dot_S2x64_S2944x64_S2x2944_1_1_0_0_n_n.rhsBatch by decide), dif_pos (show (0 : Fin S2944x64.rank) ∈ dot_S2x64_S2944x64_S2x2944_1_1_0_0_n_n.rhsNonContracting by decide)]
  rfl
theorem rhs_gate_1 (i : S2x2944.Idx) (q : dot_S2x64_S2944x64_S2x2944_1_1_0_0_n_n.contr.Idx) :
    (dot_S2x64_S2944x64_S2x2944_1_1_0_0_n_n.rhsIdx i q 1).val = (q ⟨0, by decide⟩).val :=
  dot_S2x64_S2944x64_S2x2944_1_1_0_0_n_n.rhsIdx_val_of_single rfl i q

/-- Entry (r, q) of the product of a 2-row weight block with a block of node rows, into a zero accumulator:
    the sum over the 64 hidden coordinates of weight row r against node row q. -/
theorem gate_product_apply (w : FVec Ideal S2x64 .bf16) (x : FVec Ideal S2944x64 .bf16) (r : Fin 2) (q : Fin 2944) :
    matmul dot_S2x64_S2944x64_S2x2944_1_1_0_0_n_n none w x (constant (F := Ideal) S2x2944 .f32 0x00000000#32) (ix2 r q)
      = ∑ k : Fin 64, w (ix2 r k) * x (ix2 q k) := by
  simp only [matmul]
  rw [Ideal.matmul_constant_zero_apply, ← Equiv.sum_comp (contrEquiv1 dot_S2x64_S2944x64_S2x2944_1_1_0_0_n_n 64 rfl rfl).symm]
  refine Finset.sum_congr rfl fun k _ => ?_
  have hk := contrEquiv1_symm_val dot_S2x64_S2944x64_S2x2944_1_1_0_0_n_n 64 rfl rfl k
  have el : dot_S2x64_S2944x64_S2x2944_1_1_0_0_n_n.lhsIdx (ix2 r q) ((contrEquiv1 dot_S2x64_S2944x64_S2x2944_1_1_0_0_n_n 64 rfl rfl).symm k) = ix2 r k := funext fun a => Fin.ext (by
    match a with
    | ⟨0, _⟩ => exact lhs_gate_0 _ _
    | ⟨1, _⟩ => exact (lhs_gate_1 _ _).trans hk)
  have er : dot_S2x64_S2944x64_S2x2944_1_1_0_0_n_n.rhsIdx (ix2 r q) ((contrEquiv1 dot_S2x64_S2944x64_S2x2944_1_1_0_0_n_n 64 rfl rfl).symm k) = ix2 q k := funext fun a => Fin.ext (by
    match a with
    | ⟨0, _⟩ => exact rhs_gate_0 _ _
    | ⟨1, _⟩ => exact (rhs_gate_1 _ _).trans hk)
  rw [el, er]

theorem lhs_pot_0 (i : S8x2944.Idx) (q : dot_S8x64_S2944x64_S8x2944_1_1_0_0_n_n.contr.Idx) :
    (dot_S8x64_S2944x64_S8x2944_1_1_0_0_n_n.lhsIdx i q 0).val = (i 0).val := by
  unfold DotDims.lhsIdx
  rw [dif_neg (show ¬(0 : Fin S8x64.rank) ∈ dot_S8x64_S2944x64_S8x2944_1_1_0_0_n_n.lhsBatch by decide), dif_pos (show (0 : Fin S8x64.rank) ∈ dot_S8x64_S2944x64_S8x2944_1_1_0_0_n_n.lhsNonContracting by decide)]
  rfl
theorem lhs_pot_1 (i : S8x2944.Idx) (q : dot_S8x64_S2944x64_S8x2944_1_1_0_0_n_n.contr.Idx) :
    (dot_S8x64_S2944x64_S8x2944_1_1_0_0_n_n.lhsIdx i q 1).val = (q ⟨0, by decide⟩).val :=
  dot_S8x64_S2944x64_S8x2944_1_1_0_0_n_n.lhsIdx_val_of_single rfl i q
theorem rhs_pot_0 (i : S8x2944.Idx) (q : dot_S8x64_S2944x64_S8x2944_1_1_0_0_n_n.contr.Idx) :
    (dot_S8x64_S2944x64_S8x2944_1_1_0_0_n_n.rhsIdx i q 0).val = (i 1).val := by
  unfold DotDims.rhsIdx
  rw [dif_neg (show ¬(0 : Fin S2944x64.rank) ∈ dot_S8x64_S2944x64_S8x2944_1_1_0_0_n_n.rhsBatch by decide), dif_pos (show (0 : Fin S2944x64.rank) ∈ dot_S8x64_S2944x64_S8x2944_1_1_0_0_n_n.rhsNonContracting by decide)]
  rfl
theorem rhs_pot_1 (i : S8x2944.Idx) (q : dot_S8x64_S2944x64_S8x2944_1_1_0_0_n_n.contr.Idx) :
    (dot_S8x64_S2944x64_S8x2944_1_1_0_0_n_n.rhsIdx i q 1).val = (q ⟨0, by decide⟩).val :=
  dot_S8x64_S2944x64_S8x2944_1_1_0_0_n_n.rhsIdx_val_of_single rfl i q

/-- Entry (r, q) of the product of an 8-row weight block with a block of node rows, into a zero accumulator:
    the sum over the 64 hidden coordinates of weight row r against node row q. -/
theorem pot_product_apply (w : FVec Ideal S8x64 .bf16) (x : FVec Ideal S2944x64 .bf16) (r : Fin 8) (q : Fin 2944) :
    matmul dot_S8x64_S2944x64_S8x2944_1_1_0_0_n_n none w x (constant (F := Ideal) S8x2944 .f32 0x00000000#32) (ix2 r q)
      = ∑ k : Fin 64, w (ix2 r k) * x (ix2 q k) := by
  simp only [matmul]
  rw [Ideal.matmul_constant_zero_apply, ← Equiv.sum_comp (contrEquiv1 dot_S8x64_S2944x64_S8x2944_1_1_0_0_n_n 64 rfl rfl).symm]
  refine Finset.sum_congr rfl fun k _ => ?_
  have hk := contrEquiv1_symm_val dot_S8x64_S2944x64_S8x2944_1_1_0_0_n_n 64 rfl rfl k
  have el : dot_S8x64_S2944x64_S8x2944_1_1_0_0_n_n.lhsIdx (ix2 r q) ((contrEquiv1 dot_S8x64_S2944x64_S8x2944_1_1_0_0_n_n 64 rfl rfl).symm k) = ix2 r k := funext fun a => Fin.ext (by
    match a with
    | ⟨0, _⟩ => exact lhs_pot_0 _ _
    | ⟨1, _⟩ => exact (lhs_pot_1 _ _).trans hk)
  have er : dot_S8x64_S2944x64_S8x2944_1_1_0_0_n_n.rhsIdx (ix2 r q) ((contrEquiv1 dot_S8x64_S2944x64_S8x2944_1_1_0_0_n_n 64 rfl rfl).symm k) = ix2 q k := funext fun a => Fin.ext (by
    match a with
    | ⟨0, _⟩ => exact rhs_pot_0 _ _
    | ⟨1, _⟩ => exact (rhs_pot_1 _ _).trans hk)
  rw [el, er]

/-! ## The body's payload at an entry -/

/-- A gate row of the payload (rows 0 and 1): the gate weight row against the node's row, plus the gate bias. -/
theorem pay_gate_row (x0 x1 : FVec Ideal S2944x64 .f32) (w2 : FVec Ideal S2x64 .f32) (w4 : FVec Ideal S8x64 .f32)
    (b3 : FVec Ideal S2x1 .f32) (b5 : FVec Ideal S8x1 .f32) (r : Fin 2) (q : Fin 2944) :
    k0_pay1 (F := Ideal) x0 x1 w2 w4 b3 b5 (ix2 (⟨r.val, by omega⟩ : Fin 10) q)
      = (∑ k : Fin 64, w2 (ix2 r k) * x0 (ix2 q k)) + b3 (ix2 r 0) := by
  unfold k0_pay1
  refine (concatenate_pair_apply_left (0 : Fin S10x2944.rank) _ _ concatenates_S2x2944_S8x2944_S10x2944_d0
    (ix2 (⟨r.val, by omega⟩ : Fin 10) q) rfl (ix2 r q) ?_).trans ?_
  · intro b
    match b with
    | ⟨0, _⟩ => rfl
    | ⟨1, _⟩ => rfl
  · refine (addf_apply _ _ _).trans ?_
    refine congrArg₂ (· + ·) ?_ ?_
    · refine (gate_product_apply _ _ r q).trans ?_
      refine Finset.sum_congr rfl fun k _ => ?_
      refine congrArg₂ (· * ·) ?_ ?_
      · exact (truncf_apply (ψ := .bf16) _ bitsLt_bf16_f32 _).trans (congrFun (shapeCast_self w2 _) _)
      · exact (truncf_apply (ψ := .bf16) _ bitsLt_bf16_f32 _).trans (congrFun (shapeCast_self x0 _) _)
    · refine (broadcastTo_apply _ broadcasts_S2x1_S2x2944 (ix2 r q) (ix2 r 0) ?_).trans (congrFun (shapeCast_self b3 _) _)
      intro a
      match a with
      | ⟨0, _⟩ => rfl
      | ⟨1, _⟩ => rfl

/-- A potential row of the payload (rows 2 to 9): the potential weight row against the node's row of the second
    table, plus the potential bias. -/
theorem pay_pot_row (x0 x1 : FVec Ideal S2944x64 .f32) (w2 : FVec Ideal S2x64 .f32) (w4 : FVec Ideal S8x64 .f32)
    (b3 : FVec Ideal S2x1 .f32) (b5 : FVec Ideal S8x1 .f32) (r : Fin 8) (q : Fin 2944) :
    k0_pay1 (F := Ideal) x0 x1 w2 w4 b3 b5 (ix2 (⟨r.val + 2, by omega⟩ : Fin 10) q)
      = (∑ k : Fin 64, w4 (ix2 r k) * x1 (ix2 q k)) + b5 (ix2 r 0) := by
  unfold k0_pay1
  refine (concatenate_pair_apply_right (0 : Fin S10x2944.rank) _ _ concatenates_S2x2944_S8x2944_S10x2944_d0
    (ix2 (⟨r.val + 2, by omega⟩ : Fin 10) q) rfl rfl (ix2 r q) ?_ ?_).trans ?_
  · intro b hb
    match b with
    | ⟨0, _⟩ => exact absurd rfl hb
    | ⟨1, _⟩ => rfl
  · rfl
  · refine (addf_apply _ _ _).trans ?_
    refine congrArg₂ (· + ·) ?_ ?_
    · refine (pot_product_apply _ _ r q).trans ?_
      refine Finset.sum_congr rfl fun k _ => ?_
      refine congrArg₂ (· * ·) ?_ ?_
      · exact (truncf_apply (ψ := .bf16) _ bitsLt_bf16_f32 _).trans (congrFun (shapeCast_self w4 _) _)
      · exact (truncf_apply (ψ := .bf16) _ bitsLt_bf16_f32 _).trans (congrFun (shapeCast_self x1 _) _)
    · refine (broadcastTo_apply _ broadcasts_S8x1_S8x2944 (ix2 r q) (ix2 r 0) ?_).trans (congrFun (shapeCast_self b5 _) _)
      intro a
      match a with
      | ⟨0, _⟩ => rfl
      | ⟨1, _⟩ => rfl

/-! ## The arrays the region finds, and the blocks a grid point reads, under their literal types -/

variable (V : (c : Dev nD) → (b : Ref sig .tc) → Buf (Elt Ideal) ((c : Thread nD τ).loc b))

abbrev xArr (c : Dev nD) : FVec Ideal S50048x64 .f32 := V c main_v0
abbrev x0Arr (c : Dev nD) : FVec Ideal S50048x64 .f32 := V c main_v1
abbrev wgArr (c : Dev nD) : FVec Ideal S2x64 .f32 := V c main_v4
abbrev bgArr (c : Dev nD) : FVec Ideal S2x1 .f32 := V c main_v7
abbrev wpArr (c : Dev nD) : FVec Ideal S8x64 .f32 := V c main_v10
abbrev bpArr (c : Dev nD) : FVec Ideal S8x1 .f32 := V c main_v13

abbrev xBlk (c : Dev nD) (t : Fin cfg0.N) : FVec Ideal S2944x64 .f32 := iblk0 V c 0 t
abbrev x0Blk (c : Dev nD) (t : Fin cfg0.N) : FVec Ideal S2944x64 .f32 := iblk0 V c 1 t
abbrev wgBlk (c : Dev nD) (t : Fin cfg0.N) : FVec Ideal S2x64 .f32 := iblk0 V c 2 t
abbrev bgBlk (c : Dev nD) (t : Fin cfg0.N) : FVec Ideal S2x1 .f32 := iblk0 V c 3 t
abbrev wpBlk (c : Dev nD) (t : Fin cfg0.N) : FVec Ideal S8x64 .f32 := iblk0 V c 4 t
abbrev bpBlk (c : Dev nD) (t : Fin cfg0.N) : FVec Ideal S8x1 .f32 := iblk0 V c 5 t

theorem zero_offsets : (![0, 0] : Fin 2 → Nat) = fun _ => 0 := funext fun a => by fin_cases a <;> rfl

/-- Where each window's block sits at grid point t: the two node tables' blocks are the t-th run of 2944 rows, the
    result's block the t-th run of 2944 columns, the four weight and bias windows the whole of their arrays. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The row of the padded tables that row q of point t's block is. -/
abbrev nodeAt (t : Fin cfg0.N) (q : Fin 2944) : Fin 50048 := ⟨t.val * 2944 + q.val, by have := t.isLt; have := q.isLt; change t.val < 17 at *; omega⟩

theorem xBlk_apply (c : Dev nD) (t : Fin cfg0.N) (q : Fin 2944) (k : Fin 64) :
    xBlk V c t (ix2 q k) = xArr V c (ix2 (nodeAt t q) k) := by
  obtain ⟨e0, e1, -⟩ := block_indices t
  show V c main_v0 (((cfg0.win 0).blk t).view.emb (ix2 q k)) = V c main_v0 (ix2 (nodeAt t q) k)
  refine congrArg (V c main_v0) (funext fun a => Fin.ext ?_)
  match a with
  | ⟨0, _⟩ => show win0_0.index t (0 : Fin 2) * 2944 + 1 * q.val = t.val * 2944 + q.val; omega
  | ⟨1, _⟩ => show win0_0.index t (1 : Fin 2) * 64 + 1 * k.val = k.val; omega

theorem x0Blk_apply (c : Dev nD) (t : Fin cfg0.N) (q : Fin 2944) (k : Fin 64) :
    x0Blk V c t (ix2 q k) = x0Arr V c (ix2 (nodeAt t q) k) := by
  obtain ⟨-, -, e0, e1, -⟩ := block_indices t
  show V c main_v1 (((cfg0.win 1).blk t).view.emb (ix2 q k)) = V c main_v1 (ix2 (nodeAt t q) k)
  refine congrArg (V c main_v1) (funext fun a => Fin.ext ?_)
  match a with
  | ⟨0, _⟩ => show win0_1.index t (0 : Fin 2) * 2944 + 1 * q.val = t.val * 2944 + q.val; omega
  | ⟨1, _⟩ => show win0_1.index t (1 : Fin 2) * 64 + 1 * k.val = k.val; omega

theorem wgBlk_apply (c : Dev nD) (t : Fin cfg0.N) (r : Fin 2) (k : Fin 64) :
    wgBlk V c t (ix2 r k) = wgArr V c (ix2 r k) := by
  obtain ⟨-, -, -, -, e0, e1, -⟩ := block_indices t
  show V c main_v4 (((cfg0.win 2).blk t).view.emb (ix2 r k)) = V c main_v4 (ix2 r k)
  refine congrArg (V c main_v4) (funext fun a => Fin.ext ?_)
  match a with
  | ⟨0, _⟩ => show win0_2.index t (0 : Fin 2) * 2 + 1 * r.val = r.val; omega
  | ⟨1, _⟩ => show win0_2.index t (1 : Fin 2) * 64 + 1 * k.val = k.val; omega

theorem bgBlk_apply (c : Dev nD) (t : Fin cfg0.N) (r : Fin 2) :
    bgBlk V c t (ix2 r 0) = bgArr V c (ix2 r 0) := by
  obtain ⟨-, -, -, -, -, -, e0, e1, -⟩ := block_indices t
  show V c main_v7 (((cfg0.win 3).blk t).view.emb (ix2 r 0)) = V c main_v7 (ix2 r 0)
  refine congrArg (V c main_v7) (funext fun a => Fin.ext ?_)
  match a with
  | ⟨0, _⟩ => show win0_3.index t (0 : Fin 2) * 2 + 1 * r.val = r.val; omega
  | ⟨1, _⟩ => show win0_3.index t (1 : Fin 2) * 1 + 1 * 0 = 0; omega

theorem wpBlk_apply (c : Dev nD) (t : Fin cfg0.N) (r : Fin 8) (k : Fin 64) :
    wpBlk V c t (ix2 r k) = wpArr V c (ix2 r k) := by
  obtain ⟨-, -, -, -, -, -, -, -, e0, e1, -⟩ := block_indices t
  show V c main_v10 (((cfg0.win 4).blk t).view.emb (ix2 r k)) = V c main_v10 (ix2 r k)
  refine congrArg (V c main_v10) (funext fun a => Fin.ext ?_)
  match a with
  | ⟨0, _⟩ => show win0_4.index t (0 : Fin 2) * 8 + 1 * r.val = r.val; omega
  | ⟨1, _⟩ => show win0_4.index t (1 : Fin 2) * 64 + 1 * k.val = k.val; omega

theorem bpBlk_apply (c : Dev nD) (t : Fin cfg0.N) (r : Fin 8) :
    bpBlk V c t (ix2 r 0) = bpArr V c (ix2 r 0) := by
  obtain ⟨-, -, -, -, -, -, -, -, -, -, e0, e1, -⟩ := block_indices t
  show V c main_v13 (((cfg0.win 5).blk t).view.emb (ix2 r 0)) = V c main_v13 (ix2 r 0)
  refine congrArg (V c main_v13) (funext fun a => Fin.ext ?_)
  match a with
  | ⟨0, _⟩ => show win0_5.index t (0 : Fin 2) * 8 + 1 * r.val = r.val; omega
  | ⟨1, _⟩ => show win0_5.index t (1 : Fin 2) * 1 + 1 * 0 = 0; omega

/-- Entry (r, q) of point t's result block is entry (r, t · 2944 + q) of the result array. -/
theorem out_emb (t : Fin cfg0.N) (r : Fin 10) (q : Fin 2944) :
    ((cfg0.win 6).blk t).view.emb (ix2 r q) = (ix2 r (nodeAt t q) : S10x50048.Idx) := by
  obtain ⟨-, -, -, -, -, -, -, -, -, -, -, -, e0, e1⟩ := block_indices t
  refine funext fun a => Fin.ext ?_
  match a with
  | ⟨0, _⟩ => show win0_6.index t (0 : Fin 2) * 10 + 1 * r.val = r.val; omega
  | ⟨1, _⟩ => show win0_6.index t (1 : Fin 2) * 2944 + 1 * q.val = t.val * 2944 + q.val; omega

/-! ## An entry of the payload at point t, over the whole arrays -/

theorem entry_gate (c : Dev nD) (t : Fin cfg0.N) (r : Fin 2) (q : Fin 2944) :
    k0_pay1 (F := Ideal) (xBlk V c t) (x0Blk V c t) (wgBlk V c t) (wpBlk V c t) (bgBlk V c t) (bpBlk V c t)
        (ix2 (⟨r.val, by omega⟩ : Fin 10) q)
      = (∑ k : Fin 64, wgArr V c (ix2 r k) * xArr V c (ix2 (nodeAt t q) k)) + bgArr V c (ix2 r 0) := by
  refine (pay_gate_row (xBlk V c t) (x0Blk V c t) (wgBlk V c t) (wpBlk V c t) (bgBlk V c t) (bpBlk V c t) r q).trans ?_
  refine congrArg₂ (· + ·) (Finset.sum_congr rfl fun k _ => ?_) (bgBlk_apply V c t r)
  exact congrArg₂ (· * ·) (wgBlk_apply V c t r k) (xBlk_apply V c t q k)

theorem entry_pot (c : Dev nD) (t : Fin cfg0.N) (r : Fin 8) (q : Fin 2944) :
    k0_pay1 (F := Ideal) (xBlk V c t) (x0Blk V c t) (wgBlk V c t) (wpBlk V c t) (bgBlk V c t) (bpBlk V c t)
        (ix2 (⟨r.val + 2, by omega⟩ : Fin 10) q)
      = (∑ k : Fin 64, wpArr V c (ix2 r k) * x0Arr V c (ix2 (nodeAt t q) k)) + bpArr V c (ix2 r 0) := by
  refine (pay_pot_row (xBlk V c t) (x0Blk V c t) (wgBlk V c t) (wpBlk V c t) (bgBlk V c t) (bpBlk V c t) r q).trans ?_
  refine congrArg₂ (· + ·) (Finset.sum_congr rfl fun k _ => ?_) (bpBlk_apply V c t r)
  exact congrArg₂ (· * ·) (wpBlk_apply V c t r k) (x0Blk_apply V c t q k)

/-! ## The specification's two kinds of row -/

theorem nodeFn_gate (xp x0p : FVec Ideal S50048x64 .f32) (wg : FVec Ideal S2x64 .f32) (bg : FVec Ideal S2x1 .f32)
    (wp : FVec Ideal S8x64 .f32) (bp : FVec Ideal S8x1 .f32) (r : Fin 2) (n : Fin 50048) :
    Cert.KSpec.nodeFn xp x0p wg bg wp bp (ix2 (⟨r.val, by omega⟩ : Fin 10) n)
      = (∑ k : Fin 64, wg (ix2 r k) * xp (ix2 n k)) + bg (ix2 r 0) := by
  unfold Cert.KSpec.nodeFn
  dsimp only
  rw [dif_pos (show ((ix2 (⟨r.val, by omega⟩ : Fin 10) n : S10x50048.Idx) 0).val < 2 from r.isLt)]

theorem nodeFn_pot (xp x0p : FVec Ideal S50048x64 .f32) (wg : FVec Ideal S2x64 .f32) (bg : FVec Ideal S2x1 .f32)
    (wp : FVec Ideal S8x64 .f32) (bp : FVec Ideal S8x1 .f32) (r : Fin 8) (n : Fin 50048) :
    Cert.KSpec.nodeFn xp x0p wg bg wp bp (ix2 (⟨r.val + 2, by omega⟩ : Fin 10) n)
      = (∑ k : Fin 64, wp (ix2 r k) * x0p (ix2 n k)) + bp (ix2 r 0) := by
  unfold Cert.KSpec.nodeFn
  dsimp only
  rw [dif_neg (show ¬ ((ix2 (⟨r.val + 2, by omega⟩ : Fin 10) n : S10x50048.Idx) 0).val < 2 from by
    show ¬ (r.val + 2 < 2); omega)]
  rfl

/-! ## What a grid point writes back, and the whole array -/

/-- A row of the result block past the two gate rows is a potential row, two further down. -/
theorem row_split (r : Fin 10) (h : ¬ r.val < 2) :
    ∃ r' : Fin 8, r = ⟨r'.val + 2, Nat.add_lt_add_right r'.isLt 2⟩ :=
  ⟨⟨r.val - 2, by omega⟩, Fin.ext (by show r.val = r.val - 2 + 2; omega)⟩

/-- Point t writes back block t of the node features of the arrays the region finds. -/
theorem flushed_node (c : Dev nD) (t : Fin cfg0.N) :
    (dat0 (F := Ideal) V c).flushed 6 t
      = ((cfg0.win 6).blk t).view.read (Elt Ideal)
          (Cert.KSpec.nodeFn (xArr V c) (x0Arr V c) (wgArr V c) (bgArr V c) (wpArr V c) (bpArr V c)) := by
  show (cfg0.win 6).cut (grid0.coords t) ((dat0 (F := Ideal) V c).after 6 t) = _
  rw [after0_6]
  unfold out0_6
  rw [View.canon_unit_zero zero_offsets]
  simp only [View.ld_unit_zero (S := S2944x64) zero_offsets, View.ld_unit_zero (S := S2x64) zero_offsets,
    View.ld_unit_zero (S := S8x64) zero_offsets, View.ld_unit_zero (S := S2x1) zero_offsets,
    View.ld_unit_zero (S := S8x1) zero_offsets]
  funext j
  obtain ⟨r, q, rfl⟩ : ∃ (r : Fin 10) (q : Fin 2944), j = ix2 r q := ⟨j 0, j 1, eq_ix2 j⟩
  show k0_pay1 (F := Ideal) (xBlk V c t) (x0Blk V c t) (wgBlk V c t) (wpBlk V c t) (bgBlk V c t) (bpBlk V c t) (ix2 r q)
    = Cert.KSpec.nodeFn (xArr V c) (x0Arr V c) (wgArr V c) (bgArr V c) (wpArr V c) (bpArr V c)
        (((cfg0.win 6).blk t).view.emb (ix2 r q))
  refine Eq.trans ?_ (congrArg (Cert.KSpec.nodeFn (xArr V c) (x0Arr V c) (wgArr V c) (bgArr V c) (wpArr V c) (bpArr V c))
    (out_emb t r q).symm)
  by_cases h : r.val < 2
  · exact (entry_gate V c t ⟨r.val, h⟩ q).trans
      (nodeFn_gate (xArr V c) (x0Arr V c) (wgArr V c) (bgArr V c) (wpArr V c) (bpArr V c) ⟨r.val, h⟩ (nodeAt t q)).symm
  · obtain ⟨r', rfl⟩ := row_split r h
    exact (entry_pot V c t r' q).trans
      (nodeFn_pot (xArr V c) (x0Arr V c) (wgArr V c) (bgArr V c) (wpArr V c) (bpArr V c) r' (nodeAt t q)).symm

/-- An entry of the result array lies in point t's block iff, on each axis, it lies in the block's range. -/
theorem mem_block (t : Fin cfg0.N) (i : S10x50048.Idx) :
    i ∈ ((cfg0.win 6).blk t).view.set ↔ ∀ a : Fin 2, win0_6.index t a * S10x2944.size a ≤ (i a).val
      ∧ (i a).val < win0_6.index t a * S10x2944.size a + S10x2944.size a := by
  show i ∈ ((View.whole main_v14).slice (win0_6.rect t)).set ↔ _
  rw [View.set_slice_whole, Rect.mem_set_unit]
  exact Iff.rfl

/-- Every entry of the result array is written back: column n by point n / 2944 (17 · 2944 = 50048). -/
theorem covered (i : S10x50048.Idx) :
    ∃ t : Fin cfg0.N, (cfg0.win 6).flush t = true ∧ i ∈ ((cfg0.win 6).blk t).view.set := by
  have hi0 : (i 0).val < 10 := (i 0).isLt
  have hi1 : (i 1).val < 50048 := (i 1).isLt
  have ht : (i 1).val / 2944 < 17 := by omega
  obtain ⟨-, -, -, -, -, -, -, -, -, -, -, -, e0, e1⟩ := block_indices ⟨(i 1).val / 2944, ht⟩
  have e1' : win0_6.index ⟨(i 1).val / 2944, ht⟩ (1 : Fin 2) = (i 1).val / 2944 := e1
  refine ⟨⟨(i 1).val / 2944, ht⟩, flush0_6 _, ?_⟩
  rw [mem_block]
  intro a
  match a with
  | ⟨0, _⟩ =>
    show win0_6.index ⟨(i 1).val / 2944, ht⟩ (0 : Fin 2) * 10 ≤ (i 0).val
      ∧ (i 0).val < win0_6.index ⟨(i 1).val / 2944, ht⟩ (0 : Fin 2) * 10 + 10
    omega
  | ⟨1, _⟩ =>
    show win0_6.index ⟨(i 1).val / 2944, ht⟩ (1 : Fin 2) * 2944 ≤ (i 1).val
      ∧ (i 1).val < win0_6.index ⟨(i 1).val / 2944, ht⟩ (1 : Fin 2) * 2944 + 2944
    omega

/-- After the node kernel's 17 points the result array holds the node features of the six arrays the region found. -/
theorem node_array (c : Dev nD) :
    (dat0 (F := Ideal) V c).arrAt 6 cfg0.N
      = Cert.KSpec.nodeFn (V c main_v0) (V c main_v1) (V c main_v4) (V c main_v7) (V c main_v10) (V c main_v13) :=
  (dat0 (F := Ideal) V c).arrAt_eq_of_cover 6
    (Cert.KSpec.nodeFn (xArr V c) (x0Arr V c) (wgArr V c) (bgArr V c) (wpArr V c) (bpArr V c))
    (fun t _ => flushed_node V c t) covered

end Cert.KernelIdeal.NodeValue

end
-- ==== Proof.Inputs.lean ====
/-
  The fifteen argument arrays of a launch memory, bundled: the same bundle for the kernel's program and for the
  reference's, so that both sides' values are functions of ONE record of inputs.
-/
import proofs.«406755_j64407329571244_2_alg».proof.KernelIdeal
import proofs.«406755_j64407329571244_2_alg».proof.ReferenceIdeal
import proofs.«406755_j64407329571244_2_alg».proof.Proof.Spec

noncomputable section

namespace Cert.In

open Idealize.ShloMosaic Idealize.SL.Sem

/-- The arguments of the kernel's program on core c, read off a launch memory. -/
def ofK (m : (ℓ : Loc Cert.KernelIdeal.nD Cert.KernelIdeal.τ Cert.KernelIdeal.sig) → Buf (Elt Ideal) ℓ)
    (c : Dev Cert.KernelIdeal.nD) : Cert.Spec.Inputs where
  x := m ((c.tc : Thread Cert.KernelIdeal.nD Cert.KernelIdeal.τ).loc Cert.KernelIdeal.main_arg0)
  x0 := m ((c.tc : Thread Cert.KernelIdeal.nD Cert.KernelIdeal.τ).loc Cert.KernelIdeal.main_arg1)
  y := m ((c.tc : Thread Cert.KernelIdeal.nD Cert.KernelIdeal.τ).loc Cert.KernelIdeal.main_arg2)
  bl := m ((c.tc : Thread Cert.KernelIdeal.nD Cert.KernelIdeal.τ).loc Cert.KernelIdeal.main_arg3)
  src := m ((c.tc : Thread Cert.KernelIdeal.nD Cert.KernelIdeal.τ).loc Cert.KernelIdeal.main_arg4)
  dst := m ((c.tc : Thread Cert.KernelIdeal.nD Cert.KernelIdeal.τ).loc Cert.KernelIdeal.main_arg5)
  Wsg := m ((c.tc : Thread Cert.KernelIdeal.nD Cert.KernelIdeal.τ).loc Cert.KernelIdeal.main_arg6)
  bsg := m ((c.tc : Thread Cert.KernelIdeal.nD Cert.KernelIdeal.τ).loc Cert.KernelIdeal.main_arg7)
  Wdg := m ((c.tc : Thread Cert.KernelIdeal.nD Cert.KernelIdeal.τ).loc Cert.KernelIdeal.main_arg8)
  bdg := m ((c.tc : Thread Cert.KernelIdeal.nD Cert.KernelIdeal.τ).loc Cert.KernelIdeal.main_arg9)
  Weg := m ((c.tc : Thread Cert.KernelIdeal.nD Cert.KernelIdeal.τ).loc Cert.KernelIdeal.main_arg10)
  beg := m ((c.tc : Thread Cert.KernelIdeal.nD Cert.KernelIdeal.τ).loc Cert.KernelIdeal.main_arg11)
  Wsp := m ((c.tc : Thread Cert.KernelIdeal.nD Cert.KernelIdeal.τ).loc Cert.KernelIdeal.main_arg12)
  bsp := m ((c.tc : Thread Cert.KernelIdeal.nD Cert.KernelIdeal.τ).loc Cert.KernelIdeal.main_arg13)
  Wdp := m ((c.tc : Thread Cert.KernelIdeal.nD Cert.KernelIdeal.τ).loc Cert.KernelIdeal.main_arg14)

/-- The arguments of the reference's program on core c, read off a launch memory. -/
def ofR (m : (ℓ : Loc Cert.ReferenceIdeal.nD Cert.ReferenceIdeal.τ Cert.ReferenceIdeal.sig) → Buf (Elt Ideal) ℓ)
    (c : Dev Cert.ReferenceIdeal.nD) : Cert.Spec.Inputs where
  x := m ((c.tc : Thread Cert.ReferenceIdeal.nD Cert.ReferenceIdeal.τ).loc Cert.ReferenceIdeal.main_arg0)
  x0 := m ((c.tc : Thread Cert.ReferenceIdeal.nD Cert.ReferenceIdeal.τ).loc Cert.ReferenceIdeal.main_arg1)
  y := m ((c.tc : Thread Cert.ReferenceIdeal.nD Cert.ReferenceIdeal.τ).loc Cert.ReferenceIdeal.main_arg2)
  bl := m ((c.tc : Thread Cert.ReferenceIdeal.nD Cert.ReferenceIdeal.τ).loc Cert.ReferenceIdeal.main_arg3)
  src := m ((c.tc : Thread Cert.ReferenceIdeal.nD Cert.ReferenceIdeal.τ).loc Cert.ReferenceIdeal.main_arg4)
  dst := m ((c.tc : Thread Cert.ReferenceIdeal.nD Cert.ReferenceIdeal.τ).loc Cert.ReferenceIdeal.main_arg5)
  Wsg := m ((c.tc : Thread Cert.ReferenceIdeal.nD Cert.ReferenceIdeal.τ).loc Cert.ReferenceIdeal.main_arg6)
  bsg := m ((c.tc : Thread Cert.ReferenceIdeal.nD Cert.ReferenceIdeal.τ).loc Cert.ReferenceIdeal.main_arg7)
  Wdg := m ((c.tc : Thread Cert.ReferenceIdeal.nD Cert.ReferenceIdeal.τ).loc Cert.ReferenceIdeal.main_arg8)
  bdg := m ((c.tc : Thread Cert.ReferenceIdeal.nD Cert.ReferenceIdeal.τ).loc Cert.ReferenceIdeal.main_arg9)
  Weg := m ((c.tc : Thread Cert.ReferenceIdeal.nD Cert.ReferenceIdeal.τ).loc Cert.ReferenceIdeal.main_arg10)
  beg := m ((c.tc : Thread Cert.ReferenceIdeal.nD Cert.ReferenceIdeal.τ).loc Cert.ReferenceIdeal.main_arg11)
  Wsp := m ((c.tc : Thread Cert.ReferenceIdeal.nD Cert.ReferenceIdeal.τ).loc Cert.ReferenceIdeal.main_arg12)
  bsp := m ((c.tc : Thread Cert.ReferenceIdeal.nD Cert.ReferenceIdeal.τ).loc Cert.ReferenceIdeal.main_arg13)
  Wdp := m ((c.tc : Thread Cert.ReferenceIdeal.nD Cert.ReferenceIdeal.τ).loc Cert.ReferenceIdeal.main_arg14)

end Cert.In

end
-- ==== Proof.HostBefore.lean ====
/-
  The six arrays the node kernel reads, as the host lines before it leave them.

  Before the kernel the program pads each of the two node tables (50000 × 64) to 50048 rows with the zero word
  converted to a float, which is the extended real 0; transposes the two 64 × 1 gate weight columns to rows and stacks
  them (2 × 64); stacks the source gate's bias over the sum of the destination gate's and the edge gate's biases, laid
  out as a 2 × 1 column; transposes the two 64 × 4 potential weight matrices and stacks them (8 × 64); and stacks the
  four source potential biases over four copies of the zero word, laid out as an 8 × 1 column.

  Each line writes one buffer and leaves every other as it was, so an array is read by walking the lines back to the
  one that wrote it and reading that operation at an entry: a pad inside the table is the table and outside it the pad
  value; a transpose swaps the two coordinates; a stack of two pieces along the rows reads the first piece on its own
  rows and the second below them, the first piece's height less; a vector laid out as a column reads the entry at the
  same row-major position.
-/
import proofs.«406755_j64407329571244_2_alg».proof.Proof.Gen.KernelIdeal.Frame
import proofs.«406755_j64407329571244_2_alg».proof.Proof.KSpec
import proofs.«406755_j64407329571244_2_alg».proof.Proof.Inputs
import Idealize.ShloMosaic.Lib.StableHlo.Run
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout

noncomputable section

namespace Cert.KernelIdeal.HostBefore

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- No operation of a stretch of host lines writes the buffer, so the stretch leaves it as it was. -/
local macro "unwritten" : tactic =>
  `(tactic| (
      refine StableHlo.after_of_forall_not_mem _ _ (List.forall_iff_forall_mem.mp ?_)
      simp only [hostOps0, hostOps0_1, hostOps0_2, hostOps0_3, hostOps0_4, List.Forall,
        StableHlo.nullary_writes, StableHlo.unary_writes, StableHlo.binary_writes, StableHlo.reshape_writes,
        Finset.mem_singleton]
      repeat' apply And.intro
      all_goals exact StableHlo.devRef_ne_of_ne (by decide)))

/-! ## The host operations read at an entry -/

/-- A node table padded by 48 rows of the converted zero word is the table with 48 zero rows appended. -/
theorem pad_eq_padRows (x : FVec Ideal S50000x64 .f32) :
    pad S50048x64 ![0, 0] ![48, 0] ![0, 0] x (sitofp (F := Ideal) .f32 (constantI S_ 32 0#32))
        pads_S50000x64_S50048x64_0480_000 h_S_
      = Cert.KSpec.padRows x := by
  funext i
  unfold Cert.KSpec.padRows
  by_cases h : (i 0).val < 50000
  · rw [dif_pos h]
    refine pad_apply_of_inside ![0, 0] ![48, 0] ![0, 0] x _ pads_S50000x64_S50048x64_0480_000 h_S_ i
      (ix2 ⟨(i 0).val, h⟩ ⟨(i 1).val, idx2_lt1 i⟩) ?_
    intro a
    match a with
    | ⟨0, _⟩ => show (i 0).val = 0 + (i 0).val * (0 + 1); omega
    | ⟨1, _⟩ => show (i 1).val = 0 + (i 1).val * (0 + 1); omega
  · rw [dif_neg h]
    refine (pad_apply_of_not_inside ![0, 0] ![48, 0] ![0, 0] x (sitofp (F := Ideal) .f32 (constantI S_ 32 0#32))
      pads_S50000x64_S50048x64_0480_000 h_S_ i (0 : Fin S50000x64.rank) ?_).trans ?_
    · rintro ⟨-, -, h3⟩
      have h3' : ((i 0).val - 0) / (0 + 1) < 50000 := h3
      exact h (by omega)
    · exact sitofp_zero (φ := .f32)

/-- Two weight columns transposed to rows and stacked: row 0 is the first column, row 1 the second. -/
theorem gate_weights_read (a6 a8 : FVec Ideal S64x1 .f32) :
    concatenate S2x64 0 [⟨S1x64, transpose S1x64 [1, 0] a6 transposes_S64x1_S1x64_1_0⟩,
        ⟨S1x64, transpose S1x64 [1, 0] a8 transposes_S64x1_S1x64_1_0⟩] concatenates_S1x64_S1x64_S2x64_d0
      = fun i : S2x64.Idx => if (i 0).val = 0 then a6 (ix2 ⟨(i 1).val, idx2_lt1 i⟩ 0)
          else a8 (ix2 ⟨(i 1).val, idx2_lt1 i⟩ 0) := by
  funext i
  obtain ⟨r, k, rfl⟩ : ∃ (r : Fin 2) (k : Fin 64), i = ix2 r k := ⟨i 0, i 1, eq_ix2 i⟩
  by_cases h : r.val = 0
  · refine Eq.trans ?_ (if_pos h).symm
    refine (concatenate_pair_apply_left (0 : Fin S2x64.rank) _ _ concatenates_S1x64_S1x64_S2x64_d0 (ix2 r k) rfl
      (ix2 (0 : Fin 1) k) ?_).trans (transpose_ix2_apply a6 transposes_S64x1_S1x64_1_0 (0 : Fin 1) k)
    intro b
    match b with
    | ⟨0, _⟩ => exact h.symm
    | ⟨1, _⟩ => rfl
  · refine Eq.trans ?_ (if_neg h).symm
    refine (concatenate_pair_apply_right (0 : Fin S2x64.rank) _ _ concatenates_S1x64_S1x64_S2x64_d0 (ix2 r k) rfl rfl
      (ix2 (0 : Fin 1) k) ?_ ?_).trans (transpose_ix2_apply a8 transposes_S64x1_S1x64_1_0 (0 : Fin 1) k)
    · intro b hb
      match b with
      | ⟨0, _⟩ => exact absurd rfl hb
      | ⟨1, _⟩ => rfl
    · show 0 + 1 = r.val
      have := r.isLt
      omega

/-- Two one-entry bias vectors, the second a sum, stacked and laid out as a column. -/
theorem gate_bias_read (a7 a9 a11 : FVec Ideal S1 .f32) :
    shapeCast S2x1 (concatenate S2 0 [⟨S1, a7⟩, ⟨S1, addf a9 a11⟩] concatenates_S1_S1_S2_d0) shapeCasts_S2_S2x1
      = fun i : S2x1.Idx => if (i 0).val = 0 then a7 (ix1 0) else a9 (ix1 0) + a11 (ix1 0) := by
  funext i
  obtain ⟨r, z, rfl⟩ : ∃ (r : Fin 2) (z : Fin 1), i = ix2 r z := ⟨i 0, i 1, eq_ix2 i⟩
  refine (shapeCast_apply _ shapeCasts_S2_S2x1 (ix2 r z) (ix1 r) ?_).trans ?_
  · rw [Shape.rowMajor_val_one, Shape.rowMajor_val_two]
    show r.val = r.val * 1 + z.val
    have := z.isLt
    omega
  · by_cases h : r.val = 0
    · refine Eq.trans ?_ (if_pos h).symm
      refine concatenate_pair_apply_left (0 : Fin S2.rank) _ _ concatenates_S1_S1_S2_d0 (ix1 r) rfl (ix1 (0 : Fin 1)) ?_
      intro b
      match b with
      | ⟨0, _⟩ => exact h.symm
    · refine Eq.trans ?_ (if_neg h).symm
      refine (concatenate_pair_apply_right (0 : Fin S2.rank) _ _ concatenates_S1_S1_S2_d0 (ix1 r) rfl rfl
        (ix1 (0 : Fin 1)) ?_ ?_).trans (addf_apply a9 a11 _)
      · intro b hb
        match b with
        | ⟨0, _⟩ => exact absurd rfl hb
      · show 0 + 1 = r.val
        have := r.isLt
        omega

/-- Two 64 × 4 weight matrices transposed and stacked: rows 0 to 3 are the first one's columns, rows 4 to 7 the
    second one's. -/
theorem pot_weights_read (a12 a14 : FVec Ideal S64x4 .f32) :
    concatenate S8x64 0 [⟨S4x64, transpose S4x64 [1, 0] a12 transposes_S64x4_S4x64_1_0⟩,
        ⟨S4x64, transpose S4x64 [1, 0] a14 transposes_S64x4_S4x64_1_0⟩] concatenates_S4x64_S4x64_S8x64_d0
      = fun i : S8x64.Idx => if h : (i 0).val < 4 then a12 (ix2 ⟨(i 1).val, idx2_lt1 i⟩ ⟨(i 0).val, h⟩)
          else a14 (ix2 ⟨(i 1).val, idx2_lt1 i⟩ ⟨(i 0).val - 4, by have := idx2_lt0 i; omega⟩) := by
  funext i
  obtain ⟨r, k, rfl⟩ : ∃ (r : Fin 8) (k : Fin 64), i = ix2 r k := ⟨i 0, i 1, eq_ix2 i⟩
  by_cases h : r.val < 4
  · refine Eq.trans ?_ (dif_pos h).symm
    refine (concatenate_pair_apply_left (0 : Fin S8x64.rank) _ _ concatenates_S4x64_S4x64_S8x64_d0 (ix2 r k) rfl
      (ix2 (⟨r.val, h⟩ : Fin 4) k) ?_).trans (transpose_ix2_apply a12 transposes_S64x4_S4x64_1_0 (⟨r.val, h⟩ : Fin 4) k)
    intro b
    match b with
    | ⟨0, _⟩ => rfl
    | ⟨1, _⟩ => rfl
  · refine Eq.trans ?_ (dif_neg h).symm
    have h4 : r.val - 4 < 4 := by have := r.isLt; omega
    refine (concatenate_pair_apply_right (0 : Fin S8x64.rank) _ _ concatenates_S4x64_S4x64_S8x64_d0 (ix2 r k) rfl rfl
      (ix2 (⟨r.val - 4, h4⟩ : Fin 4) k) ?_ ?_).trans
      (transpose_ix2_apply a14 transposes_S64x4_S4x64_1_0 (⟨r.val - 4, h4⟩ : Fin 4) k)
    · intro b hb
      match b with
      | ⟨0, _⟩ => exact absurd rfl hb
      | ⟨1, _⟩ => rfl
    · show r.val - 4 + 4 = r.val
      omega

/-- Four biases followed by four copies of the zero word, laid out as a column. -/
theorem pot_bias_read (a13 : FVec Ideal S4 .f32) :
    shapeCast S8x1 (concatenate S8 0 [⟨S4, a13⟩,
        ⟨S4, broadcastInDim S4 ![] bcast_S_S4 (constant (F := Ideal) S_ .f32 0x00000000#32)⟩] concatenates_S4_S4_S8_d0)
        shapeCasts_S8_S8x1
      = fun i : S8x1.Idx => if h : (i 0).val < 4 then a13 (ix1 ⟨(i 0).val, h⟩) else Cert.Spec.zero := by
  funext i
  obtain ⟨r, z, rfl⟩ : ∃ (r : Fin 8) (z : Fin 1), i = ix2 r z := ⟨i 0, i 1, eq_ix2 i⟩
  refine (shapeCast_apply _ shapeCasts_S8_S8x1 (ix2 r z) (ix1 r) ?_).trans ?_
  · rw [Shape.rowMajor_val_one, Shape.rowMajor_val_two]
    show r.val = r.val * 1 + z.val
    have := z.isLt
    omega
  · by_cases h : r.val < 4
    · refine Eq.trans ?_ (dif_pos h).symm
      refine concatenate_pair_apply_left (0 : Fin S8.rank) _ _ concatenates_S4_S4_S8_d0 (ix1 r) rfl
        (ix1 (⟨r.val, h⟩ : Fin 4)) ?_
      intro b
      match b with
      | ⟨0, _⟩ => rfl
    · refine Eq.trans ?_ (dif_neg h).symm
      have h4 : r.val - 4 < 4 := by have := r.isLt; omega
      refine (concatenate_pair_apply_right (0 : Fin S8.rank) _ _ concatenates_S4_S4_S8_d0 (ix1 r) rfl rfl
        (ix1 (⟨r.val - 4, h4⟩ : Fin 4)) ?_ ?_).trans
        (broadcastInDim_scalar_apply bcast_S_S4 (constant (F := Ideal) S_ .f32 0x00000000#32) _)
      · intro b hb
        match b with
        | ⟨0, _⟩ => exact absurd rfl hb
      · show r.val - 4 + 4 = r.val
        omega

/-! ## The six operand arrays of the node kernel, as the host lines leave them -/

theorem v0_eq (c : Dev nD) : V5 (F := Ideal) m ρ c main_v0 = Cert.KSpec.padRows (Cert.In.ofK m c).x := by
  have walk : W5 (F := Ideal) m ρ c (Proc.devRef .tc main_v0) = W2 (F := Ideal) m ρ c (Proc.devRef .tc main_v0) :=
    calc W5 (F := Ideal) m ρ c (Proc.devRef .tc main_v0)
      _ = W4 (F := Ideal) m ρ c (Proc.devRef .tc main_v0) := by unwritten
      _ = W3 (F := Ideal) m ρ c (Proc.devRef .tc main_v0) := by unwritten
      _ = W2 (F := Ideal) m ρ c (Proc.devRef .tc main_v0) := by unwritten
  have e : (W2 (F := Ideal) m ρ c (Proc.devRef .tc main_v0) : S50048x64.Idx → EReal)
      = pad S50048x64 ![0, 0] ![48, 0] ![0, 0] (m ((c : Thread nD τ).loc main_arg0))
          (sitofp (F := Ideal) .f32 (constantI S_ 32 0#32)) pads_S50000x64_S50048x64_0480_000 h_S_ := by
    show StableHlo.after hostOps0_1 (W1 (F := Ideal) m ρ c) (Proc.devRef .tc main_v0) = _
    after_results
    rfl
  exact walk.trans (e.trans (pad_eq_padRows _))

theorem v1_eq (c : Dev nD) : V5 (F := Ideal) m ρ c main_v1 = Cert.KSpec.padRows (Cert.In.ofK m c).x0 := by
  have walk : W5 (F := Ideal) m ρ c (Proc.devRef .tc main_v1) = W4 (F := Ideal) m ρ c (Proc.devRef .tc main_v1) := by
    unwritten
  have e : (W4 (F := Ideal) m ρ c (Proc.devRef .tc main_v1) : S50048x64.Idx → EReal)
      = pad S50048x64 ![0, 0] ![48, 0] ![0, 0] (m ((c : Thread nD τ).loc main_arg1))
          (sitofp (F := Ideal) .f32 (constantI S_ 32 0#32)) pads_S50000x64_S50048x64_0480_000 h_S_ := by
    show StableHlo.after hostOps0_3 (W3 (F := Ideal) m ρ c) (Proc.devRef .tc main_v1) = _
    after_results
    rfl
  exact walk.trans (e.trans (pad_eq_padRows _))

theorem v4_eq (c : Dev nD) : V5 (F := Ideal) m ρ c main_v4 = Cert.KSpec.gateW (Cert.In.ofK m c) := by
  have e : (W5 (F := Ideal) m ρ c (Proc.devRef .tc main_v4) : S2x64.Idx → EReal)
      = concatenate S2x64 0 [⟨S1x64, transpose S1x64 [1, 0] (m ((c : Thread nD τ).loc main_arg6)) transposes_S64x1_S1x64_1_0⟩,
          ⟨S1x64, transpose S1x64 [1, 0] (m ((c : Thread nD τ).loc main_arg8)) transposes_S64x1_S1x64_1_0⟩]
          concatenates_S1x64_S1x64_S2x64_d0 := by
    show StableHlo.after hostOps0_4 (W4 (F := Ideal) m ρ c) (Proc.devRef .tc main_v4) = _
    after_results
  exact e.trans (gate_weights_read _ _)

theorem v7_eq (c : Dev nD) : V5 (F := Ideal) m ρ c main_v7 = Cert.KSpec.gateB (Cert.In.ofK m c) := by
  have e : (W5 (F := Ideal) m ρ c (Proc.devRef .tc main_v7) : S2x1.Idx → EReal)
      = shapeCast S2x1 (concatenate S2 0 ([⟨S1, m ((c : Thread nD τ).loc main_arg7)⟩,
          ⟨S1, addf (F := Ideal) (s := S1) (φ := .f32) (m ((c : Thread nD τ).loc main_arg9))
            (m ((c : Thread nD τ).loc main_arg11))⟩] : List ((s : Shape) × (s.Idx → EReal)))
          concatenates_S1_S1_S2_d0) shapeCasts_S2_S2x1 := by
    show StableHlo.after hostOps0_4 (W4 (F := Ideal) m ρ c) (Proc.devRef .tc main_v7) = _
    after_results
    rfl
  exact e.trans (gate_bias_read _ _ _)

theorem v10_eq (c : Dev nD) : V5 (F := Ideal) m ρ c main_v10 = Cert.KSpec.potW (Cert.In.ofK m c) := by
  have e : (W5 (F := Ideal) m ρ c (Proc.devRef .tc main_v10) : S8x64.Idx → EReal)
      = concatenate S8x64 0 [⟨S4x64, transpose S4x64 [1, 0] (m ((c : Thread nD τ).loc main_arg12)) transposes_S64x4_S4x64_1_0⟩,
          ⟨S4x64, transpose S4x64 [1, 0] (m ((c : Thread nD τ).loc main_arg14)) transposes_S64x4_S4x64_1_0⟩]
          concatenates_S4x64_S4x64_S8x64_d0 := by
    show StableHlo.after hostOps0_4 (W4 (F := Ideal) m ρ c) (Proc.devRef .tc main_v10) = _
    after_results
  exact e.trans (pot_weights_read _ _)

theorem v13_eq (c : Dev nD) : V5 (F := Ideal) m ρ c main_v13 = Cert.KSpec.potB (Cert.In.ofK m c) := by
  have e : (W5 (F := Ideal) m ρ c (Proc.devRef .tc main_v13) : S8x1.Idx → EReal)
      = shapeCast S8x1 (concatenate S8 0 [⟨S4, (m ((c : Thread nD τ).loc main_arg13) : FVec Ideal S4 .f32)⟩,
          ⟨S4, broadcastInDim S4 ![] bcast_S_S4 (constant (F := Ideal) S_ .f32 0x00000000#32)⟩]
          concatenates_S4_S4_S8_d0) shapeCasts_S8_S8x1 := by
    show StableHlo.after hostOps0_4 (W4 (F := Ideal) m ρ c) (Proc.devRef .tc main_v13) = _
    after_results
    rfl
  exact e.trans (pot_bias_read _)

end Cert.KernelIdeal.HostBefore

end
-- ==== Proof.EdgePayload.lean ====
/-
  One block of the edge kernel, read at an edge.

  A grid point of the edge kernel holds 32000 edges. From its five blocks — the edges' feature rows (32000×64), the
  gathered gate sums (1×32000), the bond lengths (1×32000), the four rows of gathered potential sums (4×32000) and the
  edge gate's weight row (1×64) — it stores a 1×32000 row. This module reads that row at edge q of the block:

    cutoff(r) · ( exp p₀ · exp ((0 - exp p₁) · r)  -  logistic (g + Σₖ w[k] · y[q,k]) · ( exp p₂ · exp ((0 - exp p₃) · r) ) )

  with r the bond length, g the gate sum, pⱼ the j-th potential sum and y[q,·] the feature row of that edge. Every step
  is pointwise in q except three: a row viewed as a vector (same row-major position), a row cut out of the four-row
  block (row offset plus zero), and the product of the 1×64 weight row with the transposed feature block, which over
  the extended reals is the plain sum over the 64 hidden coordinates. The narrowing of the product's operands to
  sixteen bits is the identity on extended reals.
-/
import proofs.«406755_j64407329571244_2_alg».proof.Proof.Gen.KernelIdeal.Skeleton
import proofs.«406755_j64407329571244_2_alg».proof.Proof.Spec
import Idealize.ShloMosaic.Lib.Pipeline.Value
import Idealize.ShloMosaic.PureOps.Ideal.Laws
import Idealize.ShloMosaic.Lib.ValueIdx
import Idealize.ShloMosaic.Lib.ValueLayout

noncomputable section

namespace Cert.KernelIdeal.EdgePayload

open Idealize.ShloMosaic Idealize.ShloMosaic.ValueIdx Cert.KernelIdeal Cert.KernelIdeal.Gen

/-! ## The bond-length row as a vector, and what is read off it alone -/

/-- Entry q of the 1×32000 row viewed as a vector of 32000 is the row's entry (0, q): both sit at row-major position q. -/
theorem pay2_apply (x2 : Vec Ideal S1x32000 .f32) (q : Fin 32000) :
    k1_pay2 (F := Ideal) x2 (ix1 q) = x2 (ix2 0 q) := by
  unfold k1_pay2
  refine (shapeCast_1a_a_apply _ _ q).trans ?_
  exact congrFun (shapeCast_self x2 _) _

/-- The inner test of the cutoff: is the bond length below 3.8? -/
theorem pay7_apply (x2 : Vec Ideal S1x32000 .f32) (q : Fin 32000) :
    k1_pay7 (F := Ideal) x2 (ix1 q) = Ideal.cmp .olt (x2 (ix2 0 q)) Cert.Spec.c38 := by
  unfold k1_pay7
  exact congrArg (fun r => Ideal.cmp .olt r Cert.Spec.c38) (pay2_apply x2 q)

/-- The constant vectors 1 and 3.9. -/
theorem pay8_apply (q : Fin 32000) : k1_pay8 (F := Ideal) (ix1 q) = Cert.Spec.one := rfl
theorem pay9_apply (q : Fin 32000) : k1_pay9 (F := Ideal) (ix1 q) = Cert.Spec.c39 := rfl

/-! ## The stored row from its seven vector operands -/

/-- The stored row at (u, q), u the one row: the cutoff's two nested selections times (repulsion - bond order · attraction),
    all seven operands read at q. Only the last step, the vector viewed as a 1×32000 row, is not pointwise. -/
theorem pay1_apply (v12 v24 v33 v38 : FVec Ideal S32000 .f32) (v40 : IVec S32000 1) (v41 v42 : FVec Ideal S32000 .f32)
    (u : Fin 1) (q : Fin 32000) :
    k1_pay1 (F := Ideal) v12 v24 v33 v38 v40 v41 v42 (ix2 u q)
      = Scalar.select (Ideal.cmp .ogt (v12 (ix1 q)) Cert.Spec.c40) Cert.Spec.zero
          (Scalar.select (v40 (ix1 q)) (v41 (ix1 q))
            (Cert.Spec.half - Cert.Spec.half * Ideal.sin (Ideal.div (Cert.Spec.cpi * (v12 (ix1 q) - v42 (ix1 q))) Cert.Spec.c02)))
        * (v33 (ix1 q) - v24 (ix1 q) * v38 (ix1 q)) := by
  unfold k1_pay1
  refine (shapeCast_a_1a_apply _ _ u q).trans ?_
  rfl

/-! ## The weight row against the feature block

The product contracts axis 1 of the 1×64 row with axis 1 of the 32000×64 block: at result index (0, q) and contraction
position k the left operand is read at (0, k) and the right at (q, k). -/

/-- Left operand, axis 0 (kept): the result's axis 0. -/
theorem lhs_edge_0 (i : S1x32000.Idx) (k : dot_S1x64_S32000x64_S1x32000_1_1_0_0_n_n.contr.Idx) :
    (dot_S1x64_S32000x64_S1x32000_1_1_0_0_n_n.lhsIdx i k 0).val = (i 0).val := by
  unfold DotDims.lhsIdx
  rw [dif_neg (show ¬(0 : Fin S1x64.rank) ∈ dot_S1x64_S32000x64_S1x32000_1_1_0_0_n_n.lhsBatch by decide), dif_pos (show (0 : Fin S1x64.rank) ∈ dot_S1x64_S32000x64_S1x32000_1_1_0_0_n_n.lhsNonContracting by decide)]
  rfl
/-- Left operand, axis 1 (contracted): the contraction position. -/
theorem lhs_edge_1 (i : S1x32000.Idx) (k : dot_S1x64_S32000x64_S1x32000_1_1_0_0_n_n.contr.Idx) :
    (dot_S1x64_S32000x64_S1x32000_1_1_0_0_n_n.lhsIdx i k 1).val = (k ⟨0, by decide⟩).val :=
  dot_S1x64_S32000x64_S1x32000_1_1_0_0_n_n.lhsIdx_val_of_single rfl i k
/-- Right operand, axis 0 (kept): the result's axis 1, the edge. -/
theorem rhs_edge_0 (i : S1x32000.Idx) (k : dot_S1x64_S32000x64_S1x32000_1_1_0_0_n_n.contr.Idx) :
    (dot_S1x64_S32000x64_S1x32000_1_1_0_0_n_n.rhsIdx i k 0).val = (i 1).val := by
  unfold DotDims.rhsIdx
  rw [dif_neg (show ¬(0 : Fin S32000x64.rank) ∈ dot_S1x64_S32000x64_S1x32000_1_1_0_0_n_n.rhsBatch by decide), dif_pos (show (0 : Fin S32000x64.rank) ∈ dot_S1x64_S32000x64_S1x32000_1_1_0_0_n_n.rhsNonContracting by decide)]
  rfl
/-- Right operand, axis 1 (contracted): the contraction position. -/
theorem rhs_edge_1 (i : S1x32000.Idx) (k : dot_S1x64_S32000x64_S1x32000_1_1_0_0_n_n.contr.Idx) :
    (dot_S1x64_S32000x64_S1x32000_1_1_0_0_n_n.rhsIdx i k 1).val = (k ⟨0, by decide⟩).val :=
  dot_S1x64_S32000x64_S1x32000_1_1_0_0_n_n.rhsIdx_val_of_single rfl i k

/-- Into a zero accumulator the product at (0, q) is Σₖ a[0,k] · b[q,k], the contraction's one axis re-indexed by 0..63. -/
theorem edge_matmul_apply (a : FVec Ideal S1x64 .bf16) (b : FVec Ideal S32000x64 .bf16) (q : Fin 32000) :
    matmul dot_S1x64_S32000x64_S1x32000_1_1_0_0_n_n none a b (constant (F := Ideal) S1x32000 .f32 0x00000000#32) (ix2 0 q)
      = ∑ k : Fin 64, a (ix2 0 k) * b (ix2 q k) := by
  simp only [matmul]
  rw [Ideal.matmul_constant_zero_apply, ← Equiv.sum_comp (contrEquiv1 dot_S1x64_S32000x64_S1x32000_1_1_0_0_n_n 64 rfl rfl).symm]
  refine Finset.sum_congr rfl fun k _ => ?_
  have hk := contrEquiv1_symm_val dot_S1x64_S32000x64_S1x32000_1_1_0_0_n_n 64 rfl rfl k
  have el : dot_S1x64_S32000x64_S1x32000_1_1_0_0_n_n.lhsIdx (ix2 0 q) ((contrEquiv1 dot_S1x64_S32000x64_S1x32000_1_1_0_0_n_n 64 rfl rfl).symm k) = ix2 0 k := funext fun a => Fin.ext (by
    match a with
    | ⟨0, _⟩ => exact lhs_edge_0 _ _
    | ⟨1, _⟩ => exact (lhs_edge_1 _ _).trans hk)
  have er : dot_S1x64_S32000x64_S1x32000_1_1_0_0_n_n.rhsIdx (ix2 0 q) ((contrEquiv1 dot_S1x64_S32000x64_S1x32000_1_1_0_0_n_n 64 rfl rfl).symm k) = ix2 q k := funext fun a => Fin.ext (by
    match a with
    | ⟨0, _⟩ => exact rhs_edge_0 _ _
    | ⟨1, _⟩ => exact (rhs_edge_1 _ _).trans hk)
  rw [el, er]

/-- The bond order at edge q: the logistic function of the gate sum plus the weight row against the edge's feature row. -/
theorem pay4_apply (x0 : Vec Ideal S32000x64 .f32) (x4 : Vec Ideal S1x64 .f32) (x1 : Vec Ideal S1x32000 .f32) (q : Fin 32000) :
    k1_pay4 (F := Ideal) x0 x4 x1 (ix1 q)
      = Ideal.logistic (x1 (ix2 0 q) + ∑ k : Fin 64, x4 (ix2 0 k) * x0 (ix2 q k)) := by
  unfold k1_pay4
  have e6 : shapeCast S32000 (matmul dot_S1x64_S32000x64_S1x32000_1_1_0_0_n_n none
        (truncf .bf16 (shapeCast S1x64 x4 shapeCasts_S1x64_S1x64) bitsLt_bf16_f32) (truncf .bf16 x0 bitsLt_bf16_f32)
        (constant (F := Ideal) S1x32000 .f32 0x00000000#32)) shapeCasts_S1x32000_S32000 (ix1 q)
      = ∑ k : Fin 64, x4 (ix2 0 k) * x0 (ix2 q k) :=
    (shapeCast_1a_a_apply _ _ q).trans ((edge_matmul_apply _ _ q).trans
      (Finset.sum_congr rfl fun k _ => congrArg (· * x0 (ix2 q k)) (congrFun (shapeCast_self x4 _) (ix2 0 k))))
  exact congrArg Ideal.logistic (congrArg₂ (· + ·) (pay2_apply x1 q) e6)

/-! ## The four rows of potential sums -/

/-- Row o of the 4×32000 block, cut out as a 1×32000 row and viewed as a vector, at q: the block's entry (o, q). -/
theorem row_apply (x3 : Vec Ideal S4x32000 .f32) (o : Nat) (h : S4x32000.Slices ![o, 0] S1x32000) (j : Fin 4) (hj : j.val = o)
    (q : Fin 32000) :
    shapeCast S32000 (extractStridedSlice S1x32000 ![o, 0] (k1_pay3 (F := Ideal) x3) h) shapeCasts_S1x32000_S32000 (ix1 q)
      = x3 (ix2 j q) := by
  refine (shapeCast_1a_a_apply _ _ q).trans ?_
  refine (slice2_axis0_apply o _ h (0 : Fin 1) q j (by simp [hj])).trans ?_
  unfold k1_pay3
  exact congrFun (shapeCast_self x3 _) _

/-- The repulsion at edge q: exp p₀ · exp ((0 - exp p₁) · r). -/
theorem pay5_apply (x2 : Vec Ideal S1x32000 .f32) (x3 : Vec Ideal S4x32000 .f32) (q : Fin 32000) :
    k1_pay5 (F := Ideal) x2 x3 (ix1 q)
      = Ideal.exp (x3 (ix2 0 q)) * Ideal.exp ((Cert.Spec.zero - Ideal.exp (x3 (ix2 1 q))) * x2 (ix2 0 q)) := by
  unfold k1_pay5
  have r0 := row_apply x3 0 slices_S4x32000_o0_0_S1x32000 0 rfl q
  have r1 := row_apply x3 1 slices_S4x32000_o1_0_S1x32000 1 rfl q
  exact congrArg₂ (· * ·) (congrArg Ideal.exp r0)
    (congrArg Ideal.exp (congrArg₂ (· * ·) (congrArg (fun z => Cert.Spec.zero - Ideal.exp z) r1) (pay2_apply x2 q)))

/-- The attraction at edge q: exp p₂ · exp ((0 - exp p₃) · r). -/
theorem pay6_apply (x2 : Vec Ideal S1x32000 .f32) (x3 : Vec Ideal S4x32000 .f32) (q : Fin 32000) :
    k1_pay6 (F := Ideal) x2 x3 (ix1 q)
      = Ideal.exp (x3 (ix2 2 q)) * Ideal.exp ((Cert.Spec.zero - Ideal.exp (x3 (ix2 3 q))) * x2 (ix2 0 q)) := by
  unfold k1_pay6
  have r2 := row_apply x3 2 slices_S4x32000_o2_0_S1x32000 2 rfl q
  have r3 := row_apply x3 3 slices_S4x32000_o3_0_S1x32000 3 rfl q
  exact congrArg₂ (· * ·) (congrArg Ideal.exp r2)
    (congrArg Ideal.exp (congrArg₂ (· * ·) (congrArg (fun z => Cert.Spec.zero - Ideal.exp z) r3) (pay2_apply x2 q)))

/-! ## The block's row at an edge -/

/-- The pair energy of edge q of a block, from the block's five operands. -/
def blockFn (x0 : Vec Ideal S32000x64 .f32) (x1 x2 : Vec Ideal S1x32000 .f32) (x3 : Vec Ideal S4x32000 .f32)
    (x4 : Vec Ideal S1x64 .f32) (q : Fin 32000) : EReal :=
  Cert.Spec.cut (x2 (ix2 0 q)) *
    ((Ideal.exp (x3 (ix2 0 q)) * Ideal.exp ((Cert.Spec.zero - Ideal.exp (x3 (ix2 1 q))) * x2 (ix2 0 q)))
      - Ideal.logistic (x1 (ix2 0 q) + ∑ k : Fin 64, x4 (ix2 0 k) * x0 (ix2 q k))
        * (Ideal.exp (x3 (ix2 2 q)) * Ideal.exp ((Cert.Spec.zero - Ideal.exp (x3 (ix2 3 q))) * x2 (ix2 0 q))))

/-- What the block's one store holds at (u, q): the pair energy of edge q. The cutoff's selections are the
    specification's own, so the two sides meet by unfolding. -/
theorem payload_apply (x0 : Vec Ideal S32000x64 .f32) (x1 x2 : Vec Ideal S1x32000 .f32) (x3 : Vec Ideal S4x32000 .f32)
    (x4 : Vec Ideal S1x64 .f32) (u : Fin 1) (q : Fin 32000) :
    k1_pay1 (F := Ideal) (k1_pay2 x2) (k1_pay4 x0 x4 x1) (k1_pay5 x2 x3) (k1_pay6 x2 x3) (k1_pay7 x2) k1_pay8 k1_pay9 (ix2 u q)
      = blockFn x0 x1 x2 x3 x4 q := by
  rw [pay1_apply, pay2_apply, pay4_apply, pay5_apply, pay6_apply, pay7_apply, pay8_apply, pay9_apply]
  rfl

end Cert.KernelIdeal.EdgePayload

end
-- ==== Proof.EdgeValue.lean ====
/-
  The edge kernel's array: from blocks of 32000 edges to all 1600000.

  The edge kernel runs over 50 grid points. Point t reads rows t·32000 … t·32000+31999 of the edges' feature table,
  the same columns of the gate-sum row, the bond-length row and the four potential-sum rows, and the whole 1×64 weight
  row, and writes columns t·32000 … t·32000+31999 of the 1×1600000 result row. So an entry of a block sits in its array
  at (block index × block extent + coordinate inside the block) on each axis, and the block index is t on the edge axis
  and 0 on every other.

  What point t writes at edge q of its block is the pair energy of edge t·32000+q computed from the whole arrays: the
  block's row at an edge (the payload module) with each block read replaced by the array read it is. Every edge e lies
  in exactly the block of point e / 32000, and 50 · 32000 = 1600000, so the blocks cover the result row and it ends
  holding the whole-array function at every edge — for any contents of the five operand arrays when the kernel starts.
-/
import proofs.«406755_j64407329571244_2_alg».proof.Proof.Gen.KernelIdeal.Frame
import proofs.«406755_j64407329571244_2_alg».proof.Proof.KSpec
import proofs.«406755_j64407329571244_2_alg».proof.Proof.EdgePayload
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.EdgePayload

/- The contents of every buffer when the edge kernel starts: arbitrary. -/
variable (V : (c : Dev nD) → (b : Ref sig .tc) → Buf (Elt Ideal) ((c : Thread nD τ).loc b))

theorem hz : (![0, 0] : Fin 2 → Nat) = fun _ => 0 := funext fun a => by fin_cases a <;> rfl

/-! ## The five operand arrays and their blocks at a point, at their literal shapes -/

/-- The edges' feature table, 1600000×64. -/
abbrev yArr (c : Dev nD) : Vec Ideal S1600000x64 .f32 := V c main_arg2
/-- The gathered gate sums, 1×1600000. -/
abbrev esArr (c : Dev nD) : Vec Ideal S1x1600000 .f32 := V c main_v27
/-- The bond lengths, 1×1600000. -/
abbrev blArr (c : Dev nD) : Vec Ideal S1x1600000 .f32 := V c main_v28
/-- The gathered potential sums, 4×1600000. -/
abbrev psArr (c : Dev nD) : Vec Ideal S4x1600000 .f32 := V c main_v26
/-- The edge gate's weight row, 1×64. -/
abbrev wArr (c : Dev nD) : Vec Ideal S1x64 .f32 := V c main_v29

/-- Point t's 32000 feature rows. -/
abbrev yBlk (c : Dev nD) (t : Fin cfg1.N) : Vec Ideal S32000x64 .f32 := iblk1 V c 0 t
/-- Point t's 32000 gate sums. -/
abbrev esBlk (c : Dev nD) (t : Fin cfg1.N) : Vec Ideal S1x32000 .f32 := iblk1 V c 1 t
/-- Point t's 32000 bond lengths. -/
abbrev blBlk (c : Dev nD) (t : Fin cfg1.N) : Vec Ideal S1x32000 .f32 := iblk1 V c 2 t
/-- Point t's four rows of 32000 potential sums. -/
abbrev psBlk (c : Dev nD) (t : Fin cfg1.N) : Vec Ideal S4x32000 .f32 := iblk1 V c 3 t
/-- The weight row, the same block at every point. -/
abbrev wBlk (c : Dev nD) (t : Fin cfg1.N) : Vec Ideal S1x64 .f32 := iblk1 V c 4 t

/-! ## Where each block sits -/

/-- The block indices at point t: t on the edge axis of the five windows that move with the grid, 0 on every other
    axis and on both axes of the weight row. Decided over the 50 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

/-- The grid has 50 points. -/
theorem N_eq : cfg1.N = 50 := by decide

/-- Edge q of block t is edge t·32000 + q of the array: below 50 · 32000 = 1600000. -/
theorem edge_lt (t : Fin cfg1.N) (q : Fin 32000) : t.val * 32000 + q.val < 1600000 := by
  have ht : t.val < 50 := lt_of_lt_of_eq t.isLt N_eq
  have hq := q.isLt
  omega

/-! ## Each block read is an array read

On each axis a block's coordinate is block index × block extent + the coordinate inside the block. -/

/-- Feature row q of block t is feature row t·32000 + q. -/
theorem yBlk_apply (c : Dev nD) (t : Fin cfg1.N) (q : Fin 32000) (k : Fin 64) :
    yBlk V c t (ix2 q k) = yArr V c (ix2 ⟨t.val * 32000 + q.val, edge_lt t q⟩ k) := by
  obtain ⟨e00, e01, -⟩ := idx_facts t
  show V c main_arg2 (((cfg1.win 0).blk t).view.emb (ix2 q k)) = V c main_arg2 (ix2 ⟨t.val * 32000 + q.val, edge_lt t q⟩ k)
  refine congrArg (V c main_arg2) (funext fun a => Fin.ext ?_)
  match a with
  | ⟨0, _⟩ => show win1_0.index t (0 : Fin 2) * 32000 + 1 * q.val = t.val * 32000 + q.val; rw [e00]; omega
  | ⟨1, _⟩ => show win1_0.index t (1 : Fin 2) * 64 + 1 * k.val = k.val; rw [e01]; omega

/-- Gate sum q of block t is gate sum t·32000 + q. -/
theorem esBlk_apply (c : Dev nD) (t : Fin cfg1.N) (q : Fin 32000) :
    esBlk V c t (ix2 0 q) = esArr V c (ix2 0 ⟨t.val * 32000 + q.val, edge_lt t q⟩) := by
  obtain ⟨-, -, e10, e11, -⟩ := idx_facts t
  show V c main_v27 (((cfg1.win 1).blk t).view.emb (ix2 0 q)) = V c main_v27 (ix2 0 ⟨t.val * 32000 + q.val, edge_lt t q⟩)
  refine congrArg (V c main_v27) (funext fun a => Fin.ext ?_)
  match a with
  | ⟨0, _⟩ => show win1_1.index t (0 : Fin 2) * 1 + 1 * 0 = 0; rw [e10]
  | ⟨1, _⟩ => show win1_1.index t (1 : Fin 2) * 32000 + 1 * q.val = t.val * 32000 + q.val; rw [e11]; omega

/-- Bond length q of block t is bond length t·32000 + q. -/
theorem blBlk_apply (c : Dev nD) (t : Fin cfg1.N) (q : Fin 32000) :
    blBlk V c t (ix2 0 q) = blArr V c (ix2 0 ⟨t.val * 32000 + q.val, edge_lt t q⟩) := by
  obtain ⟨-, -, -, -, e20, e21, -⟩ := idx_facts t
  show V c main_v28 (((cfg1.win 2).blk t).view.emb (ix2 0 q)) = V c main_v28 (ix2 0 ⟨t.val * 32000 + q.val, edge_lt t q⟩)
  refine congrArg (V c main_v28) (funext fun a => Fin.ext ?_)
  match a with
  | ⟨0, _⟩ => show win1_2.index t (0 : Fin 2) * 1 + 1 * 0 = 0; rw [e20]
  | ⟨1, _⟩ => show win1_2.index t (1 : Fin 2) * 32000 + 1 * q.val = t.val * 32000 + q.val; rw [e21]; omega

/-- Potential sum (j, q) of block t is potential sum (j, t·32000 + q): all four rows are in every block. -/
theorem psBlk_apply (c : Dev nD) (t : Fin cfg1.N) (j : Fin 4) (q : Fin 32000) :
    psBlk V c t (ix2 j q) = psArr V c (ix2 j ⟨t.val * 32000 + q.val, edge_lt t q⟩) := by
  obtain ⟨-, -, -, -, -, -, e30, e31, -⟩ := idx_facts t
  show V c main_v26 (((cfg1.win 3).blk t).view.emb (ix2 j q)) = V c main_v26 (ix2 j ⟨t.val * 32000 + q.val, edge_lt t q⟩)
  refine congrArg (V c main_v26) (funext fun a => Fin.ext ?_)
  match a with
  | ⟨0, _⟩ => show win1_3.index t (0 : Fin 2) * 4 + 1 * j.val = j.val; rw [e30]; omega
  | ⟨1, _⟩ => show win1_3.index t (1 : Fin 2) * 32000 + 1 * q.val = t.val * 32000 + q.val; rw [e31]; omega

/-- The weight row's block is the weight row. -/
theorem wBlk_apply (c : Dev nD) (t : Fin cfg1.N) (k : Fin 64) :
    wBlk V c t (ix2 0 k) = wArr V c (ix2 0 k) := by
  obtain ⟨-, -, -, -, -, -, -, -, e40, e41, -⟩ := idx_facts t
  show V c main_v29 (((cfg1.win 4).blk t).view.emb (ix2 0 k)) = V c main_v29 (ix2 0 k)
  refine congrArg (V c main_v29) (funext fun a => Fin.ext ?_)
  match a with
  | ⟨0, _⟩ => show win1_4.index t (0 : Fin 2) * 1 + 1 * 0 = 0; rw [e40]
  | ⟨1, _⟩ => show win1_4.index t (1 : Fin 2) * 64 + 1 * k.val = k.val; rw [e41]; omega

/-! ## A block's row is the whole-array function on its edges -/

/-- If five blocks agree with five arrays at edge q of the block and edge e of the arrays — the feature row, the gate sum,
    the bond length, the four potential sums, and the weight row everywhere — then the block's pair energy at q is the
    arrays' pair energy at e: the two are the same expression in those entries. -/
theorem blockFn_eq_edgeFn (y : Vec Ideal S1600000x64 .f32) (es bl : Vec Ideal S1x1600000 .f32) (ps : Vec Ideal S4x1600000 .f32)
    (w : Vec Ideal S1x64 .f32)
    (x0 : Vec Ideal S32000x64 .f32) (x1 x2 : Vec Ideal S1x32000 .f32) (x3 : Vec Ideal S4x32000 .f32) (x4 : Vec Ideal S1x64 .f32)
    (e : Fin 1600000) (q : Fin 32000)
    (h0 : ∀ k, x0 (ix2 q k) = y (ix2 e k)) (h1 : x1 (ix2 0 q) = es (ix2 0 e)) (h2 : x2 (ix2 0 q) = bl (ix2 0 e))
    (h3 : ∀ j, x3 (ix2 j q) = ps (ix2 j e)) (h4 : ∀ k, x4 (ix2 0 k) = w (ix2 0 k)) :
    blockFn x0 x1 x2 x3 x4 q = Cert.KSpec.edgeFn y es bl ps w (ix2 0 e) := by
  unfold blockFn Cert.KSpec.edgeFn
  simp only [h0, h1, h2, h3, h4]

/-- What point t's store holds at (u, q) is the arrays' pair energy at edge t·32000 + q. -/
theorem block_eq (c : Dev nD) (t : Fin cfg1.N) (u : Fin 1) (q : Fin 32000) :
    k1_pay1 (F := Ideal) (k1_pay2 (blBlk V c t)) (k1_pay4 (yBlk V c t) (wBlk V c t) (esBlk V c t))
        (k1_pay5 (blBlk V c t) (psBlk V c t)) (k1_pay6 (blBlk V c t) (psBlk V c t)) (k1_pay7 (blBlk V c t)) k1_pay8 k1_pay9 (ix2 u q)
      = Cert.KSpec.edgeFn (yArr V c) (esArr V c) (blArr V c) (psArr V c) (wArr V c) (ix2 0 ⟨t.val * 32000 + q.val, edge_lt t q⟩) :=
  (payload_apply (yBlk V c t) (esBlk V c t) (blBlk V c t) (psBlk V c t) (wBlk V c t) u q).trans
    (blockFn_eq_edgeFn (yArr V c) (esArr V c) (blArr V c) (psArr V c) (wArr V c)
      (yBlk V c t) (esBlk V c t) (blBlk V c t) (psBlk V c t) (wBlk V c t) ⟨t.val * 32000 + q.val, edge_lt t q⟩ q
      (fun k => yBlk_apply V c t q k) (esBlk_apply V c t q) (blBlk_apply V c t q) (fun j => psBlk_apply V c t j q)
      (fun k => wBlk_apply V c t k))

/-- WHAT POINT t WRITES BACK is block t of the whole-array function of the operand arrays as the kernel finds them:
    its one store covers the staging row, the store's entry (u, q) is the pair energy of edge t·32000 + q, and (u, q) of
    the result's block t is entry (0, t·32000 + q) of the result row. -/
theorem flushed_eq (c : Dev nD) (t : Fin cfg1.N) :
    (dat1 (F := Ideal) V c).flushed 5 t = ((cfg1.win 5).blk t).view.read (Elt Ideal)
      (Cert.KSpec.edgeFn (V c main_arg2) (V c main_v27) (V c main_v28) (V c main_v26) (V c main_v29)) := by
  show (cfg1.win 5).cut (grid1.coords t) ((dat1 V c).after 5 t) = _
  rw [after1_5]
  unfold out1_5
  rw [View.canon_unit_zero hz]
  simp only [View.ld_unit_zero (S := S32000x64) hz, View.ld_unit_zero (S := S1x32000) hz, View.ld_unit_zero (S := S4x32000) hz, View.ld_unit_zero (S := S1x64) hz]
  funext j
  obtain ⟨-, -, -, -, -, -, -, -, -, -, e50, e51⟩ := idx_facts t
  have hu : (j 0).val < 1 := (j 0).isLt
  have hq : (j 1).val < 32000 := (j 1).isLt
  have hl : (win1 5).xinj (grid1.coords t) j = ix2 (⟨(j 0).val, hu⟩ : Fin 1) (⟨(j 1).val, hq⟩ : Fin 32000) :=
    funext fun a => by match a with | ⟨0, _⟩ => rfl | ⟨1, _⟩ => rfl
  have hr : ((View.whole main_v30).slice ((win1 5).rect t)).emb j
      = ix2 (0 : Fin 1) (⟨t.val * 32000 + (j 1).val, edge_lt t ⟨(j 1).val, hq⟩⟩ : Fin 1600000) :=
    funext fun a => Fin.ext (by
      match a with
      | ⟨0, _⟩ => show win1_5.index t (0 : Fin 2) * 1 + 1 * (j 0).val = 0; rw [e50]; omega
      | ⟨1, _⟩ => show win1_5.index t (1 : Fin 2) * 32000 + 1 * (j 1).val = t.val * 32000 + (j 1).val; rw [e51]; omega)
  refine Eq.trans ?_ (congrArg (Cert.KSpec.edgeFn (V c main_arg2) (V c main_v27) (V c main_v28) (V c main_v26) (V c main_v29)) hr).symm
  refine Eq.trans ?_ (block_eq V c t ⟨(j 0).val, hu⟩ ⟨(j 1).val, hq⟩)
  exact congrArg _ hl

/-! ## The blocks cover the result row -/

/-- An entry of the result row is in point t's block iff each coordinate is in the block's range on its axis. -/
theorem mem_blk (t : Fin cfg1.N) (i : S1x1600000.Idx) :
    i ∈ ((cfg1.win 5).blk t).view.set ↔ ∀ a : Fin 2, win1_5.index t a * S1x32000.size a ≤ (i a).val ∧ (i a).val < win1_5.index t a * S1x32000.size a + S1x32000.size a := by
  show i ∈ ((View.whole main_v30).slice (win1_5.rect t)).set ↔ _
  rw [View.set_slice_whole, Rect.mem_set_unit]
  exact Iff.rfl

/-- Edge e is written by point e / 32000, which is one of the 50 since e < 50 · 32000; every point writes back. -/
theorem cover (i : S1x1600000.Idx) :
    ∃ t : Fin cfg1.N, (cfg1.win 5).flush t = true ∧ i ∈ ((cfg1.win 5).blk t).view.set := by
  have hi0 : (i 0).val < 1 := (i 0).isLt
  have hi1 : (i 1).val < 1600000 := (i 1).isLt
  obtain ⟨t, ht⟩ : ∃ t : Fin cfg1.N, t.val = (i 1).val / 32000 := ⟨⟨(i 1).val / 32000, by rw [N_eq]; omega⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 1 ≤ (i 0).val ∧ (i 0).val < win1_5.index t (0 : Fin 2) * 1 + 1; rw [e50]; omega
  | ⟨1, _⟩ => show win1_5.index t (1 : Fin 2) * 32000 ≤ (i 1).val ∧ (i 1).val < win1_5.index t (1 : Fin 2) * 32000 + 32000; rw [e51, ht]; omega

/-! ## The result row after the last point -/

/-- THE EDGE KERNEL'S ARRAY: whatever the five operand arrays hold when the kernel starts, after its 50 points the
    result row holds the whole-array pair-energy function of them, at every edge. -/
theorem edge_array (c : Dev nD) :
    (dat1 (F := Ideal) V c).arrAt 5 cfg1.N
      = Cert.KSpec.edgeFn (V c main_arg2) (V c main_v27) (V c main_v28) (V c main_v26) (V c main_v29) :=
  (dat1 (F := Ideal) V c).arrAt_eq_of_cover 5 _ (fun t _ => flushed_eq V c t) (fun i => cover i)

end Cert.KernelIdeal.EdgeValue

end
-- ==== Proof.HostBetween.Take.lean ====
/-
  A take, read at an edge. The host gathers columns of a table with 50048 columns at index words, the way a
  general-purpose take does: a negative word is first moved up by the table's length, a mask records whether the
  word then lies in [0, 50047], the gather reads the column at the word (read signed and clamped into the table),
  and a masked-off edge gets a not-a-number word instead.

  When every index word, read as a natural number, is below 50048, none of the guards does anything: the word is
  not negative as a signed word (it is below 2^31), so it is not moved; it lies in [0, 50047], so the mask is
  set at every edge; the clamp leaves it; and the take reads the table's column at the word's value.
-/
import proofs.«406755_j64407329571244_2_alg».proof.Proof.Gen.KernelIdeal
import Idealize.ShloMosaic.Lib.StableHlo.Predicate
import Idealize.ShloMosaic.Lib.ValueIdx
import Idealize.ShloMosaic.Lib.ReduceAll
import Idealize.ShloMosaic.Lib.Pipeline.Value

set_option maxRecDepth 16384

noncomputable section

namespace Cert.KernelIdeal.HostBetween

open Idealize.ShloMosaic Idealize.ShloMosaic.ValueIdx Idealize.ShloMosaic.StableHlo.Predicate
open Cert.KernelIdeal Cert.KernelIdeal.Gen

variable {F : FTy → Type} [FloatOps F]

/-! ## The take's operations as functions of the index array and the table -/

/-- The index word used at each edge: a word that is negative as a signed word is moved up by the table's length. -/
def takeWord (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 50048#32))) idx

/-- The index words as a column, the form the gather takes its start indices in. -/
def takeCol (idx : IVec S1600000 32) : IVec S1600000x1 32 :=
  broadcastInDim S1600000x1 ![0] bcast_S1600000_S1600000x1_0 (takeWord idx)

/-- The mask: at each edge, whether the index word lies in [0, 50047] (an "and" over the one column). -/
def takeMask (idx : IVec S1600000 32) : IVec S1600000 1 :=
  Host.reduce IntOp.andi
    (andi (cmpi .sge (takeCol idx) (broadcastInDim S1600000x1 ![] bcast_S_S1600000x1 (constantI S_ 32 0#32)))
      (cmpi .sle (takeCol idx) (broadcastInDim S1600000x1 ![0, 1] bcast_S1x1_S1600000x1_0_1
        (broadcastInDim S1x1 ![1] bcast_S1_S1x1_1 (constantI S1 32 50047#32)))))
    (constantI S_ 1 1#1) reducesTo_S1600000x1_S1600000_d1 h_S_

/-- The take of a vector table: the gathered entry where the mask is set, a not-a-number word elsewhere. -/
def take1 (x : FVec F S50048 .f32) (idx : IVec S1600000 32) : FVec F S1600000 .f32 :=
  select (takeMask idx) (Host.gather gather_S50048_S1600000x1_S1600000_n_0_n_n_0_1_1 x (takeCol idx))
    (broadcastInDim S1600000 ![] bcast_S_S1600000 (constant S_ .f32 0x7FC00000#32))

/-- The take of a four-row table along its columns: every row gathered at the same column. -/
def take4 (x : FVec F S4x50048 .f32) (idx : IVec S1600000 32) : FVec F S4x1600000 .f32 :=
  select (broadcastInDim S4x1600000 ![1] bcast_S1600000_S4x1600000_1 (takeMask idx))
    (Host.gather gather_S4x50048_S1600000x1_S4x1600000_0_1_n_n_1_1_41 x (takeCol idx))
    (broadcastInDim S4x1600000 ![] bcast_S_S4x1600000 (constant S_ .f32 0x7FC00000#32))

/-! ## Small facts about indices and folds -/

/-- The two spellings of the rank-one index at a coordinate agree. -/
theorem ofFin_eq_ix1 {n : Nat} (k : Fin n) : Shape.Idx.ofFin k = ix1 k := by
  funext a; match a with | ⟨0, _⟩ => exact Fin.ext rfl

/-- Every index of a one-column rectangle is its row at column 0. -/
theorem eq_ixP {n : Nat} (i : (⟨2, ![n, 1]⟩ : Shape).Idx) : i = ixP ⟨(i 0).val, idx2_lt0 i⟩ := by
  funext a
  match a with
  | ⟨0, _⟩ => rfl
  | ⟨1, _⟩ => exact Fin.ext (by have := idx2_lt1 i; show (i 1).val = 0; omega)

/-- An "and" over a set of bits that are all set, started at a set bit, is set. -/
theorem fold_andi_one {ι : Type} (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih fun i hi => hx i (Finset.mem_cons_of_mem hi)]
    rfl

/-- A list that is one entry long holds that entry at every position it has. -/
theorem getElem_of_eq_singleton {β : Type} {l : List β} {b : β} (hl : l = [b]) (k : Nat) (hk : k < l.length) : l[k] = b := by
  subst hl
  match k, hk with
  | 0, _ => rfl

/-- THE TAKE ALONG THE COLUMNS of a table of R rows: the gather whose start indices are an [n × 1] column, whose
    operand's column axis is collapsed and start-indexed and whose row axis is carried whole as the result's first
    axis. Result position (r, p) reads row r of the table at position p's start index, read signed and clamped
    into the table. -/
theorem gather_rows {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) (hN : 0 < N) :
    Host.gather d x idx (ix2 r p) = x (ix2 r ⟨min (idx (ixP p)).toInt.toNat (N - 1), by omega⟩) := by
  unfold Host.gather
  congr 1
  funext a
  apply Fin.ext
  have hb : ∀ a : Fin 2, a ∉ d.operandBatchingDims := fun a => by rw [hob]; exact List.not_mem_nil
  have hbd : d.batchDims = [1] := by
    show (⟨2, ![R, n]⟩ : Shape).kept d.offsetDims = [1]
    rw [hoff]; rfl
  have h01 : ¬ (0 : Fin 2) = 1 := fun e => absurd (congrArg Fin.val e) Nat.zero_ne_one
  have ha : a = (0 : Fin 2) ∨ a = (1 : Fin 2) := by
    rcases a with ⟨v, hv⟩
    have hv2 : v < 2 := hv
    interval_cases v
    · exact Or.inl rfl
    · exact Or.inr rfl
  rcases ha with rfl | rfl
  · -- the row axis: not start-indexed, not batching; the result's first coordinate is its offset
    have hm : (0 : Fin 2) ∉ d.startIndexMap := by rw [hsim]; exact fun hmem => h01 (List.mem_singleton.mp hmem)
    have hk : (0 : Fin 2) ∈ d.sKept := by
      rw [GatherDims.mem_sKept, hcoll, hob]
      exact ⟨fun hmem => h01 (List.mem_singleton.mp hmem), List.not_mem_nil⟩
    simp only [GatherDims.operandIdx, GatherDims.batchCoord_eq_zero _ _ _ (hb _), GatherDims.start, dif_neg hm,
      GatherDims.offCoord, dif_pos hk, Nat.zero_add, Nat.add_zero]
    rw [getElem_of_eq_singleton hoff]
    try rfl
  · -- the column axis: collapsed, start-indexed by the one component of the start index
    have hm : (1 : Fin 2) ∈ d.startIndexMap := by rw [hsim]; exact List.mem_singleton.mpr rfl
    have hk : (1 : Fin 2) ∉ d.sKept := by
      rw [GatherDims.mem_sKept, hcoll]; exact fun hh => hh.1 (List.mem_singleton.mpr rfl)
    have hsl : d.sliceSizes 1 = 1 := d.slice_collapsed 1 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 1) = min (idx (ixP p)).toInt.toNat (N - 1)
    rw [hsl]
    congr 3
    congr 1
    funext b
    have hb2 : b = (0 : Fin 2) ∨ b = (1 : Fin 2) := by
      rcases b with ⟨v, hv⟩
      have hv2 : v < 2 := hv
      interval_cases v
      · exact Or.inl rfl
      · exact Or.inr rfl
    rcases hb2 with rfl | rfl
    · unfold GatherDims.siIdx
      rw [dif_neg (by rw [hivd]; exact fun e => Nat.zero_ne_one e)]
      unfold GatherDims.siCoord
      apply Fin.ext
      simp only [Fin.val_cast]
      rw [getElem_of_eq_singleton hbd]
      try rfl
    · unfold GatherDims.siIdx
      rw [dif_pos (by rw [hivd]; rfl)]
      apply Fin.ext
      show List.idxOf (1 : Fin 2) d.startIndexMap = 0
      rw [hsim]; simp

/-! ## The take at an edge, under the range hypothesis -/

section InRange

variable (idx : IVec S1600000 32) (h : ∀ e : Fin 1600000, (idx (ix1 e)).toNat < 50048)
include h

/-- The word is not negative, so it is kept. -/
theorem takeWord_apply (e : Fin 1600000) : takeWord idx (ix1 e) = idx (ix1 e) := by
  have hlt := h e
  have hn : ¬ IntOp.cmpi .slt (idx (ix1 e)) 0#32 = 1#1 := by
    rw [slt_iff_toNat (by omega) (by decide)]
    exact Nat.not_lt_zero _
  show Scalar.select (IntOp.cmpi .slt (idx (ix1 e)) 0#32) _ (idx (ix1 e)) = idx (ix1 e)
  rw [eq_zero_of_ne_one hn, select_zero]

/-- The column of start indices holds the words themselves. -/
theorem takeCol_apply (e : Fin 1600000) : takeCol idx (ixP e) = idx (ix1 e) := by
  unfold takeCol
  rw [bcast_col1, ofFin_eq_ix1, takeWord_apply idx h]

/-- The mask is set at every edge. -/
theorem takeMask_apply (j : S1600000.Idx) : takeMask idx j = 1#1 := by
  unfold takeMask
  rw [Host.reduce_eq_fold]
  refine fold_andi_one _ _ fun i _ => ?_
  obtain ⟨p, rfl⟩ : ∃ p : Fin 1600000, i = ixP p := ⟨_, eq_ixP i⟩
  have hlt := h p
  show IntOp.andi (IntOp.cmpi .sge (takeCol idx (ixP p)) 0#32) (IntOp.cmpi .sle (takeCol idx (ixP p)) 50047#32) = 1#1
  rw [takeCol_apply idx h, IntOp.andi_eq_one, sge_iff_toNat (by omega) (by decide), sle_iff_toNat (by omega) (by decide)]
  exact ⟨Nat.zero_le _, by show _ ≤ 50047; omega⟩

/-- The take of a vector table reads the table at the word's value. -/
theorem take1_apply (x : FVec F S50048 .f32) (e : Fin 1600000) :
    take1 x idx (ix1 e) = x (ix1 ⟨(idx (ix1 e)).toNat, h e⟩) := by
  have hlt := h e
  have g := gather_take gather_S50048_S1600000x1_S1600000_n_0_n_n_0_1_1 rfl rfl rfl rfl x (takeCol idx) e (by decide)
  rw [ofFin_eq_ix1, ofFin_eq_ix1] at g
  unfold take1
  rw [select_apply, takeMask_apply idx h, select_one, g]
  refine congrArg x (congrArg ix1 (Fin.ext ?_))
  show min (takeCol idx (ixP e)).toInt.toNat (50048 - 1) = (idx (ix1 e)).toNat
  rw [takeCol_apply idx h, toInt_eq_toNat_of_lt (by omega), Int.toNat_natCast]
  omega

/-- The take of a four-row table reads, in every row, the table's column at the word's value. -/
theorem take4_apply (x : FVec F S4x50048 .f32) (r : Fin 4) (e : Fin 1600000) :
    take4 x idx (ix2 r e) = x (ix2 r ⟨(idx (ix1 e)).toNat, h e⟩) := by
  have hlt := h e
  have g := gather_rows gather_S4x50048_S1600000x1_S4x1600000_0_1_n_n_1_1_41 rfl rfl rfl rfl rfl x (takeCol idx) r e (by decide)
  have hm : broadcastInDim S4x1600000 ![1] bcast_S1600000_S4x1600000_1 (takeMask idx) (ix2 r e) = 1#1 := by
    rw [broadcastInDim_apply _ _ _ _ (ix1 e) (fun a => by match a with | ⟨0, _⟩ => rfl)]
    exact takeMask_apply idx h _
  unfold take4
  rw [select_apply, hm, select_one, g]
  refine congrArg x (congrArg (ix2 r) (Fin.ext ?_))
  show min (takeCol idx (ixP e)).toInt.toNat (50048 - 1) = (idx (ix1 e)).toNat
  rw [takeCol_apply idx h, toInt_eq_toNat_of_lt (by omega), Int.toNat_natCast]
  omega

end InRange

end Cert.KernelIdeal.HostBetween

end
-- ==== Proof.HostBetween.Walk.lean ====
/-
  The host lines between the two kernels, first part: which buffers each stretch of host operations leaves alone,
  and what it leaves in the buffers it writes, as the operations' own functions of the contents it found.

  A stretch is a list of operations, each writing one buffer. A buffer that is not among the written ones holds
  after the stretch what it held before; so an argument of the program, which no stretch and no kernel writes,
  still holds the launch memory's array wherever it is read.
-/
import proofs.«406755_j64407329571244_2_alg».proof.Proof.Gen.KernelIdeal.Frame
import proofs.«406755_j64407329571244_2_alg».proof.Proof.HostBetween.Take
import Idealize.ShloMosaic.Lib.StableHlo.Run

set_option maxRecDepth 16384

noncomputable section

namespace Cert.KernelIdeal.HostBetween

open Idealize.ShloMosaic Idealize.ShloMosaic.TcCoe
open Idealize.SL.Sem
open Cert.KernelIdeal Cert.KernelIdeal.Gen

variable {F : FTy → Type} [FloatOps F]

/-! ## The buffers each stretch writes -/

/-- The buffers written before the first kernel. -/
def writes0 : List (Ref sig .tc) :=
  [main_c, main_call0_v0, main_v0, main_c_0, main_call1_v0, main_v1, main_v2, main_v3, main_v4, main_v5, main_v6,
   main_v7, main_v8, main_v9, main_v10, main_cst, main_v11, main_v12, main_v13]

/-- The four row slices and the two reshapes. -/
def writes1 : List (Ref sig .tc) := [main_v15, main_v16, main_v17, main_v18, main_v19, main_v20]

/-- The first take (gate row 0 at the source nodes). -/
def writes1_1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10,
   main_call2_v11, main_call2_c_3, main_call2_v12, main_call2_v13, main_call2_cst, main_call2_v14, main_v21]

/-- The second take (gate row 1 at the destination nodes). -/
def writes1_2 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10,
   main_call3_v11, main_call3_c_3, main_call3_v12, main_call3_v13, main_call3_cst, main_call3_v14, main_v22]

/-- The third take (potential rows at the source nodes). -/
def writes1_4 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10,
   main_call4_v11, main_call4_c_3, main_call4_v12, main_call4_v13, main_call4_v14, main_call4_cst, main_call4_v15, main_v24]

/-- The fourth take (potential rows at the destination nodes). -/
def writes1_5 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10,
   main_call5_v11, main_call5_c_3, main_call5_v12, main_call5_v13, main_call5_v14, main_call5_cst, main_call5_v15, main_v25]

/-- The sum of the potentials, the two rows and the transposed weight column. -/
def writes1_6 : List (Ref sig .tc) := [main_v26, main_v27, main_v28, main_v29]

/-! ## A buffer a stretch does not write keeps its contents -/

/-- Every operation of a literal stretch writes into the given list: the stretch's operations opened one by one,
    each result buffer found in the list. -/
local macro "writes_in" ops:ident : tactic =>
  `(tactic| (simp only [$ops:ident, List.Forall, StableHlo.nullary_writes, StableHlo.unary_writes, StableHlo.binary_writes, StableHlo.ternary_writes, StableHlo.reshape_writes, Finset.singleton_subset_iff, List.mem_toFinset] <;> (repeat' apply And.intro) <;> exact List.mem_map.mpr ⟨_, by decide, rfl⟩))

theorem keep0 (V : Valuation τ sig (Elt F)) {r : Ref sig .tc} (hr : r ∉ writes0) :
    StableHlo.after hostOps0 V (Proc.devRef .tc r) = V (Proc.devRef .tc r) :=
  StableHlo.after_of_writes_sub (W := writes0) _ V (by writes_in hostOps0) hr

theorem keep0_1 (V : Valuation τ sig (Elt F)) {r : Ref sig .tc} (hr : r ∉ writes0) :
    StableHlo.after hostOps0_1 V (Proc.devRef .tc r) = V (Proc.devRef .tc r) :=
  StableHlo.after_of_writes_sub (W := writes0) _ V (by writes_in hostOps0_1) hr

theorem keep0_2 (V : Valuation τ sig (Elt F)) {r : Ref sig .tc} (hr : r ∉ writes0) :
    StableHlo.after hostOps0_2 V (Proc.devRef .tc r) = V (Proc.devRef .tc r) :=
  StableHlo.after_of_writes_sub (W := writes0) _ V (by writes_in hostOps0_2) hr

theorem keep0_3 (V : Valuation τ sig (Elt F)) {r : Ref sig .tc} (hr : r ∉ writes0) :
    StableHlo.after hostOps0_3 V (Proc.devRef .tc r) = V (Proc.devRef .tc r) :=
  StableHlo.after_of_writes_sub (W := writes0) _ V (by writes_in hostOps0_3) hr

theorem keep0_4 (V : Valuation τ sig (Elt F)) {r : Ref sig .tc} (hr : r ∉ writes0) :
    StableHlo.after hostOps0_4 V (Proc.devRef .tc r) = V (Proc.devRef .tc r) :=
  StableHlo.after_of_writes_sub (W := writes0) _ V (by writes_in hostOps0_4) hr

theorem keep1 (V : Valuation τ sig (Elt F)) {r : Ref sig .tc} (hr : r ∉ writes1) :
    StableHlo.after hostOps1 V (Proc.devRef .tc r) = V (Proc.devRef .tc r) :=
  StableHlo.after_of_writes_sub (W := writes1) _ V (by writes_in hostOps1) hr

theorem keep1_1 (V : Valuation τ sig (Elt F)) {r : Ref sig .tc} (hr : r ∉ writes1_1) :
    StableHlo.after hostOps1_1 V (Proc.devRef .tc r) = V (Proc.devRef .tc r) :=
  StableHlo.after_of_writes_sub (W := writes1_1) _ V (by writes_in hostOps1_1) hr

theorem keep1_2 (V : Valuation τ sig (Elt F)) {r : Ref sig .tc} (hr : r ∉ writes1_2) :
    StableHlo.after hostOps1_2 V (Proc.devRef .tc r) = V (Proc.devRef .tc r) :=
  StableHlo.after_of_writes_sub (W := writes1_2) _ V (by writes_in hostOps1_2) hr

theorem keep1_3 (V : Valuation τ sig (Elt F)) {r : Ref sig .tc} (hr : r ∉ [main_v23]) :
    StableHlo.after hostOps1_3 V (Proc.devRef .tc r) = V (Proc.devRef .tc r) :=
  StableHlo.after_of_writes_sub (W := [main_v23]) _ V (by writes_in hostOps1_3) hr

theorem keep1_4 (V : Valuation τ sig (Elt F)) {r : Ref sig .tc} (hr : r ∉ writes1_4) :
    StableHlo.after hostOps1_4 V (Proc.devRef .tc r) = V (Proc.devRef .tc r) :=
  StableHlo.after_of_writes_sub (W := writes1_4) _ V (by writes_in hostOps1_4) hr

theorem keep1_5 (V : Valuation τ sig (Elt F)) {r : Ref sig .tc} (hr : r ∉ writes1_5) :
    StableHlo.after hostOps1_5 V (Proc.devRef .tc r) = V (Proc.devRef .tc r) :=
  StableHlo.after_of_writes_sub (W := writes1_5) _ V (by writes_in hostOps1_5) hr

theorem keep1_6 (V : Valuation τ sig (Elt F)) {r : Ref sig .tc} (hr : r ∉ writes1_6) :
    StableHlo.after hostOps1_6 V (Proc.devRef .tc r) = V (Proc.devRef .tc r) :=
  StableHlo.after_of_writes_sub (W := writes1_6) _ V (by writes_in hostOps1_6) hr

/-! ## Typed buffers: moving a value between the value's type and the buffer's own type

A module-local function's operations name their buffers with the tensor type they hold, and move contents between
that type and the buffer's own along the equation of the two. At a literal buffer the two types are the same. -/

/-- A value moved to a buffer's own type and back is the value. -/
theorem ofBuf_toBuf {sg : RefSig} {Val : EltTy → Type} {T : BufTy} (x : StableHlo.TRef sg T) (v : T.Contents Val) :
    x.ofBuf (x.toBuf v) = v := by
  obtain ⟨r, rfl, _, _⟩ := x
  rfl

/-- Contents read at the buffer's own type are the same contents at the value's type. -/
theorem ofBuf_eq {sg : RefSig} {Val : EltTy → Type} {T : BufTy} (x : StableHlo.TRef sg T) (u : x.ref.ty.Contents Val)
    (w : T.Contents Val) (hw : HEq u w) : x.ofBuf u = w := by
  obtain ⟨r, rfl, _, _⟩ := x
  exact eq_of_heq hw

/-- A value at the value's type is the same value at the buffer's own type. -/
theorem toBuf_eq {sg : RefSig} {Val : EltTy → Type} {T : BufTy} (x : StableHlo.TRef sg T) (v : T.Contents Val)
    (w : x.ref.ty.Contents Val) (hw : HEq v w) : x.toBuf v = w := by
  obtain ⟨r, rfl, _, _⟩ := x
  exact eq_of_heq hw

/-! ## The four takes, from any contents: the stretch's last buffer is the take of the table and index buffers -/

theorem call2_raw (V : Valuation τ sig (Elt F)) : StableHlo.after hostOps1_1 V (Proc.devRef .tc main_v21)
    = take1 (V (Proc.devRef .tc main_v16)) (V (Proc.devRef .tc main_arg4)) := by
  after_results_simp
  simp only [ofBuf_toBuf]
  rw [ofBuf_eq _ _ (V (Proc.devRef .tc main_arg4)) HEq.rfl, ofBuf_eq _ _ (V (Proc.devRef .tc main_v16)) HEq.rfl]
  unfold take1 takeMask takeCol takeWord
  exact toBuf_eq _ _ _ HEq.rfl

theorem call3_raw (V : Valuation τ sig (Elt F)) : StableHlo.after hostOps1_2 V (Proc.devRef .tc main_v22)
    = take1 (V (Proc.devRef .tc main_v18)) (V (Proc.devRef .tc main_arg5)) := by
  after_results_simp
  simp only [ofBuf_toBuf]
  rw [ofBuf_eq _ _ (V (Proc.devRef .tc main_arg5)) HEq.rfl, ofBuf_eq _ _ (V (Proc.devRef .tc main_v18)) HEq.rfl]
  unfold take1 takeMask takeCol takeWord
  exact toBuf_eq _ _ _ HEq.rfl

theorem call4_raw (V : Valuation τ sig (Elt F)) : StableHlo.after hostOps1_4 V (Proc.devRef .tc main_v24)
    = take4 (V (Proc.devRef .tc main_v19)) (V (Proc.devRef .tc main_arg4)) := by
  after_results_simp
  simp only [ofBuf_toBuf]
  rw [ofBuf_eq _ _ (V (Proc.devRef .tc main_arg4)) HEq.rfl, ofBuf_eq _ _ (V (Proc.devRef .tc main_v19)) HEq.rfl]
  unfold take4 takeMask takeCol takeWord
  exact toBuf_eq _ _ _ HEq.rfl

theorem call5_raw (V : Valuation τ sig (Elt F)) : StableHlo.after hostOps1_5 V (Proc.devRef .tc main_v25)
    = take4 (V (Proc.devRef .tc main_v20)) (V (Proc.devRef .tc main_arg5)) := by
  after_results_simp
  simp only [ofBuf_toBuf]
  rw [ofBuf_eq _ _ (V (Proc.devRef .tc main_arg5)) HEq.rfl, ofBuf_eq _ _ (V (Proc.devRef .tc main_v20)) HEq.rfl]
  unfold take4 takeMask takeCol takeWord
  exact toBuf_eq _ _ _ HEq.rfl

variable (m : (ℓ : Loc nD τ sig) → Buf (Elt F) ℓ) (ρ : Dev nD → PrngReg) (c : Dev nD)

/-! ## The arguments hold the launch memory's arrays wherever they are read -/

/-- At the first kernel's entry a buffer no earlier host line writes holds what the launch memory holds. -/
theorem W5_arg {r : Ref sig .tc} (h0 : r ∉ writes0) :
    W5 m ρ c (Proc.devRef .tc r) = m ((c : Thread nD τ).loc r) :=
  (keep0_4 (W4 m ρ c) h0).trans ((keep0_3 (W3 m ρ c) h0).trans ((keep0_2 (W2 m ρ c) h0).trans
    ((keep0_1 (W1 m ρ c) h0).trans ((keep0 (W0 m ρ c) h0).trans rfl))))

/-- The same at the first kernel's exit, for a buffer that is none of that kernel's arrays. -/
theorem W6_arg {r : Ref sig .tc} (h0 : r ∉ writes0) (hs : ∀ w, Pipeline.arrRef spec0 w ≠ r) :
    W6 m ρ c (Proc.devRef .tc r) = m ((c : Thread nD τ).loc r) :=
  (W6_of_ne m ρ c r hs).trans (W5_arg m ρ c h0)

theorem W7_arg4 : W7 m ρ c (Proc.devRef .tc main_arg4) = m ((c : Thread nD τ).loc main_arg4) :=
  (keep1 (W6 m ρ c) (by decide)).trans (W6_arg m ρ c (by decide) (by decide))

theorem W8_arg5 : W8 m ρ c (Proc.devRef .tc main_arg5) = m ((c : Thread nD τ).loc main_arg5) :=
  (keep1_1 (W7 m ρ c) (by decide)).trans ((keep1 (W6 m ρ c) (by decide)).trans (W6_arg m ρ c (by decide) (by decide)))

theorem W10_arg4 : W10 m ρ c (Proc.devRef .tc main_arg4) = m ((c : Thread nD τ).loc main_arg4) :=
  (keep1_3 (W9 m ρ c) (by decide)).trans ((keep1_2 (W8 m ρ c) (by decide)).trans
    ((keep1_1 (W7 m ρ c) (by decide)).trans (W7_arg4 m ρ c)))

theorem W11_arg5 : W11 m ρ c (Proc.devRef .tc main_arg5) = m ((c : Thread nD τ).loc main_arg5) :=
  (keep1_4 (W10 m ρ c) (by decide)).trans ((keep1_3 (W9 m ρ c) (by decide)).trans
    ((keep1_2 (W8 m ρ c) (by decide)).trans (W8_arg5 m ρ c)))

/-- A buffer none of the first six stretches after the first kernel writes. -/
theorem W12_keep {r : Ref sig .tc} (h1 : r ∉ writes1) (h11 : r ∉ writes1_1) (h12 : r ∉ writes1_2) (h13 : r ∉ [main_v23])
    (h14 : r ∉ writes1_4) (h15 : r ∉ writes1_5) : W12 m ρ c (Proc.devRef .tc r) = W6 m ρ c (Proc.devRef .tc r) :=
  (keep1_5 (W11 m ρ c) h15).trans ((keep1_4 (W10 m ρ c) h14).trans ((keep1_3 (W9 m ρ c) h13).trans
    ((keep1_2 (W8 m ρ c) h12).trans ((keep1_1 (W7 m ρ c) h11).trans (keep1 (W6 m ρ c) h1)))))

theorem W12_arg3 : W12 m ρ c (Proc.devRef .tc main_arg3) = m ((c : Thread nD τ).loc main_arg3) :=
  (W12_keep m ρ c (by decide) (by decide) (by decide) (by decide) (by decide) (by decide)).trans
    (W6_arg m ρ c (by decide) (by decide))

theorem W12_arg10 : W12 m ρ c (Proc.devRef .tc main_arg10) = m ((c : Thread nD τ).loc main_arg10) :=
  (W12_keep m ρ c (by decide) (by decide) (by decide) (by decide) (by decide) (by decide)).trans
    (W6_arg m ρ c (by decide) (by decide))

theorem W13_arg2 : W13 m ρ c (Proc.devRef .tc main_arg2) = m ((c : Thread nD τ).loc main_arg2) :=
  (keep1_6 (W12 m ρ c) (by decide)).trans
    ((W12_keep m ρ c (by decide) (by decide) (by decide) (by decide) (by decide) (by decide)).trans
      (W6_arg m ρ c (by decide) (by decide)))

/-! ## The sliced rows of the feature table stay as the first stretch leaves them -/

theorem W8_v18 : W8 m ρ c (Proc.devRef .tc main_v18) = W7 m ρ c (Proc.devRef .tc main_v18) :=
  keep1_1 (W7 m ρ c) (by decide)

theorem W10_v19 : W10 m ρ c (Proc.devRef .tc main_v19) = W7 m ρ c (Proc.devRef .tc main_v19) :=
  (keep1_3 (W9 m ρ c) (by decide)).trans ((keep1_2 (W8 m ρ c) (by decide)).trans (keep1_1 (W7 m ρ c) (by decide)))

theorem W11_v20 : W11 m ρ c (Proc.devRef .tc main_v20) = W7 m ρ c (Proc.devRef .tc main_v20) :=
  (keep1_4 (W10 m ρ c) (by decide)).trans ((keep1_3 (W9 m ρ c) (by decide)).trans
    ((keep1_2 (W8 m ρ c) (by decide)).trans (keep1_1 (W7 m ρ c) (by decide))))

theorem W9_v21 : W9 m ρ c (Proc.devRef .tc main_v21) = W8 m ρ c (Proc.devRef .tc main_v21) :=
  keep1_2 (W8 m ρ c) (by decide)

theorem W12_v23 : W12 m ρ c (Proc.devRef .tc main_v23) = W10 m ρ c (Proc.devRef .tc main_v23) :=
  (keep1_5 (W11 m ρ c) (by decide)).trans (keep1_4 (W10 m ρ c) (by decide))

theorem W12_v24 : W12 m ρ c (Proc.devRef .tc main_v24) = W11 m ρ c (Proc.devRef .tc main_v24) :=
  keep1_5 (W11 m ρ c) (by decide)

/-! ## What each stretch leaves in the buffers it writes -/

theorem W7_v16_raw : W7 m ρ c (Proc.devRef .tc main_v16)
    = shapeCast S50048 (extractStridedSlice S1x50048 ![0, 0] (W6 m ρ c (Proc.devRef .tc main_v14)) slices_S10x50048_S1x50048_0_0)
        shapeCasts_S1x50048_S50048 := by
  show StableHlo.after hostOps1 (W6 m ρ c) (Proc.devRef .tc main_v16) = _
  after_results
  try rfl

theorem W7_v18_raw : W7 m ρ c (Proc.devRef .tc main_v18)
    = shapeCast S50048 (extractStridedSlice S1x50048 ![1, 0] (W6 m ρ c (Proc.devRef .tc main_v14)) slices_S10x50048_S1x50048_1_0)
        shapeCasts_S1x50048_S50048 := by
  show StableHlo.after hostOps1 (W6 m ρ c) (Proc.devRef .tc main_v18) = _
  after_results
  try rfl

theorem W7_v19_raw : W7 m ρ c (Proc.devRef .tc main_v19)
    = extractStridedSlice S4x50048 ![2, 0] (W6 m ρ c (Proc.devRef .tc main_v14)) slices_S10x50048_S4x50048_2_0 := by
  show StableHlo.after hostOps1 (W6 m ρ c) (Proc.devRef .tc main_v19) = _
  after_results
  try rfl

theorem W7_v20_raw : W7 m ρ c (Proc.devRef .tc main_v20)
    = extractStridedSlice S4x50048 ![6, 0] (W6 m ρ c (Proc.devRef .tc main_v14)) slices_S10x50048_S4x50048_6_0 := by
  show StableHlo.after hostOps1 (W6 m ρ c) (Proc.devRef .tc main_v20) = _
  after_results
  try rfl

theorem W8_v21_raw : W8 m ρ c (Proc.devRef .tc main_v21)
    = take1 (W7 m ρ c (Proc.devRef .tc main_v16)) (W7 m ρ c (Proc.devRef .tc main_arg4)) :=
  call2_raw (W7 m ρ c)

theorem W9_v22_raw : W9 m ρ c (Proc.devRef .tc main_v22)
    = take1 (W8 m ρ c (Proc.devRef .tc main_v18)) (W8 m ρ c (Proc.devRef .tc main_arg5)) :=
  call3_raw (W8 m ρ c)

theorem W10_v23_raw : W10 m ρ c (Proc.devRef .tc main_v23)
    = addf (W9 m ρ c (Proc.devRef .tc main_v21)) (W9 m ρ c (Proc.devRef .tc main_v22)) := by
  show StableHlo.after hostOps1_3 (W9 m ρ c) (Proc.devRef .tc main_v23) = _
  after_results
  try rfl

theorem W11_v24_raw : W11 m ρ c (Proc.devRef .tc main_v24)
    = take4 (W10 m ρ c (Proc.devRef .tc main_v19)) (W10 m ρ c (Proc.devRef .tc main_arg4)) :=
  call4_raw (W10 m ρ c)

theorem W12_v25_raw : W12 m ρ c (Proc.devRef .tc main_v25)
    = take4 (W11 m ρ c (Proc.devRef .tc main_v20)) (W11 m ρ c (Proc.devRef .tc main_arg5)) :=
  call5_raw (W11 m ρ c)

theorem W13_v26_raw : W13 m ρ c (Proc.devRef .tc main_v26)
    = addf (W12 m ρ c (Proc.devRef .tc main_v24)) (W12 m ρ c (Proc.devRef .tc main_v25)) := by
  show StableHlo.after hostOps1_6 (W12 m ρ c) (Proc.devRef .tc main_v26) = _
  after_results
  try rfl

theorem W13_v27_raw : W13 m ρ c (Proc.devRef .tc main_v27)
    = broadcastInDim S1x1600000 ![1] bcast_S1600000_S1x1600000_1 (W12 m ρ c (Proc.devRef .tc main_v23)) := by
  show StableHlo.after hostOps1_6 (W12 m ρ c) (Proc.devRef .tc main_v27) = _
  after_results
  try rfl

theorem W13_v28_raw : W13 m ρ c (Proc.devRef .tc main_v28)
    = broadcastInDim S1x1600000 ![1] bcast_S1600000_S1x1600000_1 (W12 m ρ c (Proc.devRef .tc main_arg3)) := by
  show StableHlo.after hostOps1_6 (W12 m ρ c) (Proc.devRef .tc main_v28) = _
  after_results
  try rfl

theorem W13_v29_raw : W13 m ρ c (Proc.devRef .tc main_v29)
    = transpose S1x64 [1, 0] (W12 m ρ c (Proc.devRef .tc main_arg10)) transposes_S64x1_S1x64_1_0 := by
  show StableHlo.after hostOps1_6 (W12 m ρ c) (Proc.devRef .tc main_v29) = _
  after_results
  try rfl

end Cert.KernelIdeal.HostBetween

end
-- ==== Proof.HostBetween.lean ====
/-
  The host lines between the two kernels: the five operand arrays of the edge kernel as the host leaves them.

  After the node kernel the host cuts the 10 × 50048 feature table into its two gate rows and its two blocks of
  four potential rows, gathers each at the edges' source or destination nodes, adds the source and destination
  parts, and lays the gate sums and the bond lengths out as 1 × E rows and the edge gate's weights as a 1 × 64 row.
  Every node word is below 50000, so below the table's 50048 columns: each gather reads the table's column at the
  word's own value, which is the column the kernel-side specification names.
-/
import proofs.«406755_j64407329571244_2_alg».proof.Proof.Gen.KernelIdeal.Frame
import proofs.«406755_j64407329571244_2_alg».proof.Proof.KSpec
import proofs.«406755_j64407329571244_2_alg».proof.Proof.Inputs
import proofs.«406755_j64407329571244_2_alg».proof.Proof.HostBetween.Walk
import proofs.«406755_j64407329571244_2_alg».proof.Proof.HostBetween.Take
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.HostBetween

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-- The bond lengths, laid out as a row. -/
theorem v28_eq : V13 (F := Ideal) m ρ c main_v28 = Cert.KSpec.blRow (Cert.In.ofK m c) := by
  show W13 m ρ c (Proc.devRef .tc main_v28) = _
  rw [W13_v28_raw, W12_arg3]
  funext i
  exact broadcastInDim_apply _ _ _ i (ix1 ⟨(i 1).val, idx2_lt1 i⟩) (fun a => by match a with | ⟨0, _⟩ => rfl)

/-- The edge gate's weight column, transposed to a row. -/
theorem v29_eq : V13 (F := Ideal) m ρ c main_v29 = Cert.KSpec.wegRow (Cert.In.ofK m c) := by
  show W13 m ρ c (Proc.devRef .tc main_v29) = _
  rw [W13_v29_raw, W12_arg10]
  funext i
  obtain ⟨a, b, rfl⟩ : ∃ (a : Fin 1) (b : Fin 64), i = ix2 a b :=
    ⟨⟨(i 0).val, idx2_lt0 i⟩, ⟨(i 1).val, idx2_lt1 i⟩, eq_ix2 i⟩
  obtain rfl : a = 0 := Subsingleton.elim _ _
  rw [transpose_ix2_apply]
  rfl

/-- The edge features are the argument array itself. -/
theorem arg2_eq : V13 (F := Ideal) m ρ c main_arg2 = (Cert.In.ofK m c).y := W13_arg2 m ρ c

/-! ## The gathered sums -/

/-- Every source word names a column of the padded table. -/
theorem src_lt (h : Cert.Spec.InRange (Cert.In.ofK m c)) (e : Fin 1600000) :
    (m ((c : Thread nD τ).loc main_arg4) (ix1 e)).toNat < 50048 :=
  Nat.lt_trans (h e).1 (by decide : 50000 < 50048)

/-- Every destination word names a column of the padded table. -/
theorem dst_lt (h : Cert.Spec.InRange (Cert.In.ofK m c)) (e : Fin 1600000) :
    (m ((c : Thread nD τ).loc main_arg5) (ix1 e)).toNat < 50048 :=
  Nat.lt_trans (h e).2 (by decide : 50000 < 50048)

section Gathered

variable (hfeat : W6 (F := Ideal) m ρ c (Proc.devRef .tc main_v14) = Cert.KSpec.feat (Cert.In.ofK m c))
  (h : Cert.Spec.InRange (Cert.In.ofK m c))
include hfeat h

/-- The gate sums: feature row 0 at the source node plus feature row 1 at the destination node, as a row. -/
theorem v27_eq : V13 (F := Ideal) m ρ c main_v27 = Cert.KSpec.esumRow (Cert.In.ofK m c) := by
  have hs := src_lt m c h
  have hd := dst_lt m c h
  show W13 m ρ c (Proc.devRef .tc main_v27) = _
  rw [W13_v27_raw, W12_v23, W10_v23_raw, W9_v21, W8_v21_raw, W9_v22_raw, W8_v18, W7_v16_raw, W7_v18_raw, W7_arg4, W8_arg5,
    hfeat]
  funext i
  rw [broadcastInDim_apply _ _ _ i (ix1 ⟨(i 1).val, idx2_lt1 i⟩) (fun a => by match a with | ⟨0, _⟩ => rfl),
    addf_apply, take1_apply _ hs, take1_apply _ hd, shapeCast_1a_a_apply, shapeCast_1a_a_apply,
    slice2_axis0_apply 0 _ _ (0 : Fin 1) _ (0 : Fin 10) rfl, slice2_axis0_apply 1 _ _ (0 : Fin 1) _ (1 : Fin 10) rfl]
  have es : (⟨(m ((c : Thread nD τ).loc main_arg4) (ix1 ⟨(i 1).val, idx2_lt1 i⟩)).toNat, hs _⟩ : Fin 50048)
      = Cert.KSpec.rowP ((Cert.In.ofK m c).src (ix1 ⟨(i 1).val, idx2_lt1 i⟩)) := Fin.ext (Cert.KSpec.rowP_val_of_lt (hs _)).symm
  have ed : (⟨(m ((c : Thread nD τ).loc main_arg5) (ix1 ⟨(i 1).val, idx2_lt1 i⟩)).toNat, hd _⟩ : Fin 50048)
      = Cert.KSpec.rowP ((Cert.In.ofK m c).dst (ix1 ⟨(i 1).val, idx2_lt1 i⟩)) := Fin.ext (Cert.KSpec.rowP_val_of_lt (hd _)).symm
  rw [es, ed]
  rfl

/-- The potential sums: feature row 2 + j at the source node plus feature row 6 + j at the destination node. -/
theorem v26_eq : V13 (F := Ideal) m ρ c main_v26 = Cert.KSpec.psumRows (Cert.In.ofK m c) := by
  have hs := src_lt m c h
  have hd := dst_lt m c h
  show W13 m ρ c (Proc.devRef .tc main_v26) = _
  rw [W13_v26_raw, W12_v24, W11_v24_raw, W12_v25_raw, W10_v19, W11_v20, W7_v19_raw, W7_v20_raw, W10_arg4, W11_arg5, hfeat]
  funext i
  obtain ⟨r, e, rfl⟩ : ∃ (r : Fin 4) (e : Fin 1600000), i = ix2 r e :=
    ⟨⟨(i 0).val, idx2_lt0 i⟩, ⟨(i 1).val, idx2_lt1 i⟩, eq_ix2 i⟩
  rw [addf_apply, take4_apply _ hs, take4_apply _ hd,
    slice2_axis0_apply 2 _ _ r _ (⟨r.val + 2, by omega⟩ : Fin 10) (Nat.add_comm _ _),
    slice2_axis0_apply 6 _ _ r _ (⟨r.val + 6, by omega⟩ : Fin 10) (Nat.add_comm _ _)]
  have es : (⟨(m ((c : Thread nD τ).loc main_arg4) (ix1 e)).toNat, hs _⟩ : Fin 50048)
      = Cert.KSpec.rowP ((Cert.In.ofK m c).src (ix1 e)) := Fin.ext (Cert.KSpec.rowP_val_of_lt (hs _)).symm
  have ed : (⟨(m ((c : Thread nD τ).loc main_arg5) (ix1 e)).toNat, hd _⟩ : Fin 50048)
      = Cert.KSpec.rowP ((Cert.In.ofK m c).dst (ix1 e)) := Fin.ext (Cert.KSpec.rowP_val_of_lt (hd _)).symm
  rw [es, ed]
  rfl

end Gathered

end Cert.KernelIdeal.HostBetween

end
-- ==== Proof.Bridge.lean ====
/-
  The algebra joining the kernel's arrangement of the pair energy to the specification's, over the extended reals.

  At an edge whose two node words are below 50000 the two sides differ only in ways that addition and multiplication
  on the extended reals do not see, none of which needs finiteness:
    * inside each 64-term sum the kernel multiplies weight by row entry, the specification row entry by weight
      (multiplication commutes);
    * the edge gate's bias is added with the destination gate's bias rather than with the edge's own sum:
      ((A + bs) + (B + (bd + be))) + C = ((A + bs) + (B + bd)) + (C + be), by associativity and commutativity of +;
    * the destination potential carries the zero word as its bias, and a + 0 = a;
    * the kernel negates by subtracting from the zero word, 0 - x = -x;
    * the logistic function is by definition 1 / (1 + exp (-x)), and the word the specification writes for the
      numerator and the first summand denotes 1;
    * a row below 50000 of the zero-padded table is the table's row, and a word below 50000 names the same row
      number whether reduced modulo 50000 or modulo 50048;
    * the stacked weight and bias tables at rows 0, 1, 2+j, 6+j are the source gate's, the destination gate's,
      the j-th source potential's and the j-th destination potential's.
-/
import proofs.«406755_j64407329571244_2_alg».proof.Proof.KSpec
import Idealize.ShloMosaic.PureOps.Ideal.Laws

noncomputable section

namespace Cert.Bridge

open Idealize.ShloMosaic Idealize.ShloMosaic.ValueIdx Cert.Spec Cert.KSpec

/-! ## The two constant words -/

/-- The all-zero word denotes 0. -/
theorem zero_eq : Spec.zero = 0 := Ideal.ofBits_zero_f32

/-- The word with exponent field 127 and empty fraction denotes 1: (2^23 + 0) · 2^(127 - 127 - 23) = 1. -/
theorem one_eq : Spec.one = 1 := by
  unfold Spec.one
  simp [Ideal.ofBits, Ideal.ieee, -EReal.coe_mul]; norm_num

/-- Subtracting from zero is negation on the extended reals. -/
theorem zero_sub_eq (x : EReal) : Spec.zero - x = -x := by rw [zero_eq, zero_sub]

/-! ## The kernel's arrays read at explicit coordinates -/

variable (I : Inputs)

/-- Below row 50000 the padded table is the table. -/
theorem padRows_of_lt (t : FVec Ideal SNx64 .f32) (n : Fin 50048) (k : Fin 64) (h : n.val < 50000) :
    padRows t (ix2 n k) = t (ix2 ⟨n.val, h⟩ k) := by
  unfold padRows; exact dif_pos h

theorem gateW_row0 (a : Fin 2) (k : Fin 64) (h : a.val = 0) : gateW I (ix2 a k) = I.Wsg (ix2 k 0) := by
  unfold gateW; exact if_pos h

theorem gateW_row1 (a : Fin 2) (k : Fin 64) (h : ¬ a.val = 0) : gateW I (ix2 a k) = I.Wdg (ix2 k 0) := by
  unfold gateW; exact if_neg h

theorem gateB_row0 (a : Fin 2) (h : a.val = 0) : gateB I (ix2 a 0) = I.bsg (ix1 0) := by
  unfold gateB; exact if_pos h

theorem gateB_row1 (a : Fin 2) (h : ¬ a.val = 0) : gateB I (ix2 a 0) = I.bdg (ix1 0) + I.beg (ix1 0) := by
  unfold gateB; exact if_neg h

theorem potW_lo (a : Fin 8) (k : Fin 64) (h : a.val < 4) : potW I (ix2 a k) = I.Wsp (ix2 k ⟨a.val, h⟩) := by
  unfold potW; exact dif_pos h

theorem potW_hi (a : Fin 8) (k : Fin 64) (h : ¬ a.val < 4) :
    potW I (ix2 a k) = I.Wdp (ix2 k ⟨a.val - 4, by have := a.isLt; omega⟩) := by
  unfold potW; exact dif_neg h

theorem potB_lo (a : Fin 8) (h : a.val < 4) : potB I (ix2 a 0) = I.bsp (ix1 ⟨a.val, h⟩) := by
  unfold potB; exact dif_pos h

theorem potB_hi (a : Fin 8) (h : ¬ a.val < 4) : potB I (ix2 a 0) = 0 := by
  unfold potB; rw [dif_neg h, zero_eq]

/-- Feature rows 0 and 1: a stacked gate weight row against the node's row, plus the stacked gate bias. -/
theorem nodeFn_lo (xp x0p : FVec Ideal SPx64 .f32) (wg : FVec Ideal S2x64 .f32) (bg : FVec Ideal S2x1 .f32)
    (wp : FVec Ideal S8x64 .f32) (bp : FVec Ideal S8x1 .f32) (r : Fin 10) (n : Fin 50048) (h : r.val < 2) :
    nodeFn xp x0p wg bg wp bp (ix2 r n)
      = (∑ k : Fin 64, wg (ix2 ⟨r.val, h⟩ k) * xp (ix2 n k)) + bg (ix2 ⟨r.val, h⟩ 0) := by
  unfold nodeFn; exact dif_pos h

/-- Feature rows 2 to 9: a stacked potential weight row against the node's row, plus the stacked potential bias. -/
theorem nodeFn_hi (xp x0p : FVec Ideal SPx64 .f32) (wg : FVec Ideal S2x64 .f32) (bg : FVec Ideal S2x1 .f32)
    (wp : FVec Ideal S8x64 .f32) (bp : FVec Ideal S8x1 .f32) (r : Fin 10) (n : Fin 50048) (h : ¬ r.val < 2) :
    nodeFn xp x0p wg bg wp bp (ix2 r n)
      = (∑ k : Fin 64, wp (ix2 ⟨r.val - 2, by have := r.isLt; omega⟩ k) * x0p (ix2 n k))
        + bp (ix2 ⟨r.val - 2, by have := r.isLt; omega⟩ 0) := by
  unfold nodeFn; exact dif_neg h

/-! ## The node features at a real node -/

/-- Row 0: the source gate's projection and bias. -/
theorem feat_gate0 (n : Fin 50048) (hn : n.val < 50000) :
    feat I (ix2 0 n) = dotN I.x I.Wsg ⟨n.val, hn⟩ 0 + I.bsg (ix1 0) := by
  unfold feat dotN
  rw [nodeFn_lo _ _ _ _ _ _ 0 n (by decide), gateB_row0 I _ rfl]
  congr 1
  refine Finset.sum_congr rfl fun k _ => ?_
  rw [gateW_row0 I _ k rfl, padRows_of_lt _ n k hn, mul_comm]

/-- Row 1: the destination gate's projection, with both the destination's and the edge gate's bias. -/
theorem feat_gate1 (n : Fin 50048) (hn : n.val < 50000) :
    feat I (ix2 1 n) = dotN I.x I.Wdg ⟨n.val, hn⟩ 0 + (I.bdg (ix1 0) + I.beg (ix1 0)) := by
  unfold feat dotN
  rw [nodeFn_lo _ _ _ _ _ _ 1 n (by decide), gateB_row1 I _ (by decide)]
  congr 1
  refine Finset.sum_congr rfl fun k _ => ?_
  rw [gateW_row1 I _ k (by decide), padRows_of_lt _ n k hn, mul_comm]

/-- Rows 2..5: the j-th source potential and its bias. -/
theorem feat_pot_src (j : Fin 4) (n : Fin 50048) (hn : n.val < 50000) :
    feat I (ix2 ⟨j.val + 2, by have := j.isLt; omega⟩ n) = dotN I.x0 I.Wsp ⟨n.val, hn⟩ j + I.bsp (ix1 j) := by
  have hj := j.isLt
  have hr : ¬ (⟨j.val + 2, by omega⟩ : Fin 10).val < 2 := Nat.not_lt.mpr (Nat.le_add_left 2 j.val)
  have ha : (⟨(⟨j.val + 2, by omega⟩ : Fin 10).val - 2, by show j.val + 2 - 2 < 8; omega⟩ : Fin 8).val < 4 := by
    show j.val + 2 - 2 < 4; omega
  have hjj : (⟨(⟨(⟨j.val + 2, by omega⟩ : Fin 10).val - 2, by show j.val + 2 - 2 < 8; omega⟩ : Fin 8).val, ha⟩ : Fin 4) = j :=
    Fin.ext (show j.val + 2 - 2 = j.val by omega)
  unfold feat dotN
  rw [nodeFn_hi _ _ _ _ _ _ _ n hr, potB_lo I _ ha, hjj]
  congr 1
  refine Finset.sum_congr rfl fun k _ => ?_
  rw [potW_lo I _ k ha, hjj, padRows_of_lt _ n k hn, mul_comm]

/-- Rows 6..9: the j-th destination potential; its bias is the zero word. -/
theorem feat_pot_dst (j : Fin 4) (n : Fin 50048) (hn : n.val < 50000) :
    feat I (ix2 ⟨j.val + 6, by have := j.isLt; omega⟩ n) = dotN I.x0 I.Wdp ⟨n.val, hn⟩ j := by
  have hj := j.isLt
  have hr : ¬ (⟨j.val + 6, by omega⟩ : Fin 10).val < 2 := by show ¬ j.val + 6 < 2; omega
  have ha : ¬ (⟨(⟨j.val + 6, by omega⟩ : Fin 10).val - 2, by show j.val + 6 - 2 < 8; omega⟩ : Fin 8).val < 4 := by
    show ¬ j.val + 6 - 2 < 4; omega
  have hjj : ∀ p : j.val + 6 - 2 - 4 < 4, (⟨(⟨(⟨j.val + 6, by omega⟩ : Fin 10).val - 2, by show j.val + 6 - 2 < 8; omega⟩ : Fin 8).val - 4, p⟩ : Fin 4) = j :=
    fun _ => Fin.ext (show j.val + 6 - 2 - 4 = j.val by omega)
  unfold feat dotN
  rw [nodeFn_hi _ _ _ _ _ _ _ n hr, potB_hi I _ ha, add_zero]
  refine Finset.sum_congr rfl fun k _ => ?_
  rw [potW_hi I _ k ha, hjj, padRows_of_lt _ n k hn, mul_comm]

/-! ## The gathered rows and the edge formula read at an edge -/

theorem esumRow_apply (e : Fin 1600000) :
    esumRow I (ix2 0 e) = feat I (ix2 0 (rowP (I.src (ix1 e)))) + feat I (ix2 1 (rowP (I.dst (ix1 e)))) := rfl

theorem psumRows_apply (j : Fin 4) (e : Fin 1600000) :
    psumRows I (ix2 j e)
      = feat I (ix2 ⟨j.val + 2, by have := j.isLt; omega⟩ (rowP (I.src (ix1 e))))
        + feat I (ix2 ⟨j.val + 6, by have := j.isLt; omega⟩ (rowP (I.dst (ix1 e)))) := rfl

theorem blRow_apply (e : Fin 1600000) : blRow I (ix2 0 e) = I.bl (ix1 e) := rfl

theorem wegRow_apply (k : Fin 64) : wegRow I (ix2 0 k) = I.Weg (ix2 k 0) := rfl

theorem edgeFn_apply (y : FVec Ideal SEx64 .f32) (es bl : FVec Ideal S1xE .f32) (ps : FVec Ideal S4xE .f32)
    (w : FVec Ideal S1x64 .f32) (e : Fin 1600000) :
    edgeFn y es bl ps w (ix2 0 e)
      = Spec.cut (bl (ix2 0 e)) *
        ((Ideal.exp (ps (ix2 0 e)) * Ideal.exp ((Spec.zero - Ideal.exp (ps (ix2 1 e))) * bl (ix2 0 e)))
          - Ideal.logistic (es (ix2 0 e) + ∑ k : Fin 64, w (ix2 0 k) * y (ix2 e k))
            * (Ideal.exp (ps (ix2 2 e)) * Ideal.exp ((Spec.zero - Ideal.exp (ps (ix2 3 e))) * bl (ix2 0 e)))) := rfl

/-! ## A node word in range names the same row of the table and of the padded table -/

theorem rowP_lt {w : BitVec 32} (h : w.toNat < 50000) : (rowP w).val < 50000 := by
  rw [rowP_val_of_lt (by omega)]; exact h

theorem rowP_eq_row {w : BitVec 32} (h : w.toNat < 50000) : (⟨(rowP w).val, rowP_lt h⟩ : Fin 50000) = row w :=
  Fin.ext (show (rowP w).val = (row w).val by rw [rowP_val_of_lt (by omega), row_val_of_lt h])

/-! ## The gate's argument and the pair parameters -/

/-- The kernel's gate argument is the specification's: the products commute inside each sum, and the edge gate's bias
    moves from the destination's summand to the edge's by commutativity and associativity of addition. -/
theorem gate_eq (e : Fin 1600000) (hs : (I.src (ix1 e)).toNat < 50000) (hd : (I.dst (ix1 e)).toNat < 50000) :
    esumRow I (ix2 0 e) + ∑ k : Fin 64, wegRow I (ix2 0 k) * I.y (ix2 e k) = gate I e := by
  rw [esumRow_apply, feat_gate0 I _ (rowP_lt hs), feat_gate1 I _ (rowP_lt hd), rowP_eq_row hs, rowP_eq_row hd]
  have hE : (∑ k : Fin 64, wegRow I (ix2 0 k) * I.y (ix2 e k)) = dotE I.y I.Weg e := by
    unfold dotE
    refine Finset.sum_congr rfl fun k _ => ?_
    rw [wegRow_apply, mul_comm]
  rw [hE]
  unfold gate
  -- ((A + bs) + (B + (bd + be))) + C = ((A + bs) + (B + bd)) + (C + be)
  rw [← add_assoc (dotN I.x I.Wdg _ 0) (I.bdg (ix1 0)) (I.beg (ix1 0)),
    ← add_assoc (dotN I.x I.Wsg _ 0 + I.bsg (ix1 0)) (dotN I.x I.Wdg _ 0 + I.bdg (ix1 0)) (I.beg (ix1 0)),
    add_assoc _ (I.beg (ix1 0)) (dotE I.y I.Weg e), add_comm (I.beg (ix1 0)) (dotE I.y I.Weg e)]

/-- The kernel's j-th gathered potential sum is the argument of the j-th pair parameter. -/
theorem psum_eq (j : Fin 4) (e : Fin 1600000) (hs : (I.src (ix1 e)).toNat < 50000) (hd : (I.dst (ix1 e)).toNat < 50000) :
    psumRows I (ix2 j e)
      = (dotN I.x0 I.Wsp (row (I.src (ix1 e))) j + I.bsp (ix1 j)) + dotN I.x0 I.Wdp (row (I.dst (ix1 e))) j := by
  rw [psumRows_apply, feat_pot_src I j _ (rowP_lt hs), feat_pot_dst I j _ (rowP_lt hd), rowP_eq_row hs, rowP_eq_row hd]

/-! ## The whole -/

/-- The kernel's arrangement of the pair energy equals the specification's at every edge whose two node words are in range. -/
theorem bridge (I : Cert.Spec.Inputs) (h : Cert.Spec.InRange I) (e : Fin 1600000) :
    Cert.KSpec.kEnergies I (Idealize.ShloMosaic.ValueIdx.ix2 0 e) = Cert.Spec.energy I e := by
  obtain ⟨hs, hd⟩ := h e
  unfold kEnergies
  rw [edgeFn_apply, blRow_apply, gate_eq I e hs hd,
    psum_eq I 0 e hs hd, psum_eq I 1 e hs hd, psum_eq I 2 e hs hd, psum_eq I 3 e hs hd,
    zero_sub_eq, zero_sub_eq]
  unfold energy repulse attract bond par Ideal.logistic
  rw [one_eq]

end Cert.Bridge

end
-- ==== Proof.KernelValue.lean ====
/-
  The kernel program's two results as the common tail of the specification's pair energies.
  The chain, from the launch memory: the host pads the two node tables and stacks the weights; the node kernel
  leaves the 10×50048 feature table of those; the host gathers and adds feature columns at the edges' nodes; the
  edge kernel leaves the 1×E row of energies in the kernel's arrangement of the formula; that row, reshaped, is
  the specification's vector of energies (the two arrangements agree on every in-range edge); the last host lines
  are the common tail.
-/
import proofs.«406755_j64407329571244_2_alg».proof.Proof.Gen.KernelIdeal.Frame
import proofs.«406755_j64407329571244_2_alg».proof.Proof.KernelOut
import proofs.«406755_j64407329571244_2_alg».proof.Proof.NodeValue
import proofs.«406755_j64407329571244_2_alg».proof.Proof.HostBefore
import proofs.«406755_j64407329571244_2_alg».proof.Proof.EdgeValue
import proofs.«406755_j64407329571244_2_alg».proof.Proof.HostBetween
import proofs.«406755_j64407329571244_2_alg».proof.Proof.Bridge
import proofs.«406755_j64407329571244_2_alg».proof.Proof.Inputs
import proofs.«406755_j64407329571244_2_alg».proof.Proof.KSpec
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The feature table at the first region's exit: the node kernel's array of the padded tables and stacked weights
    the host lines before it leave. -/
theorem feat_eq (c : Dev nD) :
    W6 (F := Ideal) m ρ c (Proc.devRef .tc main_v14) = Cert.KSpec.feat (Cert.In.ofK m c) := by
  refine (W6_arr m ρ c 6).trans ?_
  refine (NodeValue.node_array (V5 m ρ) c).trans ?_
  rw [HostBefore.v0_eq, HostBefore.v1_eq, HostBefore.v4_eq, HostBefore.v7_eq, HostBefore.v10_eq, HostBefore.v13_eq]
  rfl

/-- The row of pair energies at the second region's exit: the edge kernel's array of the five operand arrays the
    host lines between the two kernels leave. -/
theorem energies_eq (c : Dev nD) (h : Cert.Spec.InRange (Cert.In.ofK m c)) :
    W14 (F := Ideal) m ρ c (Proc.devRef .tc main_v30) = Cert.KSpec.kEnergies (Cert.In.ofK m c) := by
  refine (W14_arr m ρ c 5).trans ?_
  refine (EdgeValue.edge_array (V13 m ρ) c).trans ?_
  rw [HostBetween.arg2_eq, HostBetween.v27_eq m ρ c (feat_eq m ρ c) h, HostBetween.v28_eq,
    HostBetween.v26_eq m ρ c (feat_eq m ρ c) h, HostBetween.v29_eq]
  rfl

/-- The 1×E row reshaped to a vector is the specification's energies: entry e of the vector is entry (0, e) of the
    row, and the kernel's arrangement of an edge's energy is the specification's. -/
theorem reshaped (I : Cert.Spec.Inputs) (h : Cert.Spec.InRange I) :
    shapeCast S1600000 (Cert.KSpec.kEnergies I) Facts₀.shapeCasts_S1x1600000_S1600000 = Cert.Spec.energies I := by
  funext i
  obtain ⟨e, rfl⟩ : ∃ e : Fin 1600000, i = ix1 e := ⟨i 0, eq_ix1 i⟩
  refine (shapeCast_1a_a_apply (Cert.KSpec.kEnergies I) _ e).trans ?_
  exact Cert.Bridge.bridge I h e

/-- The node energies the kernel's program returns. -/
theorem out1 (c : Dev nD) (h : Cert.Spec.InRange (Cert.In.ofK m c)) :
    W15 (F := Ideal) m ρ c (Proc.devRef .tc main_v34)
      = Cert.Tail.atomK (Cert.Spec.energies (Cert.In.ofK m c)) (Cert.In.ofK m c).dst := by
  refine (Out.v34_eq m ρ c).trans ?_
  rw [energies_eq m ρ c h, reshaped _ h, Out.W14_main_arg5]
  rfl

/-- The mean energy the kernel's program returns. -/
theorem out0 (c : Dev nD) (h : Cert.Spec.InRange (Cert.In.ofK m c)) :
    W15 (F := Ideal) m ρ c (Proc.devRef .tc main_v36)
      = Cert.Tail.meanK (Cert.Spec.energies (Cert.In.ofK m c)) (Cert.In.ofK m c).dst := by
  refine (Out.v36_eq m ρ c).trans ?_
  rw [energies_eq m ρ c h, reshaped _ h, Out.W14_main_arg5]
  rfl

end Cert.KernelIdeal.KValue

end
-- ==== Proof.RefValue.lean ====
/-
  The reference's pair energies.

  The reference computes, for every edge e, the number
      V(e) = c(r(e)) · (f_r(e) − b(e) · f_a(e)),
  with r(e) the bond length, c the smooth cutoff, b(e) the bond order (the logistic function of the gate's argument, which
  is the source node's gate plus the destination node's plus the edge's own) and f_r, f_a the repulsive and attractive
  terms p_0 · exp(−p_1 · r) and p_2 · exp(−p_3 · r) built from the four pair parameters
  p_j(e) = exp(source row j + destination row j). It does so array by array: four node tables (a matrix product plus a
  bias each, one without bias) are read at the rows the edges' source and destination words name, and everything after
  is elementwise.

  This file reads that array of 1600000 numbers at one edge and finds the pair energy of the specification there. The one
  step that is not elementwise is the reading of a table at a row: the row number is the word, moved up by 50000 if
  negative, then read signed and clamped into the table. A word below 50000 is not negative, is kept, is its own signed
  reading and is not clamped: the row read is the row the word names. That is where the range hypothesis is used, and the
  only place.
-/
import proofs.«406755_j64407329571244_2_alg».proof.Proof.Gen.ReferenceIdeal.Read
import proofs.«406755_j64407329571244_2_alg».proof.Proof.Inputs
import Idealize.ShloMosaic.Lib.StableHlo.Predicate

noncomputable section

namespace Cert.RefValue

open Cert.ReferenceIdeal Cert.ReferenceIdeal.Gen Cert.ReferenceIdeal.Read Idealize.ShloMosaic Idealize.ShloMosaic.ValueIdx
  Idealize.SL.Sem Idealize.ShloMosaic.StableHlo

/-! ## A table of rows read at a column of row numbers -/

/-- A table of rows read at a column of row numbers. The table is [N × C], the row numbers an [n × 1] column of words, the
    result [n × C]: entry (p, q) of the result is entry (r, q) of the table, where r is the p-th word read as a signed
    integer and clamped into [0, N − 1]. The row axis of the table is the collapsed, start-indexed one; the column axis is
    kept whole and carries the result's own column. -/
theorem gather_row {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p 0)).toInt.toNat (N - 1), by omega⟩ q) := by
  unfold Host.gather
  congr 1
  funext a
  refine Fin.ext ?_
  show d.start (ix2 p q) idx a + d.batchCoord (ix2 p q) a + d.offCoord (ix2 p q) a = _
  have hb : a ∉ d.operandBatchingDims := by rw [hob]; exact List.not_mem_nil
  rw [GatherDims.batchCoord_eq_zero _ _ _ hb, Nat.add_zero]
  match a with
  | ⟨0, h0⟩ =>
    -- the row axis: collapsed, so it has no offset; its start is the clamped word
    have hc : (⟨0, h0⟩ : Fin _) ∈ d.collapsedSliceDims := by rw [hcoll]; exact List.mem_singleton.mpr rfl
    have hk : (⟨0, h0⟩ : Fin _) ∉ d.sKept := fun h => ((d.mem_sKept _).mp h).1 hc
    have hm : (⟨0, h0⟩ : Fin _) ∈ d.startIndexMap := by rw [hsim]; exact List.mem_singleton.mpr rfl
    have hsl : d.sliceSizes ⟨0, h0⟩ = 1 := d.slice_collapsed _ hc
    rw [GatherDims.offCoord_eq_zero _ _ _ hk, Nat.add_zero]
    unfold GatherDims.start
    rw [dif_pos hm, hsl]
    -- the word is read at (p, 0): p from the result's one batch axis, 0 the only component of the index vector
    have hsi : d.siIdx (ix2 p q) ⟨d.startIndexMap.idxOf ⟨0, h0⟩, List.idxOf_lt_length_iff.2 hm⟩ = ix2 p 0 := by
      funext b
      refine Fin.ext ?_
      match b with
      | ⟨0, g0⟩ =>
        unfold GatherDims.siIdx
        rw [dif_neg (by rw [hivd]; exact Nat.zero_ne_one)]
        unfold GatherDims.siCoord
        have hall : ∀ c ∈ d.batchDims, c = ⟨0, h0⟩ := by
          intro c hc
          have hc' : c ∉ d.offsetDims := by simpa using (List.mem_filter.mp hc).2
          rw [hoff] at hc'
          match c with
          | ⟨0, _⟩ => rfl
          | ⟨1, _⟩ => exact absurd (List.mem_singleton.mpr rfl) hc'
        simp only [Fin.val_cast]
        rw [hall _ (List.getElem_mem _)]
      | ⟨1, g1⟩ =>
        unfold GatherDims.siIdx
        rw [dif_pos (by rw [hivd])]
        show List.idxOf (⟨0, h0⟩ : Fin _) d.startIndexMap = 0
        rw [hsim]; exact List.idxOf_cons_self
    rw [hsi]
    rfl
  | ⟨1, h1⟩ =>
    -- the column axis: not start-indexed and kept whole, so it carries the result's column
    have hm : (⟨1, h1⟩ : Fin _) ∉ d.startIndexMap := by
      rw [hsim]; intro h; exact absurd (congrArg Fin.val (List.mem_singleton.mp h)) Nat.one_ne_zero
    have hk : (⟨1, h1⟩ : Fin _) ∈ d.sKept := (d.mem_sKept _).mpr
      ⟨by rw [hcoll]; intro h; exact absurd (congrArg Fin.val (List.mem_singleton.mp h)) Nat.one_ne_zero, hb⟩
    unfold GatherDims.start
    rw [dif_neg hm, Nat.zero_add]
    unfold GatherDims.offCoord
    rw [dif_pos hk]
    have hall : ∀ c ∈ d.offsetDims, c = ⟨1, h1⟩ := by
      intro c hc; rw [hoff] at hc; exact List.mem_singleton.mp hc
    rw [hall _ (List.getElem_mem _)]

/-! ## A word that names a node -/

/-- A word below 50000 is not negative as a signed word, so "add 50000 if negative" leaves it alone. -/
theorem keep_word (a : BitVec 32) (h : a.toNat < 50000) :
    Scalar.select (IntOp.cmpi .slt a 0#32) (IntOp.addi a 50000#32) a = a := by
  have hn : ¬ IntOp.cmpi .slt a 0#32 = 1#1 := by
    rw [Predicate.slt_iff_toNat (by omega) (by decide)]
    exact Nat.not_lt_zero _
  rw [eq_zero_of_ne_one hn, select_zero]

/-- Read signed and clamped into [0, 49999], such a word is its own value. -/
theorem clamp_word (a : BitVec 32) (h : a.toNat < 50000) : min a.toInt.toNat (50000 - 1) = a.toNat := by
  rw [BitVec.toInt_eq_toNat_of_lt (by omega), Int.toNat_natCast]
  exact Nat.min_eq_left (by omega)

/-- The four columns of row numbers (source and destination, once for the gate and once for the parameters): each is the
    array of words itself wherever the word names a node. -/
theorem v13_at (x4 : (⟨S1600000, .i32⟩ : BufTy).Contents (Elt Ideal)) (e : Fin 1600000) (h : (x4 (ix1 e)).toNat < 50000) :
    val_main_v13 (F := Ideal) x4 (ix2 e 0) = x4 (ix1 e) := by
  have hi : idx_main_v13 (ix2 e (0 : Fin 1)) = ix1 e := funext fun a => by match a with | ⟨0, _⟩ => rfl
  rw [val_main_v13_apply, hi, val_main_v12_apply, val_main_v9_apply, val_main_v11_apply, val_main_v8_apply,
    val_main_v10_apply, val_main_c_apply, val_main_c_0_apply]
  exact keep_word _ h

theorem v20_at (x5 : (⟨S1600000, .i32⟩ : BufTy).Contents (Elt Ideal)) (e : Fin 1600000) (h : (x5 (ix1 e)).toNat < 50000) :
    val_main_v20 (F := Ideal) x5 (ix2 e 0) = x5 (ix1 e) := by
  have hi : idx_main_v20 (ix2 e (0 : Fin 1)) = ix1 e := funext fun a => by match a with | ⟨0, _⟩ => rfl
  rw [val_main_v20_apply, hi, val_main_v19_apply, val_main_v16_apply, val_main_v18_apply, val_main_v15_apply,
    val_main_v17_apply, val_main_c_1_apply, val_main_c_2_apply]
  exact keep_word _ h

theorem v45_at (x4 : (⟨S1600000, .i32⟩ : BufTy).Contents (Elt Ideal)) (e : Fin 1600000) (h : (x4 (ix1 e)).toNat < 50000) :
    val_main_v45 (F := Ideal) x4 (ix2 e 0) = x4 (ix1 e) := by
  have hi : idx_main_v45 (ix2 e (0 : Fin 1)) = ix1 e := funext fun a => by match a with | ⟨0, _⟩ => rfl
  rw [val_main_v45_apply, hi, val_main_v44_apply, val_main_v41_apply, val_main_v43_apply, val_main_v40_apply,
    val_main_v42_apply, val_main_c_4_apply, val_main_c_5_apply]
  exact keep_word _ h

theorem v52_at (x5 : (⟨S1600000, .i32⟩ : BufTy).Contents (Elt Ideal)) (e : Fin 1600000) (h : (x5 (ix1 e)).toNat < 50000) :
    val_main_v52 (F := Ideal) x5 (ix2 e 0) = x5 (ix1 e) := by
  have hi : idx_main_v52 (ix2 e (0 : Fin 1)) = ix1 e := funext fun a => by match a with | ⟨0, _⟩ => rfl
  rw [val_main_v52_apply, hi, val_main_v51_apply, val_main_v48_apply, val_main_v50_apply, val_main_v47_apply,
    val_main_v49_apply, val_main_c_6_apply, val_main_c_7_apply]
  exact keep_word _ h

/-! ## The node and edge tables read at a row

Each table is a matrix product plus (but for one) a bias laid along the rows. At row r and column j it is the plain sum
over the 64 hidden coordinates of the row's entry times the weight's, plus the bias's j-th entry. -/

/-- The source gate's table: x · Wsg + bsg. -/
theorem v3_at (x0 : (⟨S50000x64, .f32⟩ : BufTy).Contents (Elt Ideal)) (x6 : (⟨S64x1, .f32⟩ : BufTy).Contents (Elt Ideal))
    (x7 : (⟨S1, .f32⟩ : BufTy).Contents (Elt Ideal)) (r : Fin 50000) :
    val_main_v3 (F := Ideal) x0 x6 x7 (ix2 r 0) = Cert.Spec.dotN x0 x6 r 0 + x7 (ix1 0) := by
  have hl : ∀ k : Fin 64, lidx_main_v0 (ix2 r (0 : Fin 1)) k = ix2 r k := fun k => funext fun a => by
    match a with | ⟨0, _⟩ => rfl | ⟨1, _⟩ => rfl
  have hr : ∀ k : Fin 64, ridx_main_v0 (ix2 r (0 : Fin 1)) k = ix2 k 0 := fun k => funext fun a => by
    match a with | ⟨0, _⟩ => rfl | ⟨1, _⟩ => rfl
  have hb : idx_main_v1 (idx_main_v2 (ix2 r (0 : Fin 1))) = ix1 0 := funext fun a => by match a with | ⟨0, _⟩ => rfl
  rw [val_main_v3_apply, val_main_v0_apply, val_main_v2_apply, val_main_v1_apply, hb]
  simp only [hl, hr]
  rfl

/-- The destination gate's table: x · Wdg + bdg. -/
theorem v7_at (x0 : (⟨S50000x64, .f32⟩ : BufTy).Contents (Elt Ideal)) (x8 : (⟨S64x1, .f32⟩ : BufTy).Contents (Elt Ideal))
    (x9 : (⟨S1, .f32⟩ : BufTy).Contents (Elt Ideal)) (r : Fin 50000) :
    val_main_v7 (F := Ideal) x0 x8 x9 (ix2 r 0) = Cert.Spec.dotN x0 x8 r 0 + x9 (ix1 0) := by
  have hl : ∀ k : Fin 64, lidx_main_v4 (ix2 r (0 : Fin 1)) k = ix2 r k := fun k => funext fun a => by
    match a with | ⟨0, _⟩ => rfl | ⟨1, _⟩ => rfl
  have hr : ∀ k : Fin 64, ridx_main_v4 (ix2 r (0 : Fin 1)) k = ix2 k 0 := fun k => funext fun a => by
    match a with | ⟨0, _⟩ => rfl | ⟨1, _⟩ => rfl
  have hb : idx_main_v5 (idx_main_v6 (ix2 r (0 : Fin 1))) = ix1 0 := funext fun a => by match a with | ⟨0, _⟩ => rfl
  rw [val_main_v7_apply, val_main_v4_apply, val_main_v6_apply, val_main_v5_apply, hb]
  simp only [hl, hr]
  rfl

/-- The edge gate's column: y · Weg + beg. -/
theorem v26_at (x2 : (⟨S1600000x64, .f32⟩ : BufTy).Contents (Elt Ideal)) (x10 : (⟨S64x1, .f32⟩ : BufTy).Contents (Elt Ideal))
    (x11 : (⟨S1, .f32⟩ : BufTy).Contents (Elt Ideal)) (e : Fin 1600000) :
    val_main_v26 (F := Ideal) x2 x10 x11 (ix2 e 0) = Cert.Spec.dotE x2 x10 e + x11 (ix1 0) := by
  have hl : ∀ k : Fin 64, lidx_main_v23 (ix2 e (0 : Fin 1)) k = ix2 e k := fun k => funext fun a => by
    match a with | ⟨0, _⟩ => rfl | ⟨1, _⟩ => rfl
  have hr : ∀ k : Fin 64, ridx_main_v23 (ix2 e (0 : Fin 1)) k = ix2 k 0 := fun k => funext fun a => by
    match a with | ⟨0, _⟩ => rfl | ⟨1, _⟩ => rfl
  have hb : idx_main_v24 (idx_main_v25 (ix2 e (0 : Fin 1))) = ix1 0 := funext fun a => by match a with | ⟨0, _⟩ => rfl
  rw [val_main_v26_apply, val_main_v23_apply, val_main_v25_apply, val_main_v24_apply, hb]
  simp only [hl, hr]
  rfl

/-- The source parameters' table: x0 · Wsp + bsp. -/
theorem v38_at (x1 : (⟨S50000x64, .f32⟩ : BufTy).Contents (Elt Ideal)) (x12 : (⟨S64x4, .f32⟩ : BufTy).Contents (Elt Ideal))
    (x13 : (⟨S4, .f32⟩ : BufTy).Contents (Elt Ideal)) (r : Fin 50000) (j : Fin 4) :
    val_main_v38 (F := Ideal) x1 x12 x13 (ix2 r j) = Cert.Spec.dotN x1 x12 r j + x13 (ix1 j) := by
  have hl : ∀ k : Fin 64, lidx_main_v35 (ix2 r j) k = ix2 r k := fun k => funext fun a => by
    match a with | ⟨0, _⟩ => rfl | ⟨1, _⟩ => rfl
  have hr : ∀ k : Fin 64, ridx_main_v35 (ix2 r j) k = ix2 k j := fun k => funext fun a => by
    match a with | ⟨0, _⟩ => rfl | ⟨1, _⟩ => rfl
  have hb : idx_main_v36 (idx_main_v37 (ix2 r j)) = ix1 j := funext fun a => by match a with | ⟨0, _⟩ => rfl
  rw [val_main_v38_apply, val_main_v35_apply, val_main_v37_apply, val_main_v36_apply, hb]
  simp only [hl, hr]
  rfl

/-- The destination parameters' table: x0 · Wdp, with no bias. -/
theorem v39_at (x1 : (⟨S50000x64, .f32⟩ : BufTy).Contents (Elt Ideal)) (x14 : (⟨S64x4, .f32⟩ : BufTy).Contents (Elt Ideal))
    (r : Fin 50000) (j : Fin 4) :
    val_main_v39 (F := Ideal) x1 x14 (ix2 r j) = Cert.Spec.dotN x1 x14 r j := by
  have hl : ∀ k : Fin 64, lidx_main_v39 (ix2 r j) k = ix2 r k := fun k => funext fun a => by
    match a with | ⟨0, _⟩ => rfl | ⟨1, _⟩ => rfl
  have hr : ∀ k : Fin 64, ridx_main_v39 (ix2 r j) k = ix2 k j := fun k => funext fun a => by
    match a with | ⟨0, _⟩ => rfl | ⟨1, _⟩ => rfl
  rw [val_main_v39_apply]
  simp only [hl, hr]
  rfl

/-! ## The four gathers

Where the edge's word names a node, the gather reads the table's row of that node. -/

/-- The row a word names, as the clamped signed reading of the word. -/
theorem row_eq (a : BitVec 32) (h : a.toNat < 50000) (hlt : min a.toInt.toNat (50000 - 1) < 50000) :
    (⟨min a.toInt.toNat (50000 - 1), hlt⟩ : Fin 50000) = Cert.Spec.row a :=
  Fin.ext ((clamp_word a h).trans (Cert.Spec.row_val_of_lt h).symm)

theorem v14_at (x0 : (⟨S50000x64, .f32⟩ : BufTy).Contents (Elt Ideal)) (x4 : (⟨S1600000, .i32⟩ : BufTy).Contents (Elt Ideal))
    (x6 : (⟨S64x1, .f32⟩ : BufTy).Contents (Elt Ideal)) (x7 : (⟨S1, .f32⟩ : BufTy).Contents (Elt Ideal))
    (e : Fin 1600000) (h : (x4 (ix1 e)).toNat < 50000) :
    val_main_v14 (F := Ideal) x0 x4 x6 x7 (ix2 e 0)
      = val_main_v3 (F := Ideal) x0 x6 x7 (ix2 (Cert.Spec.row (x4 (ix1 e))) 0) := by
  unfold val_main_v14
  rw [gather_row gather_S50000x1_S1600000x1_S1600000x1_1_0_n_n_0_1_11 rfl rfl rfl rfl rfl _ _ e 0 (by decide)]
  simp only [v13_at x4 e h, row_eq _ h]

theorem v21_at (x0 : (⟨S50000x64, .f32⟩ : BufTy).Contents (Elt Ideal)) (x5 : (⟨S1600000, .i32⟩ : BufTy).Contents (Elt Ideal))
    (x8 : (⟨S64x1, .f32⟩ : BufTy).Contents (Elt Ideal)) (x9 : (⟨S1, .f32⟩ : BufTy).Contents (Elt Ideal))
    (e : Fin 1600000) (h : (x5 (ix1 e)).toNat < 50000) :
    val_main_v21 (F := Ideal) x0 x5 x8 x9 (ix2 e 0)
      = val_main_v7 (F := Ideal) x0 x8 x9 (ix2 (Cert.Spec.row (x5 (ix1 e))) 0) := by
  unfold val_main_v21
  rw [gather_row gather_S50000x1_S1600000x1_S1600000x1_1_0_n_n_0_1_11 rfl rfl rfl rfl rfl _ _ e 0 (by decide)]
  simp only [v20_at x5 e h, row_eq _ h]

theorem v46_at (x1 : (⟨S50000x64, .f32⟩ : BufTy).Contents (Elt Ideal)) (x4 : (⟨S1600000, .i32⟩ : BufTy).Contents (Elt Ideal))
    (x12 : (⟨S64x4, .f32⟩ : BufTy).Contents (Elt Ideal)) (x13 : (⟨S4, .f32⟩ : BufTy).Contents (Elt Ideal))
    (e : Fin 1600000) (j : Fin 4) (h : (x4 (ix1 e)).toNat < 50000) :
    val_main_v46 (F := Ideal) x1 x4 x12 x13 (ix2 e j)
      = val_main_v38 (F := Ideal) x1 x12 x13 (ix2 (Cert.Spec.row (x4 (ix1 e))) j) := by
  unfold val_main_v46
  rw [gather_row gather_S50000x4_S1600000x1_S1600000x4_1_0_n_n_0_1_14 rfl rfl rfl rfl rfl _ _ e j (by decide)]
  simp only [v45_at x4 e h, row_eq _ h]

theorem v53_at (x1 : (⟨S50000x64, .f32⟩ : BufTy).Contents (Elt Ideal)) (x5 : (⟨S1600000, .i32⟩ : BufTy).Contents (Elt Ideal))
    (x14 : (⟨S64x4, .f32⟩ : BufTy).Contents (Elt Ideal))
    (e : Fin 1600000) (j : Fin 4) (h : (x5 (ix1 e)).toNat < 50000) :
    val_main_v53 (F := Ideal) x1 x5 x14 (ix2 e j)
      = val_main_v39 (F := Ideal) x1 x14 (ix2 (Cert.Spec.row (x5 (ix1 e))) j) := by
  unfold val_main_v53
  rw [gather_row gather_S50000x4_S1600000x1_S1600000x4_1_0_n_n_0_1_14 rfl rfl rfl rfl rfl _ _ e j (by decide)]
  simp only [v52_at x5 e h, row_eq _ h]

/-! ## The parts of the pair energy

From here on the fifteen arrays are the fields of one record of inputs, and the edge's two words name nodes. -/

variable (I : Cert.Spec.Inputs)

/-- The gate's argument: the source node's gate plus the destination node's, plus the edge's own. -/
theorem v27_at (e : Fin 1600000) (hs : (I.src (ix1 e)).toNat < 50000) (hd : (I.dst (ix1 e)).toNat < 50000) :
    val_main_v27 (F := Ideal) I.x I.y I.src I.dst I.Wsg I.bsg I.Wdg I.bdg I.Weg I.beg (ix2 e 0) = Cert.Spec.gate I e := by
  rw [val_main_v27_apply, val_main_v22_apply, v14_at _ _ _ _ e hs, v21_at _ _ _ _ e hd, v3_at, v7_at, v26_at]
  rfl

/-- The four pair parameters: the exponential of the source node's row plus the destination node's. -/
theorem v55_at (e : Fin 1600000) (j : Fin 4) (hs : (I.src (ix1 e)).toNat < 50000) (hd : (I.dst (ix1 e)).toNat < 50000) :
    val_main_v55 (F := Ideal) I.x0 I.src I.dst I.Wsp I.bsp I.Wdp (ix2 e j) = Cert.Spec.par I e j := by
  rw [val_main_v55_apply, val_main_v54_apply, v46_at _ _ _ _ e j hs, v53_at _ _ _ e j hd, v38_at, v39_at]
  rfl

/-- The bond order: one over one plus the exponential of minus the gate's argument, the column read as a vector. -/
theorem v34_at (e : Fin 1600000) (hs : (I.src (ix1 e)).toNat < 50000) (hd : (I.dst (ix1 e)).toNat < 50000) :
    val_main_v34 (F := Ideal) I.x I.y I.src I.dst I.Wsg I.bsg I.Wdg I.bdg I.Weg I.beg (ix1 e) = Cert.Spec.bond I e := by
  have hi : idx_main_v34 (ix1 e) = ix2 e 0 := funext fun a => by
    match a with | ⟨0, _⟩ => exact Fin.ext (Nat.div_one _) | ⟨1, _⟩ => rfl
  rw [val_main_v34_apply, hi, val_main_v33_apply, val_main_v32_apply, val_main_cst_3_apply, val_main_v31_apply,
    val_main_v30_apply, val_main_cst_apply, val_main_v29_apply, val_main_v28_apply, v27_at I e hs hd]
  rfl

/-- The repulsive term: the first parameter times the exponential of minus the second times the bond length. -/
theorem v63_at (e : Fin 1600000) (hs : (I.src (ix1 e)).toNat < 50000) (hd : (I.dst (ix1 e)).toNat < 50000) :
    val_main_v63 (F := Ideal) I.x0 I.bl I.src I.dst I.Wsp I.bsp I.Wdp (ix1 e) = Cert.Spec.repulse I e := by
  have h0 : idx_main_v56 (idx_main_v57 (ix1 e)) = ix2 e 0 := funext fun a => by
    match a with | ⟨0, _⟩ => exact Fin.ext (Nat.div_one _) | ⟨1, _⟩ => rfl
  have h1 : idx_main_v58 (idx_main_v59 (ix1 e)) = ix2 e 1 := funext fun a => by
    match a with | ⟨0, _⟩ => exact Fin.ext (Nat.div_one _) | ⟨1, _⟩ => rfl
  rw [val_main_v63_apply, val_main_v57_apply, val_main_v56_apply, h0, val_main_v62_apply, val_main_v61_apply,
    val_main_v60_apply, val_main_v59_apply, val_main_v58_apply, h1, v55_at I e 0 hs hd, v55_at I e 1 hs hd]
  rfl

/-- The attractive term: the third parameter times the exponential of minus the fourth times the bond length. -/
theorem v71_at (e : Fin 1600000) (hs : (I.src (ix1 e)).toNat < 50000) (hd : (I.dst (ix1 e)).toNat < 50000) :
    val_main_v71 (F := Ideal) I.x0 I.bl I.src I.dst I.Wsp I.bsp I.Wdp (ix1 e) = Cert.Spec.attract I e := by
  have h2 : idx_main_v64 (idx_main_v65 (ix1 e)) = ix2 e 2 := funext fun a => by
    match a with | ⟨0, _⟩ => exact Fin.ext (Nat.div_one _) | ⟨1, _⟩ => rfl
  have h3 : idx_main_v66 (idx_main_v67 (ix1 e)) = ix2 e 3 := funext fun a => by
    match a with | ⟨0, _⟩ => exact Fin.ext (Nat.div_one _) | ⟨1, _⟩ => rfl
  rw [val_main_v71_apply, val_main_v65_apply, val_main_v64_apply, h2, val_main_v70_apply, val_main_v69_apply,
    val_main_v68_apply, val_main_v67_apply, val_main_v66_apply, h3, v55_at I e 2 hs hd, v55_at I e 3 hs hd]
  rfl

/-- The smooth cutoff of the bond length: zero past 4, one below 3.8, the half-sine ramp between. -/
theorem v90_at (x3 : (⟨S1600000, .f32⟩ : BufTy).Contents (Elt Ideal)) (e : Fin 1600000) :
    val_main_v90 (F := Ideal) x3 (ix1 e) = Cert.Spec.cut (x3 (ix1 e)) := by
  rw [val_main_v90_apply, val_main_v88_apply, val_main_v87_apply, val_main_cst_15_apply, val_main_v89_apply,
    val_main_cst_16_apply, val_main_v86_apply, val_main_v73_apply, val_main_v72_apply, val_main_cst_8_apply,
    val_main_v74_apply, val_main_cst_9_apply, val_main_v85_apply, val_main_v84_apply, val_main_cst_14_apply,
    val_main_v83_apply, val_main_v82_apply, val_main_cst_13_apply, val_main_v81_apply, val_main_v80_apply,
    val_main_v78_apply, val_main_v77_apply, val_main_cst_11_apply, val_main_v76_apply, val_main_v75_apply,
    val_main_cst_10_apply, val_main_v79_apply, val_main_cst_12_apply]
  rfl

/-! ## The pair energies -/

/-- The reference's array of pair energies, just before they are added onto the destination nodes, is the pair energy of
    every edge: the cutoff of the bond length times the repulsive term minus the bond order times the attractive one. -/
theorem ref_energies_of (h : Cert.Spec.InRange I) :
    val_main_v93 (F := Ideal) I.x I.x0 I.y I.bl I.src I.dst I.Wsg I.bsg I.Wdg I.bdg I.Weg I.beg I.Wsp I.bsp I.Wdp
      = Cert.Spec.energies I := by
  funext i
  obtain ⟨e, rfl⟩ : ∃ e : Fin 1600000, i = ix1 e := ⟨i 0, eq_ix1 i⟩
  obtain ⟨hs, hd⟩ := h e
  rw [val_main_v93_apply, val_main_v92_apply, val_main_v91_apply, v90_at, v63_at I e hs hd, v34_at I e hs hd,
    v71_at I e hs hd]
  rfl

/-- The same for the arguments of a launch memory of the reference's program on a core: the array of pair energies the
    reference holds just before adding them onto the destination nodes is the specification's, whenever every edge's two
    words name nodes. -/
theorem ref_energies (m : (ℓ : Loc Cert.ReferenceIdeal.nD Cert.ReferenceIdeal.τ Cert.ReferenceIdeal.sig) → Buf (Elt Ideal) ℓ)
    (c : Dev Cert.ReferenceIdeal.nD) (h : Cert.Spec.InRange (Cert.In.ofR m c)) :
    Cert.ReferenceIdeal.Read.val_main_v93 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14))
      = Cert.Spec.energies (Cert.In.ofR m c) :=
  ref_energies_of (Cert.In.ofR m c) h

end Cert.RefValue

end
-- ==== Proof.RefOut.lean ====
/-
  The reference's two results.

  After the pair energies the reference has three lines left: it adds each edge's energy onto its destination node
  (starting from zero node energies), sums the node energies, and divides by the number of nodes. Those lines are a
  function of the array of pair energies and of the destination words alone. The array of pair energies is the
  specification's whenever every edge's two words name nodes, so the two results are that function of the
  specification's pair energies.
-/
import proofs.«406755_j64407329571244_2_alg».proof.Proof.RefValue
import proofs.«406755_j64407329571244_2_alg».proof.Proof.Tail

noncomputable section

namespace Cert.RefOut

open Cert.ReferenceIdeal Cert.ReferenceIdeal.Gen Cert.ReferenceIdeal.Read Idealize.ShloMosaic Idealize.SL.Sem

/-- The node energies the reference returns are the pair energies of the specification added onto the destination nodes. -/
theorem ref_out1 (m : (ℓ : Loc Cert.ReferenceIdeal.nD Cert.ReferenceIdeal.τ Cert.ReferenceIdeal.sig) → Buf (Elt Ideal) ℓ)
    (c : Dev Cert.ReferenceIdeal.nD) (h : Cert.Spec.InRange (Cert.In.ofR m c)) :
    Cert.ReferenceIdeal.Value.res_main_v96 (F := Ideal) m c
      = Cert.Tail.atomR (Cert.Spec.energies (Cert.In.ofR m c)) (Cert.In.ofR m c).dst := by
  rw [val_main_v96_eq]
  unfold val_main_v96
  rw [Cert.RefValue.ref_energies m c h]
  rfl

/-- The energy the reference returns is the mean over the nodes of those node energies. -/
theorem ref_out0 (m : (ℓ : Loc Cert.ReferenceIdeal.nD Cert.ReferenceIdeal.τ Cert.ReferenceIdeal.sig) → Buf (Elt Ideal) ℓ)
    (c : Dev Cert.ReferenceIdeal.nD) (h : Cert.Spec.InRange (Cert.In.ofR m c)) :
    Cert.ReferenceIdeal.Value.res_main_v98 (F := Ideal) m c
      = Cert.Tail.meanR (Cert.Spec.energies (Cert.In.ofR m c)) (Cert.In.ofR m c).dst := by
  rw [val_main_v98_eq]
  unfold val_main_v98 val_main_v97 val_main_v96
  rw [Cert.RefValue.ref_energies m c h]
  rfl

end Cert.RefOut

end
-- ==== Proof.PreDecode.lean ====
/-
  What the precondition says of the two index arrays: every word of src and of dst, read as a natural, is below 50000.
  The precondition's last two conjuncts are "all (0 ≤ w ∧ w < 50000)" over the words of each array, the comparisons
  signed; a signed word that is at least 0 and less than 50000 has its natural value below 50000.
-/
import proofs.«406755_j64407329571244_2_alg».proof.Defs
import proofs.«406755_j64407329571244_2_alg».proof.Proof.Gen.Pre_finite_inputs
import proofs.«406755_j64407329571244_2_alg».proof.Proof.Inputs
import Idealize.ShloMosaic.Lib.ReduceAll
import Idealize.ShloMosaic.Lib.Affine

noncomputable section

namespace Cert.PreDecode

open Idealize.ShloMosaic Idealize.SL.Sem Cert.Pre_finite_inputs

instance : Subsingleton Cert.Pre_finite_inputs.S_.Idx := ⟨fun a b => funext fun d => d.elim0⟩

/-- A 32-bit word that is, signed, at least 0 and below 50000 is below 50000 as a natural. -/
theorem toNat_lt_of_signed {w : BitVec 32} (h0 : (0#32).toInt ≤ w.toInt) (h1 : w.toInt < (50000#32).toInt) :
    w.toNat < 50000 := by
  have e := BitVec.toInt_eq_toNat_cond w
  have e0 : (0#32 : BitVec 32).toInt = 0 := by decide
  have e1 : (50000#32 : BitVec 32).toInt = 50000 := by decide
  rw [e0] at h0; rw [e1] at h1
  split at e <;> omega

/-- One array's conjunct: the reduction by "and" of the two signed comparisons is one, so every word is in range. -/
theorem words_lt (x : IVec S1600000 32)
    (h : Host.reduce IntOp.andi (andi (cmpi .sge x (broadcastInDim S1600000 ![] Facts.bcast_S_S1600000 (constantI S_ 32 0#32)))
        (cmpi .slt x (broadcastInDim S1600000 ![] Facts.bcast_S_S1600000 (constantI S_ 32 50000#32))))
      (constantI S_ 1 1#1) Facts.reducesTo_S1600000_S_d0 Facts.h_S_ ValueIdx.ix0 = 1#1) (i : S1600000.Idx) :
    (x i).toNat < 50000 := by
  have hi := Host.reduce_andi_all _ _ _ _ _ h i
  obtain ⟨ha, hb⟩ := IntOp.andi_eq_one.mp hi
  exact toNat_lt_of_signed (IntOp.cmpi_sge.mp ha) (IntOp.cmpi_slt.mp hb)

/-- Under the kernel program's precondition every edge's two node words are in range. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.InRange (Cert.In.ofK m c) := by
  have h0 := congrFun (hpre c) ValueIdx.ix0
  dsimp only [Cert.Pre_finite_inputs.fn, fn_part1, fn_part2, fn_part3, fn_part4] at h0
  obtain ⟨h1, hd⟩ := IntOp.andi_eq_one.mp h0
  obtain ⟨_, hs⟩ := IntOp.andi_eq_one.mp h1
  intro e
  exact ⟨words_lt _ hs (ValueIdx.ix1 e), words_lt _ hd (ValueIdx.ix1 e)⟩

end Cert.PreDecode

end
-- ==== Proof.lean ====
/-
  The certificate's claims.
  Frames: the kernel's program at both instances by its generated frame; the reference's by its generated run with
  the results dropped. The idealization rewrote nothing, so it is preserved trivially.
  The value claim: under the precondition every word of src and dst names a node (is in [0, 50000)). Then, at the
  ideal instance, both programs return the same two results as extended reals: the scatter-add at the destination
  words of the pair energies V(e) = c(r_e) · (f_r(e) - b(e) · f_a(e)), and its mean over the 50000 nodes. The
  reference computes V in the arrangement the specification is written in. The kernel's program computes the node
  projections once per node in a first grid kernel (weights stacked, node tables padded with zero rows, the edge
  gate's bias folded into the destination gate's), gathers them at the edges' nodes on the host, and finishes per
  edge in a second grid kernel; commutativity and associativity of + and · on the extended reals, a + 0 = a and
  0 - a = -a join the two arrangements, and no finiteness is needed.
-/
import proofs.«406755_j64407329571244_2_alg».proof.Defs
import proofs.«406755_j64407329571244_2_alg».proof.Proof.Gen.Kernel
import proofs.«406755_j64407329571244_2_alg».proof.Proof.Gen.Kernel.Skeleton
import proofs.«406755_j64407329571244_2_alg».proof.Proof.Gen.Kernel.Launch
import proofs.«406755_j64407329571244_2_alg».proof.Proof.Gen.Kernel.Points
import proofs.«406755_j64407329571244_2_alg».proof.Proof.Gen.Kernel.Frame
import proofs.«406755_j64407329571244_2_alg».proof.Proof.Gen.KernelIdeal
import proofs.«406755_j64407329571244_2_alg».proof.Proof.Gen.KernelIdeal.Skeleton
import proofs.«406755_j64407329571244_2_alg».proof.Proof.Gen.KernelIdeal.Launch
import proofs.«406755_j64407329571244_2_alg».proof.Proof.Gen.KernelIdeal.Points
import proofs.«406755_j64407329571244_2_alg».proof.Proof.Gen.KernelIdeal.Frame
import proofs.«406755_j64407329571244_2_alg».proof.Proof.Gen.ReferenceIdeal
import proofs.«406755_j64407329571244_2_alg».proof.Proof.Gen.ReferenceIdeal.Run
import proofs.«406755_j64407329571244_2_alg».proof.Proof.Gen.ReferenceIdeal.Read
import proofs.«406755_j64407329571244_2_alg».proof.Proof.Gen.Pre_finite_inputs
import proofs.«406755_j64407329571244_2_alg».proof.Proof.RunVals
import proofs.«406755_j64407329571244_2_alg».proof.Proof.KernelValue
import proofs.«406755_j64407329571244_2_alg».proof.Proof.RefOut
import proofs.«406755_j64407329571244_2_alg».proof.Proof.PreDecode
import proofs.«406755_j64407329571244_2_alg».proof.Proof.Tail
import proofs.«406755_j64407329571244_2_alg».proof.Proof.Inputs
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Memories that agree on the fifteen arguments give the two programs one record of inputs. -/
theorem inputs_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.In.ofR m' c = Cert.In.ofK m c := by
  obtain ⟨h0, h1, h2, h3, h4, h5, h6, h7, h8, h9, h10, h11, h12, h13, h14⟩ := h
  unfold Cert.In.ofR Cert.In.ofK
  rw [h0, h1, h2, h3, h4, h5, h6, h7, h8, h9, h10, h11, h12, h13, h14]

theorem algebraic : Cert.algebraic_KernelIdeal_ReferenceIdeal := by
  intro m ρ m' ρ' hpre hagree
  have hr : ∀ c, Cert.Spec.InRange (Cert.In.ofK m c) := Cert.PreDecode.inRange_of_pre m hpre
  have hI : ∀ c, Cert.In.ofR m' c = Cert.In.ofK m c := fun c => inputs_eq m m' c (hagree c)
  have hr' : ∀ c, Cert.Spec.InRange (Cert.In.ofR m' c) := fun c => (hI c).symm ▸ hr c
  refine ⟨fun c => Cert.Tail.meanK (Cert.Spec.energies (Cert.In.ofK m c)) (Cert.In.ofK m c).dst,
    fun c => Cert.Tail.atomK (Cert.Spec.energies (Cert.In.ofK m c)) (Cert.In.ofK m c).dst, ?_, ?_⟩
  · exact (θ_run Cert.KernelIdeal.defs _ _).mono
      (fun r h c => ⟨(h c).1.trans (Cert.KernelIdeal.KValue.out0 m ρ c (hr c)),
        (h c).2.1.trans (Cert.KernelIdeal.KValue.out1 m ρ c (hr c)), (h c).2.2⟩)
      (Cert.KernelIdeal.RunVals.run_vals (F := Ideal) m ρ)
  · exact (θ_run Cert.ReferenceIdeal.defs _ _).mono
      (fun r h c => ⟨(h c).1.trans ((Cert.RefOut.ref_out0 m' c (hr' c)).trans (by rw [hI c]; exact (Cert.Tail.mean_eq _ _).symm)),
        (h c).2.1.trans ((Cert.RefOut.ref_out1 m' c (hr' c)).trans (by rw [hI c]; exact (Cert.Tail.atom_eq _ _).symm)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
